-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x512x512 : Shape := ⟨4, ![4, 8, 512, 512]⟩
abbrev S4x512x512 : Shape := ⟨3, ![4, 512, 512]⟩
abbrev S4x262144 : Shape := ⟨2, ![4, 262144]⟩
abbrev S4x262144x1 : Shape := ⟨3, ![4, 262144, 1]⟩
abbrev S8 : Shape := ⟨1, ![8]⟩
abbrev S1x1x8 : Shape := ⟨3, ![1, 1, 8]⟩
abbrev S4x262144x8 : Shape := ⟨3, ![4, 262144, 8]⟩
abbrev S_ : Shape := ⟨0, ![]⟩
abbrev S4x8 : Shape := ⟨2, ![4, 8]⟩

class Facts : Prop where
  shapeCasts_S4x512x512_S4x262144 : S4x512x512.ShapeCasts S4x262144
  bcast_S4x262144_S4x262144x1_0_1 : S4x262144.BroadcastsInDim S4x262144x1 (![0, 1] : Fin 2 → Fin S4x262144x1.rank)
  bcast_S8_S1x1x8_2 : S8.BroadcastsInDim S1x1x8 (![2] : Fin 1 → Fin S1x1x8.rank)
  bcast_S4x262144x1_S4x262144x8_0_1_2 : S4x262144x1.BroadcastsInDim S4x262144x8 (![0, 1, 2] : Fin 3 → Fin S4x262144x8.rank)
  bcast_S1x1x8_S4x262144x8_0_1_2 : S1x1x8.BroadcastsInDim S4x262144x8 (![0, 1, 2] : Fin 3 → Fin S4x262144x8.rank)
  bcast_S_S4x8x512x512 : S_.BroadcastsInDim S4x8x512x512 (![] : Fin 0 → Fin S4x8x512x512.rank)
  reducesTo_S4x8x512x512_S_d0_1_2_3 : S4x8x512x512.ReducesTo [0, 1, 2, 3] S_
  h_S_ : 0 < S_.numel
  reducesTo_S4x262144x8_S4x8_d1 : S4x262144x8.ReducesTo [1] S4x8
  reducesTo_S4x8_S_d0_1 : S4x8.ReducesTo [0, 1] S_

variable [Facts]

def fn {F : FTy → Type} [FloatOps F] (main_arg0 : FVec F S4x8x512x512 .f32) (main_arg1 : IVec S4x512x512 32) : IVec S_ 1 :=
  let main_v0 : IVec S4x262144 32 := shapeCast S4x262144 main_arg1 shapeCasts_S4x512x512_S4x262144
  let main_v1 : IVec S4x262144x1 32 := broadcastInDim S4x262144x1 ![0, 1] bcast_S4x262144_S4x262144x1_0_1 main_v0
  let main_v2 : IVec S8 32 := iotaInDim S8 32 0
  let main_v3 : IVec S1x1x8 32 := broadcastInDim S1x1x8 ![2] bcast_S8_S1x1x8_2 main_v2
  let main_v4 : IVec S4x262144x8 32 := broadcastInDim S4x262144x8 ![0, 1, 2] bcast_S4x262144x1_S4x262144x8_0_1_2 main_v1
  let main_v5 : IVec S4x262144x8 32 := broadcastInDim S4x262144x8 ![0, 1, 2] bcast_S1x1x8_S4x262144x8_0_1_2 main_v3
  let main_v6 : IVec S4x262144x8 1 := cmpi .eq main_v4 main_v5
  let main_v7 : FVec F S4x8x512x512 .f32 := Host.absf main_arg0
  let main_cst : FVec F S_ .f32 := constant S_ .f32 0x7F800000#32
  let main_v8 : FVec F S4x8x512x512 .f32 := broadcastInDim S4x8x512x512 ![] bcast_S_S4x8x512x512 main_cst
  let main_v9 : IVec S4x8x512x512 1 := cmpf .olt main_v7 main_v8
  let main_c : IVec S_ 1 := constantI S_ 1 1#1
  let main_v10 : IVec S_ 1 := (fun x v => Host.reduce IntOp.andi x v reducesTo_S4x8x512x512_S_d0_1_2_3 h_S_) main_v9 main_c
  let main_c_0 : IVec S_ 1 := constantI S_ 1 0#1
  let main_v11 : IVec S4x8 1 := (fun x v => Host.reduce IntOp.ori x v reducesTo_S4x262144x8_S4x8_d1 h_S_) main_v6 main_c_0
  let main_c_1 : IVec S_ 1 := constantI S_ 1 1#1
  let main_v12 : IVec S_ 1 := (fun x v => Host.reduce IntOp.andi x v reducesTo_S4x8_S_d0_1 h_S_) main_v11 main_c_1
  let main_v13 : IVec S_ 1 := andi main_v10 main_v12
  main_v13
-- ==== Kernel.lean ====
abbrev S4x8x512x512 : Shape := ⟨4, ![4, 8, 512, 512]⟩
abbrev S4x512x512 : Shape := ⟨3, ![4, 512, 512]⟩
abbrev S4x8x128 : Shape := ⟨3, ![4, 8, 128]⟩
abbrev S1x8x256x512 : Shape := ⟨4, ![1, 8, 256, 512]⟩
abbrev S1x256x512 : Shape := ⟨3, ![1, 256, 512]⟩
abbrev S1x8x128 : Shape := ⟨3, ![1, 8, 128]⟩
abbrev S8x256x512 : Shape := ⟨3, ![8, 256, 512]⟩
abbrev S256x512 : Shape := ⟨2, ![256, 512]⟩
abbrev S8x1x1 : Shape := ⟨3, ![8, 1, 1]⟩
abbrev S8x131072 : Shape := ⟨2, ![8, 131072]⟩
abbrev S8 : Shape := ⟨1, ![8]⟩
abbrev S8x1 : Shape := ⟨2, ![8, 1]⟩
abbrev S8x128 : Shape := ⟨2, ![8, 128]⟩
abbrev S8x8 : Shape := ⟨2, ![8, 8]⟩
abbrev S8x120 : Shape := ⟨2, ![8, 120]⟩
abbrev S4x8x8 : Shape := ⟨3, ![4, 8, 8]⟩
abbrev S4x8x1 : Shape := ⟨3, ![4, 8, 1]⟩
abbrev S4x8 : Shape := ⟨2, ![4, 8]⟩
abbrev S4x1x8 : Shape := ⟨3, ![4, 1, 8]⟩
abbrev S4x1x128 : Shape := ⟨3, ![4, 1, 128]⟩
abbrev S1x8x8 : Shape := ⟨3, ![1, 8, 8]⟩
abbrev S1x1x128 : Shape := ⟨3, ![1, 1, 128]⟩
abbrev S1x1 : Shape := ⟨2, ![1, 1]⟩
abbrev S1 : Shape := ⟨1, ![1]⟩
abbrev S1x1x1 : Shape := ⟨3, ![1, 1, 1]⟩
abbrev S1x128 : Shape := ⟨2, ![1, 128]⟩
abbrev S4x1x1 : Shape := ⟨3, ![4, 1, 1]⟩
abbrev S4 : Shape := ⟨1, ![4]⟩
abbrev S_ : Shape := ⟨0, ![]⟩
abbrev S4x8x1x8 : Shape := ⟨4, ![4, 8, 1, 8]⟩
abbrev S4x1x8x8 : Shape := ⟨4, ![4, 1, 8, 8]⟩
abbrev S4x8x8x8 : Shape := ⟨4, ![4, 8, 8, 8]⟩

abbrev nBuf : Space → Nat
  | .hbm => 86
  | .vmem => 16
  | .smem => 0
  | _ => 0

abbrev bufTy : (tb : Table) → Fin (tcTables nBuf tb) → BufTy
  | .hbm, ⟨0, _⟩ => ⟨S4x8x512x512, .f32⟩
  | .hbm, ⟨1, _⟩ => ⟨S4x512x512, .i32⟩
  | .hbm, ⟨2, _⟩ => ⟨S4x8x128, .f32⟩
  | .hbm, ⟨3, _⟩ => ⟨S4x8x128, .f32⟩
  | .hbm, ⟨4, _⟩ => ⟨S4x8x8, .f32⟩
  | .hbm, ⟨5, _⟩ => ⟨S4x8x1, .f32⟩
  | .hbm, ⟨6, _⟩ => ⟨S4x8, .f32⟩
  | .hbm, ⟨7, _⟩ => ⟨S4x1x8, .f32⟩
  | .hbm, ⟨8, _⟩ => ⟨S4x8x8, .f32⟩
  | .hbm, ⟨9, _⟩ => ⟨S4x8x8, .f32⟩
  | .hbm, ⟨10, _⟩ => ⟨S4x1x128, .f32⟩
  | .hbm, ⟨11, _⟩ => ⟨S4x1x1, .f32⟩
  | .hbm, ⟨12, _⟩ => ⟨S4, .f32⟩
  | .hbm, ⟨13, _⟩ => ⟨S_, .f32⟩
  | .hbm, ⟨14, _⟩ => ⟨S4x8, .f32⟩
  | .hbm, ⟨15, _⟩ => ⟨S4x8, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S4x8x8, .f32⟩
  | .hbm, ⟨23, _⟩ => ⟨S4x8x1x8, .f32⟩
  | .hbm, ⟨24, _⟩ => ⟨S4x1x8x8, .f32⟩
  | .hbm, ⟨25, _⟩ => ⟨S4x8x8x8, .f32⟩
  | .hbm, ⟨26, _⟩ => ⟨S4x8x8x8, .f32⟩
  | .hbm, ⟨27, _⟩ => ⟨S4x8x8x8, .f32⟩
  | .hbm, ⟨28, _⟩ => ⟨S4x8x8x8, .f32⟩
  | .hbm, ⟨29, _⟩ => ⟨S_, .f32⟩
  | .hbm, ⟨30, _⟩ => ⟨S4x8x8, .f32⟩
  | .hbm, ⟨31, _⟩ => ⟨S4x8x8, .f32⟩
  | .hbm, ⟨32, _⟩ => ⟨S8x8, .i32⟩
  | .hbm, ⟨33, _⟩ => ⟨S8x8, .i32⟩
  | .hbm, ⟨34, _⟩ => ⟨S_, .i32⟩
  | .hbm, ⟨35, _⟩ => ⟨S8x8, .i32⟩
  | .hbm, ⟨36, _⟩ => ⟨S8x8, .i32⟩
  | .hbm, ⟨37, _⟩ => ⟨S8x8, .i1⟩
  | .hbm, ⟨38, _⟩ => ⟨S8x8, .f32⟩
  | .hbm, ⟨39, _⟩ => ⟨S_, .f32⟩
  | .hbm, ⟨40, _⟩ => ⟨S8x8, .f32⟩
  | .hbm, ⟨41, _⟩ => ⟨S8x8, .f32⟩
  | .hbm, ⟨42, _⟩ => ⟨S_, .f32⟩
  | .hbm, ⟨43, _⟩ => ⟨S8x8, .f32⟩
  | .hbm, ⟨44, _⟩ => ⟨S8x8, .f32⟩
  | .hbm, ⟨45, _⟩ => ⟨S1x8x8, .f32⟩
  | .hbm, ⟨46, _⟩ => ⟨S4x8x8, .f32⟩
  | .hbm, ⟨47, _⟩ => ⟨S4x8x8, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4x8x8, .f32⟩
  | .hbm, ⟨52, _⟩ => ⟨S4x8x8, .f32⟩
  | .hbm, ⟨53, _⟩ => ⟨S_, .f32⟩
  | .hbm, ⟨54, _⟩ => ⟨S4x8x8, .f32⟩
  | .hbm, ⟨55, _⟩ => ⟨S4x8x8, .f32⟩
  | .hbm, ⟨56, _⟩ => ⟨S4x8x8, .f32⟩
  | .hbm, ⟨57, _⟩ => ⟨S_, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4x8x8, .f32⟩
  | .hbm, ⟨63, _⟩ => ⟨S_, .f32⟩
  | .hbm, ⟨64, _⟩ => ⟨S4x8, .f32⟩
  | .hbm, ⟨65, _⟩ => ⟨S4x8, .f32⟩
  | .hbm, ⟨66, _⟩ => ⟨S_, .f32⟩
  | .hbm, ⟨67, _⟩ => ⟨S4, .f32⟩
  | .hbm, ⟨68, _⟩ => ⟨S_, .f32⟩
  | .hbm, ⟨69, _⟩ => ⟨S4, .f32⟩
  | .hbm, ⟨70, _⟩ => ⟨S4, .f32⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .local _ .vmem, ⟨0, _⟩ => ⟨S1x8x256x512, .f32⟩
  | .local _ .vmem, ⟨1, _⟩ => ⟨S1x8x256x512, .f32⟩
  | .local _ .vmem, ⟨2, _⟩ => ⟨S1x256x512, .i32⟩
  | .local _ .vmem, ⟨3, _⟩ => ⟨S1x256x512, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x256x512, .f32⟩
  | .local _ .vmem, ⟨9, _⟩ => ⟨S1x8x256x512, .f32⟩
  | .local _ .vmem, ⟨10, _⟩ => ⟨S1x256x512, .i32⟩
  | .local _ .vmem, ⟨11, _⟩ => ⟨S1x256x512, .i32⟩
  | .local _ .vmem, ⟨12, _⟩ => ⟨S1x8x8, .f32⟩
  | .local _ .vmem, ⟨13, _⟩ => ⟨S1x8x8, .f32⟩
  | .local _ .vmem, ⟨14, _⟩ => ⟨S1x1x128, .f32⟩
  | .local _ .vmem, ⟨15, _⟩ => ⟨S1x1x128, .f32⟩
  | _, _ => ⟨S4x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_cst_6 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_15 : Ref sig .tc := ⟨.hbm, 82, rfl⟩
abbrev main_v57 : Ref sig .tc := ⟨.hbm, 83, rfl⟩
abbrev main_cst_16 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1x8x256x512_S1x8x256x512_0_0_0_0 : ∀ a, (![0, 0, 0, 0] : Fin 4 → Nat) a + S1x8x256x512.size a ≤ S1x8x256x512.size a
  h_S1x8x256x512 : 0 < S1x8x256x512.numel
  shapeCasts_S1x8x256x512_S8x256x512 : S1x8x256x512.ShapeCasts S8x256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  iota_S8x1x1_d0_w32 : S8x1x1.Iotas .tc 32 [0]
  shapeCasts_S256x512_S1x256x512 : S256x512.ShapeCasts S1x256x512
  broadcasts_S1x256x512_S8x256x512 : S1x256x512.Broadcasts S8x256x512
  broadcasts_S8x1x1_S8x256x512 : S8x1x1.Broadcasts S8x256x512
  natLt_1_32 : 1 < 32
  shapeCasts_S8x256x512_S8x131072 : S8x256x512.ShapeCasts S8x131072
  reduces_S8x131072_S8 : S8x131072.Reduces [1] S8
  shapeCasts_S8_S8x1 : S8.ShapeCasts S8x1
  shapeCasts_S1x8x128_S8x128 : S1x8x128.ShapeCasts S8x128
  shapeCasts_S8x1_S8x1 : S8x1.ShapeCasts S8x1
  broadcasts_S8x1_S8x128 : S8x1.Broadcasts S8x128
  shapeCasts_S8x128_S1x8x128 : S8x128.ShapeCasts S1x8x128
  bitsLt_bf16_f32 : FTy.bits .bf16 < FTy.bits .f32
  concatenates_S8x8_S8x120_S8x128_d1 : Shape.Concatenates [S8x8, S8x120] S8x128 1
  slices_S4x8x128_S4x8x8_0_0_0 : S4x8x128.Slices ![0, 0, 0] S4x8x8
  slices_S4x8x128_S4x8x1_0_0_0 : S4x8x128.Slices ![0, 0, 0] S4x8x1
  shapeCasts_S4x8x1_S4x8 : S4x8x1.ShapeCasts S4x8
  bcast_S4x8_S4x1x8_0_2 : S4x8.BroadcastsInDim S4x1x8 (![0, 2] : Fin 2 → Fin S4x1x8.rank)
  bcast_S4x1x8_S4x8x8_0_1_2 : S4x1x8.BroadcastsInDim S4x8x8 (![0, 1, 2] : Fin 3 → Fin S4x8x8.rank)
  inb_S1x1x128_S1x1x128_0_0_0 : ∀ a, (![0, 0, 0] : Fin 3 → Nat) a + S1x1x128.size a ≤ S1x1x128.size a
  h_S1x1x128 : 0 < S1x1x128.numel
  inb_S1x8x8_S1x8x8_0_0_0 : ∀ a, (![0, 0, 0] : Fin 3 → Nat) a + S1x8x8.size a ≤ S1x8x8.size a
  h_S1x8x8 : 0 < S1x8x8.numel
  shapeCasts_S1x8x8_S8x8 : S1x8x8.ShapeCasts S8x8
  slices_S8x8_o0_0_S8x1 : S8x8.Slices ![0, 0] S8x1
  shapeCasts_S8x1_S8x1x1 : S8x1.ShapeCasts S8x1x1
  reduces_S8x256x512_S256x512 : S8x256x512.Reduces [0] S256x512
  reduces_S1x256x512_S1 : S1x256x512.Reduces [1, 2] S1
  shapeCasts_S1_S1x1x1 : S1.ShapeCasts S1x1x1
  inpos_S1x1x1_p0_0_0 : ∀ a, (![0, 0, 0] : Fin 3 → Nat) a < S1x1x1.size a
  slices_S8x8_o0_1_S8x1 : S8x8.Slices ![0, 1] S8x1
  slices_S8x8_o0_2_S8x1 : S8x8.Slices ![0, 2] S8x1
  slices_S8x8_o0_3_S8x1 : S8x8.Slices ![0, 3] S8x1
  slices_S8x8_o0_4_S8x1 : S8x8.Slices ![0, 4] S8x1
  slices_S8x8_o0_5_S8x1 : S8x8.Slices ![0, 5] S8x1
  slices_S8x8_o0_6_S8x1 : S8x8.Slices ![0, 6] S8x1
  slices_S8x8_o0_7_S8x1 : S8x8.Slices ![0, 7] S8x1
  shapeCasts_S1x1x128_S1x128 : S1x1x128.ShapeCasts S1x128
  shapeCasts_S1x1_S1x1 : S1x1.ShapeCasts S1x1
  broadcasts_S1x1_S1x128 : S1x1.Broadcasts S1x128
  shapeCasts_S1x128_S1x1x128 : S1x128.ShapeCasts S1x1x128
  slices_S4x1x128_S4x1x1_0_0_0 : S4x1x128.Slices ![0, 0, 0] S4x1x1
  shapeCasts_S4x1x1_S4 : S4x1x1.ShapeCasts S4
  bcast_S_S4x8 : S_.BroadcastsInDim S4x8 (![] : Fin 0 → Fin S4x8.rank)
  reducesTo_S4x8_S4_d1 : S4x8.ReducesTo [1] S4
  h_S_ : 0 < S_.numel
  bcast_S_S4 : S_.BroadcastsInDim S4 (![] : Fin 0 → Fin S4.rank)
  transposes_S4x8x8_S4x8x8_0_2_1 : S4x8x8.Transposes [0, 2, 1] S4x8x8
  bcast_S4x8x8_S4x8x1x8_0_1_3 : S4x8x8.BroadcastsInDim S4x8x1x8 (![0, 1, 3] : Fin 3 → Fin S4x8x1x8.rank)
  bcast_S4x8x8_S4x1x8x8_0_2_3 : S4x8x8.BroadcastsInDim S4x1x8x8 (![0, 2, 3] : Fin 3 → Fin S4x1x8x8.rank)
  bcast_S4x8x1x8_S4x8x8x8_0_1_2_3 : S4x8x1x8.BroadcastsInDim S4x8x8x8 (![0, 1, 2, 3] : Fin 4 → Fin S4x8x8x8.rank)
  bcast_S4x1x8x8_S4x8x8x8_0_1_2_3 : S4x1x8x8.BroadcastsInDim S4x8x8x8 (![0, 1, 2, 3] : Fin 4 → Fin S4x8x8x8.rank)
  reducesTo_S4x8x8x8_S4x8x8_d3 : S4x8x8x8.ReducesTo [3] S4x8x8
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S4x8x8_0_1_2 : S1x8x8.BroadcastsInDim S4x8x8 (![0, 1, 2] : Fin 3 → Fin S4x8x8.rank)
  bcast_S_S4x8x8 : S_.BroadcastsInDim S4x8x8 (![] : Fin 0 → Fin S4x8x8.rank)
  reducesTo_S4x8x8_S4_d1_2 : S4x8x8.ReducesTo [1, 2] S4
  reducesTo_S4x8x8_S4x8_d1 : S4x8x8.ReducesTo [1] S4x8
  reducesTo_S4_S_d0 : S4.ReducesTo [0] S_
  dot_S8x131072_S8x131072_S8x8_1_1_0_0_n_n_wf : DotDims.WF S8x131072 S8x131072 S8x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x512.size a ≤ S4x8x512x512.size a
  hwx0_0 : ∀ i : grid0.Coords, EltTy.bits .f32 = 32 ∨ (Rect.block (s := S4x8x512x512) S1x8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S4x512x512.size a
  hwx0_1 : ∀ i : grid0.Coords, EltTy.bits .i32 = 32 ∨ (Rect.block (s := S4x512x512) S1x256x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S4x8x128.size a
  hwx0_2 : ∀ i : grid0.Coords, EltTy.bits .f32 = 32 ∨ (Rect.block (s := S4x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S4x8x128.size a
  hwx0_3 : ∀ i : grid0.Coords, EltTy.bits .f32 = 32 ∨ (Rect.block (s := S4x8x128) S1x8x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x256x512.size a ≤ S4x8x512x512.size a
  hwx1_0 : ∀ i : grid1.Coords, EltTy.bits .f32 = 32 ∨ (Rect.block (s := S4x8x512x512) S1x8x256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x512.size a ≤ S4x512x512.size a
  hwx1_1 : ∀ i : grid1.Coords, EltTy.bits .i32 = 32 ∨ (Rect.block (s := S4x512x512) S1x256x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x8.size a ≤ S4x8x8.size a
  hwx1_2 : ∀ i : grid1.Coords, EltTy.bits .f32 = 32 ∨ (Rect.block (s := S4x8x8) S1x8x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S4x1x128.size a
  hwx1_3 : ∀ i : grid1.Coords, EltTy.bits .f32 = 32 ∨ (Rect.block (s := S4x1x128) S1x1x128.size (cc1_transform_3 i) (hinb1_3 i)).WholeWords (EltTy.packing .f32)

variable [Facts₀]

def dot_S8x131072_S8x131072_S8x8_1_1_0_0_n_n : DotDims S8x131072 S8x131072 S8x8 where
  lhsContracting := [1]
  rhsContracting := [1]
  lhsNonContracting := [0]
  rhsNonContracting := [0]
  lhsBatch := []
  rhsBatch := []
  wf := dot_S8x131072_S8x131072_S8x8_1_1_0_0_n_n_wf

abbrev win0_0 : Pipeline.Window sig grid0 :=
  Pipeline.Window.ofSpec (Memref.whole main_arg0) S1x8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x8x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x8x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x8x512x512 : Shape := ⟨4, ![4, 8, 512, 512]⟩
abbrev S4x512x512 : Shape := ⟨3, ![4, 512, 512]⟩
abbrev S4x8x262144 : Shape := ⟨3, ![4, 8, 262144]⟩
abbrev S4x262144 : Shape := ⟨2, ![4, 262144]⟩
abbrev S4x262144x1 : Shape := ⟨3, ![4, 262144, 1]⟩
abbrev S8 : Shape := ⟨1, ![8]⟩
abbrev S1x8 : Shape := ⟨2, ![1, 8]⟩
abbrev S1x1x8 : Shape := ⟨3, ![1, 1, 8]⟩
abbrev S4x262144x8 : Shape := ⟨3, ![4, 262144, 8]⟩
abbrev S_ : Shape := ⟨0, ![]⟩
abbrev S4x8 : Shape := ⟨2, ![4, 8]⟩
abbrev S4x8x8 : Shape := ⟨3, ![4, 8, 8]⟩
abbrev S4x1x8 : Shape := ⟨3, ![4, 1, 8]⟩
abbrev S4x8x1x8 : Shape := ⟨4, ![4, 8, 1, 8]⟩
abbrev S4x8x262144x1 : Shape := ⟨4, ![4, 8, 262144, 1]⟩
abbrev S4x8x262144x8 : Shape := ⟨4, ![4, 8, 262144, 8]⟩
abbrev S4x1x262144x8 : Shape := ⟨4, ![4, 1, 262144, 8]⟩
abbrev S262144x8 : Shape := ⟨2, ![262144, 8]⟩
abbrev S4 : Shape := ⟨1, ![4]⟩
abbrev S4x1 : Shape := ⟨2, ![4, 1]⟩
abbrev S4x1x8x8 : Shape := ⟨4, ![4, 1, 8, 8]⟩
abbrev S4x8x8x8 : Shape := ⟨4, ![4, 8, 8, 8]⟩
abbrev S8x8 : Shape := ⟨2, ![8, 8]⟩
abbrev S1x8x8 : Shape := ⟨3, ![1, 8, 8]⟩

abbrev nBuf : Space → Nat
  | .hbm => 155
  | .vmem => 0
  | .smem => 0
  | _ => 0

abbrev hbmTy0_0 (i : Nat) : BufTy := match i % 128 with
  | 0 => ⟨S4x8x512x512, .f32⟩
  | 1 => ⟨S4x512x512, .i32⟩
  | 2 => ⟨S4x8x262144, .f32⟩
  | 3 => ⟨S4x262144, .i32⟩
  | 4 => ⟨S4x262144x1, .i32⟩
  | 5 => ⟨S8, .i32⟩
  | 6 => ⟨S1x8, .i32⟩
  | 7 => ⟨S1x1x8, .i32⟩
  | 8 => ⟨S4x262144x8, .i32⟩
  | 9 => ⟨S4x262144x8, .i32⟩
  | 10 => ⟨S4x262144x8, .i1⟩
  | 11 => ⟨S4x262144x8, .f32⟩
  | 12 => ⟨S_, .f32⟩
  | 13 => ⟨S4x8, .f32⟩
  | 14 => ⟨S4x8x8, .f32⟩
  | 15 => ⟨S4x1x8, .f32⟩
  | 16 => ⟨S4x8x8, .f32⟩
  | 17 => ⟨S4x8x8, .f32⟩
  | 18 => ⟨S4x8x1x8, .f32⟩
  | 19 => ⟨S4x8x262144x1, .f32⟩
  | 20 => ⟨S4x8x262144x8, .f32⟩
  | 21 => ⟨S4x8x262144x8, .f32⟩
  | 22 => ⟨S4x8x262144x8, .f32⟩
  | 23 => ⟨S4x1x262144x8, .f32⟩
  | 24 => ⟨S4x8x262144x8, .f32⟩
  | 25 => ⟨S4x8x262144x8, .f32⟩
  | 26 => ⟨S4x8x262144x8, .f32⟩
  | 27 => ⟨S_, .f32⟩
  | 28 => ⟨S4x262144x8, .f32⟩
  | 29 => ⟨S_, .f32⟩
  | 30 => ⟨S4x262144x8, .f32⟩
  | 31 => ⟨S4x262144x8, .i1⟩
  | 32 => ⟨S_, .f32⟩
  | 33 => ⟨S_, .f32⟩
  | 34 => ⟨S262144x8, .f32⟩
  | 35 => ⟨S4x262144x8, .f32⟩
  | 36 => ⟨S4x262144x8, .f32⟩
  | 37 => ⟨S4x262144x8, .f32⟩
  | 38 => ⟨S_, .f32⟩
  | 39 => ⟨S_, .f32⟩
  | 40 => ⟨S262144x8, .f32⟩
  | 41 => ⟨S4x262144x8, .f32⟩
  | 42 => ⟨S4x262144x8, .f32⟩
  | 43 => ⟨S_, .f32⟩
  | 44 => ⟨S4x262144x8, .f32⟩
  | 45 => ⟨S4x262144x8, .f32⟩
  | 46 => ⟨S_, .f32⟩
  | 47 => ⟨S_, .f32⟩
  | 48 => ⟨S_, .f32⟩
  | 49 => ⟨S4x262144x8, .f32⟩
  | 50 => ⟨S4x262144x8, .f32⟩
  | 51 => ⟨S_, .f32⟩
  | 52 => ⟨S4x262144x8, .f32⟩
  | 53 => ⟨S4x262144x8, .f32⟩
  | 54 => ⟨S4x262144x8, .f32⟩
  | 55 => ⟨S_, .f32⟩
  | 56 => ⟨S4, .f32⟩
  | 57 => ⟨S4x1, .f32⟩
  | 58 => ⟨S4x8, .f32⟩
  | 59 => ⟨S4x8, .f32⟩
  | 60 => ⟨S_, .f32⟩
  | 61 => ⟨S4, .f32⟩
  | 62 => ⟨S_, .f32⟩
  | 63 => ⟨S4, .f32⟩
  | 64 => ⟨S4, .f32⟩
  | 65 => ⟨S4x8x8, .f32⟩
  | 66 => ⟨S4x8x1x8, .f32⟩
  | 67 => ⟨S4x1x8x8, .f32⟩
  | 68 => ⟨S4x8x8x8, .f32⟩
  | 69 => ⟨S4x8x8x8, .f32⟩
  | 70 => ⟨S4x8x8x8, .f32⟩
  | 71 => ⟨S4x8x8x8, .f32⟩
  | 72 => ⟨S_, .f32⟩
  | 73 => ⟨S4x8x8, .f32⟩
  | 74 => ⟨S_, .f32⟩
  | 75 => ⟨S4x8x8, .f32⟩
  | 76 => ⟨S4x8x8, .i1⟩
  | 77 => ⟨S_, .f32⟩
  | 78 => ⟨S_, .f32⟩
  | 79 => ⟨S8x8, .f32⟩
  | 80 => ⟨S4x8x8, .f32⟩
  | 81 => ⟨S4x8x8, .f32⟩
  | 82 => ⟨S4x8x8, .f32⟩
  | 83 => ⟨S_, .f32⟩
  | 84 => ⟨S_, .f32⟩
  | 85 => ⟨S8x8, .f32⟩
  | 86 => ⟨S4x8x8, .f32⟩
  | 87 => ⟨S4x8x8, .f32⟩
  | 88 => ⟨S8x8, .i32⟩
  | 89 => ⟨S8x8, .i32⟩
  | 90 => ⟨S_, .i32⟩
  | 91 => ⟨S8x8, .i32⟩
  | 92 => ⟨S8x8, .i32⟩
  | 93 => ⟨S8x8, .i1⟩
  | 94 => ⟨S8x8, .f32⟩
  | 95 => ⟨S_, .f32⟩
  | 96 => ⟨S8x8, .f32⟩
  | 97 => ⟨S8x8, .f32⟩
  | 98 => ⟨S_, .f32⟩
  | 99 => ⟨S8x8, .f32⟩
  | 100 => ⟨S8x8, .f32⟩
  | 101 => ⟨S1x8x8, .f32⟩
  | 102 => ⟨S4x8x8, .f32⟩
  | 103 => ⟨S4x8x8, .f32⟩
  | 104 => ⟨S_, .f32⟩
  | 105 => ⟨S_, .f32⟩
  | 106 => ⟨S_, .f32⟩
  | 107 => ⟨S4x8x8, .f32⟩
  | 108 => ⟨S4x8x8, .f32⟩
  | 109 => ⟨S_, .f32⟩
  | 110 => ⟨S4x8x8, .f32⟩
  | 111 => ⟨S4x8x8, .f32⟩
  | 112 => ⟨S4x8x8, .f32⟩
  | 113 => ⟨S_, .f32⟩
  | 114 => ⟨S4, .f32⟩
  | 115 => ⟨S_, .f32⟩
  | 116 => ⟨S4, .f32⟩
  | 117 => ⟨S4, .f32⟩
  | 118 => ⟨S4x8x8, .f32⟩
  | 119 => ⟨S_, .f32⟩
  | 120 => ⟨S4x8, .f32⟩
  | 121 => ⟨S_, .f32⟩
  | 122 => ⟨S4x8, .f32⟩
  | 123 => ⟨S4x8, .i1⟩
  | 124 => ⟨S_, .f32⟩
  | 125 => ⟨S_, .f32⟩
  | 126 => ⟨S8, .f32⟩
  | 127 => ⟨S4x8, .f32⟩
  | _ => ⟨S4x8x512x512, .f32⟩

abbrev hbmTy0_1 (i : Nat) : BufTy := match i % 128 with
  | 0 => ⟨S4x8, .f32⟩
  | 1 => ⟨S4x8, .f32⟩
  | 2 => ⟨S_, .f32⟩
  | 3 => ⟨S_, .f32⟩
  | 4 => ⟨S8, .f32⟩
  | 5 => ⟨S4x8, .f32⟩
  | 6 => ⟨S4x8, .f32⟩
  | 7 => ⟨S_, .f32⟩
  | 8 => ⟨S4x8, .f32⟩
  | 9 => ⟨S4x8, .f32⟩
  | 10 => ⟨S_, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S_, .f32⟩
  | 20 => ⟨S4, .f32⟩
  | 21 => ⟨S4, .f32⟩
  | 22 => ⟨S4, .f32⟩
  | 23 => ⟨S_, .f32⟩
  | 24 => ⟨S_, .f32⟩
  | 25 => ⟨S_, .f32⟩
  | 26 => ⟨S_, .f32⟩
  | _ => ⟨S4x8x512x512, .f32⟩

abbrev hbmTy (i : Nat) : BufTy := match i / 128 with
  | 0 => hbmTy0_0 i
  | 1 => hbmTy0_1 i
  | _ => ⟨S4x8x512x512, .f32⟩

abbrev bufTy : (tb : Table) → Fin (tcTables nBuf tb) → BufTy
  | .hbm, ⟨i, _⟩ => hbmTy i
  | _, _ => ⟨S4x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_cst_6 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_cst_12 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v51 : Ref sig .tc := ⟨.hbm, 81, rfl⟩
abbrev main_v52 : Ref sig .tc := ⟨.hbm, 82, rfl⟩
abbrev main_cst_13 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_14 : Ref sig .tc := ⟨.hbm, 95, rfl⟩
abbrev main_v60 : Ref sig .tc := ⟨.hbm, 96, rfl⟩
abbrev main_v61 : Ref sig .tc := ⟨.hbm, 97, rfl⟩
abbrev main_cst_15 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_16 : Ref sig .tc := ⟨.hbm, 104, rfl⟩
abbrev main_cst_17 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_v67 : Ref sig .tc := ⟨.hbm, 111, rfl⟩
abbrev main_v68 : Ref sig .tc := ⟨.hbm, 112, rfl⟩
abbrev main_cst_18 : Ref sig .tc := ⟨.hbm, 113, rfl⟩
abbrev main_v69 : Ref sig .tc := ⟨.hbm, 114, rfl⟩
abbrev main_cst_19 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_20 : Ref sig .tc := ⟨.hbm, 119, rfl⟩
abbrev main_v73 : Ref sig .tc := ⟨.hbm, 120, rfl⟩
abbrev main_cst_21 : Ref sig .tc := ⟨.hbm, 121, rfl⟩
abbrev main_v74 : Ref sig .tc := ⟨.hbm, 122, rfl⟩
abbrev main_v75 : Ref sig .tc := ⟨.hbm, 123, rfl⟩
abbrev main_cst_22 : Ref sig .tc := ⟨.hbm, 124, rfl⟩
abbrev main_call6_v0 : Ref sig .tc := ⟨.hbm, 125, rfl⟩
abbrev main_call6_v1 : Ref sig .tc := ⟨.hbm, 126, rfl⟩
abbrev main_call6_v2 : Ref sig .tc := ⟨.hbm, 127, rfl⟩
abbrev main_v76 : Ref sig .tc := ⟨.hbm, 128, rfl⟩
abbrev main_v77 : Ref sig .tc := ⟨.hbm, 129, rfl⟩
abbrev main_cst_23 : Ref sig .tc := ⟨.hbm, 130, rfl⟩
abbrev main_call7_v0 : Ref sig .tc := ⟨.hbm, 131, rfl⟩
abbrev main_call7_v1 : Ref sig .tc := ⟨.hbm, 132, rfl⟩
abbrev main_call7_v2 : Ref sig .tc := ⟨.hbm, 133, rfl⟩
abbrev main_v78 : Ref sig .tc := ⟨.hbm, 134, rfl⟩
abbrev main_cst_24 : Ref sig .tc := ⟨.hbm, 135, rfl⟩
abbrev main_v79 : Ref sig .tc := ⟨.hbm, 136, rfl⟩
abbrev main_v80 : Ref sig .tc := ⟨.hbm, 137, rfl⟩
abbrev main_cst_25 : Ref sig .tc := ⟨.hbm, 138, rfl⟩
abbrev main_v81 : Ref sig .tc := ⟨.hbm, 139, rfl⟩
abbrev main_cst_26 : Ref sig .tc := ⟨.hbm, 140, rfl⟩
abbrev main_v82 : Ref sig .tc := ⟨.hbm, 141, rfl⟩
abbrev main_v83 : Ref sig .tc := ⟨.hbm, 142, rfl⟩
abbrev main_cst_27 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_cst_28 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_cst_29 : Ref sig .tc := ⟨.hbm, 151, rfl⟩
abbrev main_v90 : Ref sig .tc := ⟨.hbm, 152, rfl⟩
abbrev main_cst_30 : Ref sig .tc := ⟨.hbm, 153, rfl⟩
abbrev main_v91 : Ref sig .tc := ⟨.hbm, 154, rfl⟩

abbrev nD : Nat := 1
abbrev τ : Topo := Topo.v7x

variable {F : FTy → Type} [FloatOps F]

class Facts₀ : Prop where
  shapeCasts_S4x8x512x512_S4x8x262144 : S4x8x512x512.ShapeCasts S4x8x262144
  shapeCasts_S4x512x512_S4x262144 : S4x512x512.ShapeCasts S4x262144
  bcast_S4x262144_S4x262144x1_0_1 : S4x262144.BroadcastsInDim S4x262144x1 (![0, 1] : Fin 2 → Fin S4x262144x1.rank)
  bcast_S8_S1x8_1 : S8.BroadcastsInDim S1x8 (![1] : Fin 1 → Fin S1x8.rank)
  bcast_S1x8_S1x1x8_1_2 : S1x8.BroadcastsInDim S1x1x8 (![1, 2] : Fin 2 → Fin S1x1x8.rank)
  bcast_S4x262144x1_S4x262144x8_0_1_2 : S4x262144x1.BroadcastsInDim S4x262144x8 (![0, 1, 2] : Fin 3 → Fin S4x262144x8.rank)
  bcast_S1x1x8_S4x262144x8_0_1_2 : S1x1x8.BroadcastsInDim S4x262144x8 (![0, 1, 2] : Fin 3 → Fin S4x262144x8.rank)
  reducesTo_S4x262144x8_S4x8_d1 : S4x262144x8.ReducesTo [1] S4x8
  h_S_ : 0 < S_.numel
  bcast_S4x8_S4x1x8_0_2 : S4x8.BroadcastsInDim S4x1x8 (![0, 2] : Fin 2 → Fin S4x1x8.rank)
  bcast_S4x1x8_S4x8x8_0_1_2 : S4x1x8.BroadcastsInDim S4x8x8 (![0, 1, 2] : Fin 3 → Fin S4x8x8.rank)
  bcast_S4x8x8_S4x8x1x8_0_1_3 : S4x8x8.BroadcastsInDim S4x8x1x8 (![0, 1, 3] : Fin 3 → Fin S4x8x1x8.rank)
  bcast_S4x8x262144_S4x8x262144x1_0_1_2 : S4x8x262144.BroadcastsInDim S4x8x262144x1 (![0, 1, 2] : Fin 3 → Fin S4x8x262144x1.rank)
  bcast_S4x8x1x8_S4x8x262144x8_0_1_2_3 : S4x8x1x8.BroadcastsInDim S4x8x262144x8 (![0, 1, 2, 3] : Fin 4 → Fin S4x8x262144x8.rank)
  bcast_S4x8x262144x1_S4x8x262144x8_0_1_2_3 : S4x8x262144x1.BroadcastsInDim S4x8x262144x8 (![0, 1, 2, 3] : Fin 4 → Fin S4x8x262144x8.rank)
  bcast_S4x262144x8_S4x1x262144x8_0_2_3 : S4x262144x8.BroadcastsInDim S4x1x262144x8 (![0, 2, 3] : Fin 3 → Fin S4x1x262144x8.rank)
  bcast_S4x1x262144x8_S4x8x262144x8_0_1_2_3 : S4x1x262144x8.BroadcastsInDim S4x8x262144x8 (![0, 1, 2, 3] : Fin 4 → Fin S4x8x262144x8.rank)
  reducesTo_S4x8x262144x8_S4x262144x8_d1 : S4x8x262144x8.ReducesTo [1] S4x262144x8
  bcast_S_S4x262144x8 : S_.BroadcastsInDim S4x262144x8 (![] : Fin 0 → Fin S4x262144x8.rank)
  bcast_S_S262144x8 : S_.BroadcastsInDim S262144x8 (![] : Fin 0 → Fin S262144x8.rank)
  bcast_S262144x8_S4x262144x8_1_2 : S262144x8.BroadcastsInDim S4x262144x8 (![1, 2] : Fin 2 → Fin S4x262144x8.rank)
  reducesTo_S4x262144x8_S4_d1_2 : S4x262144x8.ReducesTo [1, 2] S4
  bcast_S4_S4x1_0 : S4.BroadcastsInDim S4x1 (![0] : Fin 1 → Fin S4x1.rank)
  bcast_S4x1_S4x8_0_1 : S4x1.BroadcastsInDim S4x8 (![0, 1] : Fin 2 → Fin S4x8.rank)
  reducesTo_S4x8_S4_d1 : S4x8.ReducesTo [1] S4
  bcast_S_S4 : S_.BroadcastsInDim S4 (![] : Fin 0 → Fin S4.rank)
  transposes_S4x8x8_S4x8x8_0_2_1 : S4x8x8.Transposes [0, 2, 1] S4x8x8
  bcast_S4x8x8_S4x1x8x8_0_2_3 : S4x8x8.BroadcastsInDim S4x1x8x8 (![0, 2, 3] : Fin 3 → Fin S4x1x8x8.rank)
  bcast_S4x8x1x8_S4x8x8x8_0_1_2_3 : S4x8x1x8.BroadcastsInDim S4x8x8x8 (![0, 1, 2, 3] : Fin 4 → Fin S4x8x8x8.rank)
  bcast_S4x1x8x8_S4x8x8x8_0_1_2_3 : S4x1x8x8.BroadcastsInDim S4x8x8x8 (![0, 1, 2, 3] : Fin 4 → Fin S4x8x8x8.rank)
  reducesTo_S4x8x8x8_S4x8x8_d3 : S4x8x8x8.ReducesTo [3] S4x8x8
  bcast_S_S4x8x8 : S_.BroadcastsInDim S4x8x8 (![] : Fin 0 → Fin S4x8x8.rank)
  bcast_S_S8x8 : S_.BroadcastsInDim S8x8 (![] : Fin 0 → Fin S8x8.rank)
  bcast_S8x8_S4x8x8_1_2 : S8x8.BroadcastsInDim S4x8x8 (![1, 2] : Fin 2 → Fin S4x8x8.rank)
  bcast_S8x8_S1x8x8_1_2 : S8x8.BroadcastsInDim S1x8x8 (![1, 2] : Fin 2 → Fin S1x8x8.rank)
  bcast_S1x8x8_S4x8x8_0_1_2 : S1x8x8.BroadcastsInDim S4x8x8 (![0, 1, 2] : Fin 3 → Fin S4x8x8.rank)
  reducesTo_S4x8x8_S4_d1_2 : S4x8x8.ReducesTo [1, 2] S4
  reducesTo_S4x8x8_S4x8_d1 : S4x8x8.ReducesTo [1] S4x8
  bcast_S_S4x8 : S_.BroadcastsInDim S4x8 (![] : Fin 0 → Fin S4x8.rank)
  bcast_S_S8 : S_.BroadcastsInDim S8 (![] : Fin 0 → Fin S8.rank)
  bcast_S8_S4x8_1 : S8.BroadcastsInDim S4x8 (![1] : Fin 1 → Fin S4x8.rank)
  reducesTo_S4_S_d0 : S4.ReducesTo [0] S_
  dot_S4x8x262144_S4x262144x8_S4x8x8_2_1_1_2_0_0_wf : DotDims.WF S4x8x262144 S4x262144x8 S4x8x8 [2] [1] [1] [2] [0] [0]

variable [Facts₀]

def dot_S4x8x262144_S4x262144x8_S4x8x8_2_1_1_2_0_0 : DotDims S4x8x262144 S4x262144x8 S4x8x8 where
  lhsContracting := [2]
  rhsContracting := [1]
  lhsNonContracting := [1]
  rhsNonContracting := [2]
  lhsBatch := [0]
  rhsBatch := [0]
  wf := dot_S4x8x262144_S4x262144x8_S4x8x8_2_1_1_2_0_0_wf

class Facts : Prop extends Facts₀ where

variable [Facts]
-- ==== Proof.RefRun.lean ====
/-
  The reference's run and its stages read at an index: this module only gathers the two generated modules about
  the reference program, so that every module about the reference's value has one import.
-/
import proofs.«424189_j66632122630437_4_alg».proof.Proof.Gen.ReferenceIdeal.Run
import proofs.«424189_j66632122630437_4_alg».proof.Proof.Gen.ReferenceIdeal.Read
-- ==== Proof.Spec.lean ====
/-
  The clustering loss as mathematics over the extended reals, with no program in sight.

  A sample `b` has 512 x 512 pixels, each with an 8-vector of features `p b f h w` and an integer label `t b h w`.
  For a label `c` in 0..7: `cnt b c` is the number of pixels carrying it, `sm b f c` the sum of feature `f` over those
  pixels, `mean b f c` their quotient (the centroid).  The variance term sums, over every pixel and label, the clipped
  and squared distance of the pixel to the centroid of ITS OWN label (the indicator kills every other pair); the
  distance term pushes centroids apart; the regulariser is the mean centroid norm.  Two arrangements of the same
  arithmetic are stated side by side (suffix K and R): K multiplies the summed distance by the sum of reciprocal
  counts and takes plain square roots; R divides the summed distance by each count before adding, guards every square
  root by a test for positivity, and divides each centroid norm by 8 before adding.  They agree when every count is a
  positive real and the features are finite: a guarded root of a non-negative number is its root, the square of a
  difference does not see its sign, and a product distributes over a sum of non-negative terms.
-/
import Idealize.ShloMosaic.PureOps.Ideal
import Idealize.ShloMosaic.PureOps.Ideal.Laws
import Idealize.ShloMosaic.Lib.ValueIdx

noncomputable section

namespace Cert.Disc

open Idealize.ShloMosaic Idealize.ShloMosaic.ValueIdx

/-- The feature array's shape: sample, feature, row, column. -/
abbrev SP : Shape := ⟨4, ![4, 8, 512, 512]⟩
/-- The label array's shape: sample, row, column. -/
abbrev ST : Shape := ⟨3, ![4, 512, 512]⟩

/-! ## The constants, as the words both programs print -/

abbrev half : EReal := Ideal.ofBits .f32 0x3F000000#32
abbrev cap : EReal := Ideal.ofBits .f32 0x47C35000#32
abbrev one : EReal := Ideal.ofBits .f32 0x3F800000#32
abbrev three : EReal := Ideal.ofBits .f32 0x40400000#32
abbrev four : EReal := Ideal.ofBits .f32 0x40800000#32
abbrev eight : EReal := Ideal.ofBits .f32 0x41000000#32
abbrev fiftysix : EReal := Ideal.ofBits .f32 0x42600000#32
abbrev milli : EReal := Ideal.ofBits .f32 0x3A83126F#32

/-! ## Counts, sums, centroids -/

section Moments

variable (p : SP.Idx → EReal) (t : ST.Idx → BitVec 32)

/-- Pixel (h, w) of sample b carries label c. -/
def lab (b : Fin 4) (h w : Fin 512) (c : Fin 8) : Prop := t (ix3 b h w) = BitVec.ofNat 32 c.val

instance (b : Fin 4) (h w : Fin 512) (c : Fin 8) : Decidable (lab t b h w c) := by unfold lab; infer_instance

/-- The indicator of `lab`, as an extended real. -/
def oh (b : Fin 4) (h w : Fin 512) (c : Fin 8) : EReal := if lab t b h w c then 1 else 0

/-- How many pixels of sample b carry label c. -/
def cnt (b : Fin 4) (c : Fin 8) : EReal := ∑ h : Fin 512, ∑ w : Fin 512, oh t b h w c

/-- Feature f summed over the pixels of sample b that carry label c. -/
def sm (b : Fin 4) (f : Fin 8) (c : Fin 8) : EReal := ∑ h : Fin 512, ∑ w : Fin 512, p (ix4 b f h w) * oh t b h w c

/-- The centroid of label c in sample b, feature f. -/
def mean (b : Fin 4) (f : Fin 8) (c : Fin 8) : EReal := Ideal.div (sm p t b f c) (cnt t b c)

end Moments

/-! ## The clipped squared distance of a pixel to a centroid -/

/-- Clip to [0, 100000], then square. -/
def clipsq (x : EReal) : EReal := min cap (max 0 x) * min cap (max 0 x)

/-- A square root guarded twice by a test for positivity: `where(s > 0, sqrt(where(s > 0, s, 1)), 0)`. -/
def safeNorm (s : EReal) : EReal := if 0 < s then Ideal.sqrt (if 0 < s then s else one) else 0

section Distance

variable (p : SP.Idx → EReal) (t : ST.Idx → BitVec 32) (μ : Fin 4 → Fin 8 → Fin 8 → EReal)

/-- Arrangement K: the squared distance to centroid c, masked AFTER the sum over features, plain root. -/
def dK (b : Fin 4) (h w : Fin 512) (c : Fin 8) : EReal :=
  clipsq (Ideal.sqrt ((∑ f : Fin 8, (p (ix4 b f h w) - μ b f c) * (p (ix4 b f h w) - μ b f c)) * oh t b h w c) - half)

/-- Arrangement R: each feature's difference (centroid minus pixel) masked BEFORE squaring, guarded root. -/
def dR (b : Fin 4) (h w : Fin 512) (c : Fin 8) : EReal :=
  clipsq (safeNorm (∑ f : Fin 8, ((μ b f c - p (ix4 b f h w)) * oh t b h w c) * ((μ b f c - p (ix4 b f h w)) * oh t b h w c)) - half)

/-- The summed distance of sample b, arrangement K. -/
def distK (b : Fin 4) : EReal := ∑ h : Fin 512, ∑ w : Fin 512, ∑ c : Fin 8, dK p t μ b h w c

/-- The summed distance of sample b, arrangement R. -/
def distR (b : Fin 4) : EReal := ∑ h : Fin 512, ∑ w : Fin 512, ∑ c : Fin 8, dR p t μ b h w c

end Distance

/-! ## From counts, centroids and summed distances to the loss -/

section Loss

variable (n : Fin 4 → Fin 8 → EReal) (D : Fin 4 → EReal) (μ : Fin 4 → Fin 8 → Fin 8 → EReal)

/-- The identity matrix's entry. -/
def eye (c c' : Fin 8) : EReal := if c = c' then 1 else 0

/-- The margin between two different centroids is 3, between a centroid and itself 0. -/
def margin (c c' : Fin 8) : EReal := three * (one - eye c c')

/-- The squared distance between the centroids of labels c and c'. -/
def pdsq (b : Fin 4) (c c' : Fin 8) : EReal := ∑ f : Fin 8, (μ b f c - μ b f c') * (μ b f c - μ b f c')

/-- The squared norm of the centroid of label c. -/
def regsq (b : Fin 4) (c : Fin 8) : EReal := ∑ f : Fin 8, μ b f c * μ b f c

def lvarK (b : Fin 4) : EReal := Ideal.div (D b * ∑ c : Fin 8, Ideal.div one (n b c)) eight
def lvarR (b : Fin 4) : EReal := Ideal.div (∑ c : Fin 8, Ideal.div (D b) (n b c)) eight

def ldistK (b : Fin 4) : EReal := Ideal.div (∑ c : Fin 8, ∑ c' : Fin 8, clipsq (margin c c' - Ideal.sqrt (pdsq μ b c c'))) fiftysix
def ldistR (b : Fin 4) : EReal := Ideal.div (∑ c : Fin 8, ∑ c' : Fin 8, clipsq (margin c c' - safeNorm (pdsq μ b c c'))) fiftysix

def lregK (b : Fin 4) : EReal := Ideal.div (∑ c : Fin 8, Ideal.sqrt (regsq μ b c)) eight
def lregR (b : Fin 4) : EReal := ∑ c : Fin 8, Ideal.div (safeNorm (regsq μ b c)) eight

/-- The loss, arrangement K. -/
def lossK : EReal := Ideal.div (∑ b : Fin 4, ((one * lvarK n D b + one * ldistK μ b) + milli * lregK μ b)) four
/-- The loss, arrangement R. -/
def lossR : EReal := Ideal.div (∑ b : Fin 4, ((one * lvarR n D b + one * ldistR μ b) + milli * lregR μ b)) four

end Loss

end Cert.Disc

end
-- ==== Proof.SpecLaws.lean ====
/-
  The laws that join the two arrangements of the clustering loss (see the specification module), and the
  re-indexings of a sum over pixels that both programs' tilings need.
-/
import proofs.«424189_j66632122630437_4_alg».proof.Proof.Spec
import Mathlib.Data.EReal.Operations
import Mathlib.Logic.Equiv.Fin.Basic
import Mathlib.Algebra.BigOperators.Fin
import Mathlib.Algebra.Order.BigOperators.Group.Finset

noncomputable section

namespace Cert.Disc

open Idealize.ShloMosaic Idealize.ShloMosaic.ValueIdx

/-! ## Small facts about the extended reals -/

/-- The root of zero is zero. -/
theorem sqrt_zero : Ideal.sqrt 0 = 0 := by
  rw [← EReal.coe_zero, Ideal.sqrt_coe]; simp

/-- The root of a non-negative extended real is non-negative. -/
theorem sqrt_nonneg {x : EReal} (hx : 0 ≤ x) : 0 ≤ Ideal.sqrt x := by
  induction x using EReal.rec with
  | bot => simp at hx
  | coe r =>
    have hr : 0 ≤ r := by exact_mod_cast hx
    rw [Ideal.sqrt_coe, if_neg (not_lt.mpr hr)]
    exact_mod_cast Real.sqrt_nonneg r
  | top => simp

/-- A square is non-negative, at the infinities too. -/
theorem mul_self_nonneg' (x : EReal) : 0 ≤ x * x := by
  induction x using EReal.rec with
  | bot => simp
  | coe r => rw [← EReal.coe_mul]; exact_mod_cast mul_self_nonneg r
  | top => simp

/-- A finite sum of squares is non-negative. -/
theorem sum_mul_self_nonneg {ι : Type*} (s : Finset ι) (a : ι → EReal) : 0 ≤ ∑ i ∈ s, a i * a i :=
  Finset.sum_nonneg fun i _ => mul_self_nonneg' (a i)

/-- The coercion of a finite sum of reals is the sum of the coercions. -/
theorem coe_sum {ι : Type*} (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- A product distributes from the right over a finite sum of non-negative terms. -/
theorem sum_mul_of_nonneg {ι : Type*} (s : Finset ι) (a : ι → EReal) (ha : ∀ i ∈ s, 0 ≤ a i) (k : EReal) :
    (∑ i ∈ s, a i) * k = ∑ i ∈ s, a i * k := by
  classical
  induction s using Finset.induction_on with
  | empty => simp
  | insert i s hi ih =>
    rw [Finset.sum_insert hi, Finset.sum_insert hi,
      EReal.right_distrib_of_nonneg (ha i (Finset.mem_insert_self i s))
        (Finset.sum_nonneg fun j hj => ha j (Finset.mem_insert_of_mem hj)),
      ih fun j hj => ha j (Finset.mem_insert_of_mem hj)]

/-- A product distributes from the left over a finite sum of non-negative terms. -/
theorem mul_sum_of_nonneg {ι : Type*} (s : Finset ι) (a : ι → EReal) (ha : ∀ i ∈ s, 0 ≤ a i) (k : EReal) :
    k * (∑ i ∈ s, a i) = ∑ i ∈ s, k * a i := by
  classical
  induction s using Finset.induction_on with
  | empty => simp
  | insert i s hi ih =>
    rw [Finset.sum_insert hi, Finset.sum_insert hi,
      EReal.left_distrib_of_nonneg (ha i (Finset.mem_insert_self i s))
        (Finset.sum_nonneg fun j hj => ha j (Finset.mem_insert_of_mem hj)),
      ih fun j hj => ha j (Finset.mem_insert_of_mem hj)]

/-! ## The constants as reals -/

theorem one_eq : one = 1 := by
  simp [one, Ideal.ofBits, Ideal.ieee, -EReal.coe_mul]; norm_num

theorem eight_eq : eight = ((8 : ℝ) : EReal) := by
  simp [eight, Ideal.ofBits, Ideal.ieee, -EReal.coe_mul]; norm_num

/-- The squared distance between two centroids is non-negative. -/
theorem pdsq_nonneg (μ : Fin 4 → Fin 8 → Fin 8 → EReal) (b : Fin 4) (c c' : Fin 8) : 0 ≤ pdsq μ b c c' := by
  unfold pdsq; exact sum_mul_self_nonneg _ _

/-- The squared norm of a centroid is non-negative. -/
theorem regsq_nonneg (μ : Fin 4 → Fin 8 → Fin 8 → EReal) (b : Fin 4) (c : Fin 8) : 0 ≤ regsq μ b c := by
  unfold regsq; exact sum_mul_self_nonneg _ _

/-- A guarded root of a non-negative extended real is its root. -/
theorem safeNorm_eq_sqrt {s : EReal} (hs : 0 ≤ s) : safeNorm s = Ideal.sqrt s := by
  unfold safeNorm
  rcases hs.lt_or_eq with h | h
  · rw [if_pos h, if_pos h]
  · subst h
    rw [if_neg (lt_irrefl _), sqrt_zero]

/-- With finite features the two arrangements of a pixel's clipped distance agree: the indicator is 0 or 1, so masking
    before or after squaring is the same, and a difference's square does not see its sign. -/
theorem dR_eq_dK (p : SP.Idx → EReal) (t : ST.Idx → BitVec 32) (μ : Fin 4 → Fin 8 → Fin 8 → EReal)
    (hp : ∀ i, ∃ r : ℝ, p i = (r : EReal)) (b : Fin 4) (h w : Fin 512) (c : Fin 8) :
    dR p t μ b h w c = dK p t μ b h w c := by
  unfold dR dK
  congr 2
  by_cases hl : lab t b h w c
  · have ho : oh t b h w c = 1 := by unfold oh; rw [if_pos hl]
    simp only [ho, mul_one]
    rw [safeNorm_eq_sqrt (sum_mul_self_nonneg _ _)]
    congr 1
    refine Finset.sum_congr rfl fun f _ => ?_
    obtain ⟨r, hr⟩ := hp (ix4 b f h w)
    rw [hr]
    have hneg : μ b f c - (r : EReal) = -((r : EReal) - μ b f c) := by
      rw [EReal.neg_sub (Or.inl (EReal.coe_ne_bot r)) (Or.inl (EReal.coe_ne_top r)), add_comm, sub_eq_add_neg]
    rw [hneg, neg_mul_neg]
  · have ho : oh t b h w c = 0 := by unfold oh; rw [if_neg hl]
    simp only [ho, mul_zero, Finset.sum_const_zero]
    rw [sqrt_zero]
    unfold safeNorm
    rw [if_neg (lt_irrefl _)]

theorem distR_eq_distK (p : SP.Idx → EReal) (t : ST.Idx → BitVec 32) (μ : Fin 4 → Fin 8 → Fin 8 → EReal)
    (hp : ∀ i, ∃ r : ℝ, p i = (r : EReal)) (b : Fin 4) : distR p t μ b = distK p t μ b := by
  unfold distR distK
  exact Finset.sum_congr rfl fun h _ => Finset.sum_congr rfl fun w _ => Finset.sum_congr rfl fun c _ => dR_eq_dK p t μ hp b h w c

/-- A label that occurs has a count that is a positive real. -/
theorem cnt_pos_real (t : ST.Idx → BitVec 32) (b : Fin 4) (c : Fin 8) (hex : ∃ h w, lab t b h w c) :
    ∃ k : ℝ, 0 < k ∧ cnt t b c = (k : EReal) := by
  obtain ⟨h0, w0, hl⟩ := hex
  refine ⟨∑ h : Fin 512, ∑ w : Fin 512, (if lab t b h w c then (1 : ℝ) else 0), ?_, ?_⟩
  · have hnn : ∀ h w, (0 : ℝ) ≤ if lab t b h w c then (1 : ℝ) else 0 := by
      intro h w; split_ifs <;> norm_num
    have h1 : (1 : ℝ) ≤ ∑ w : Fin 512, (if lab t b h0 w c then (1 : ℝ) else 0) := by
      calc (1 : ℝ) = (if lab t b h0 w0 c then (1 : ℝ) else 0) := by rw [if_pos hl]
        _ ≤ _ := Finset.single_le_sum (f := fun w => if lab t b h0 w c then (1 : ℝ) else 0)
              (fun w _ => hnn h0 w) (Finset.mem_univ w0)
    have h2 : ∑ w : Fin 512, (if lab t b h0 w c then (1 : ℝ) else 0)
        ≤ ∑ h : Fin 512, ∑ w : Fin 512, (if lab t b h w c then (1 : ℝ) else 0) :=
      Finset.single_le_sum (f := fun h => ∑ w : Fin 512, (if lab t b h w c then (1 : ℝ) else 0))
        (fun h _ => Finset.sum_nonneg fun w _ => hnn h w) (Finset.mem_univ h0)
    linarith
  · unfold cnt
    rw [coe_sum]
    refine Finset.sum_congr rfl fun h _ => ?_
    rw [coe_sum]
    refine Finset.sum_congr rfl fun w _ => ?_
    unfold oh
    split_ifs <;> simp

/-- When every count is a positive real the two arrangements of the loss agree. -/
theorem lossR_eq_lossK (n : Fin 4 → Fin 8 → EReal) (D : Fin 4 → EReal) (μ : Fin 4 → Fin 8 → Fin 8 → EReal)
    (hn : ∀ b c, ∃ k : ℝ, 0 < k ∧ n b c = (k : EReal)) : lossR n D μ = lossK n D μ := by
  have hvar : ∀ b, lvarR n D b = lvarK n D b := by
    intro b
    unfold lvarR lvarK
    congr 1
    have hterm : ∀ c, ∃ k : ℝ, 0 < k ∧ Ideal.div (D b) (n b c) = D b * ((1 / k : ℝ) : EReal)
        ∧ Ideal.div one (n b c) = ((1 / k : ℝ) : EReal) := by
      intro c
      obtain ⟨k, hk, hnk⟩ := hn b c
      exact ⟨k, hk, by rw [hnk, Ideal.div_coe hk.ne'], by rw [hnk, Ideal.div_coe hk.ne', one_eq, one_mul]⟩
    choose k hk hD h1 using hterm
    simp only [hD, h1]
    rw [mul_sum_of_nonneg]
    intro c _
    exact_mod_cast (one_div_pos.mpr (hk c)).le
  have hdist : ∀ b, ldistR μ b = ldistK μ b := by
    intro b
    unfold ldistR ldistK
    congr 1
    refine Finset.sum_congr rfl fun c _ => Finset.sum_congr rfl fun c' _ => ?_
    rw [safeNorm_eq_sqrt (pdsq_nonneg μ b c c')]
  have hreg : ∀ b, lregR μ b = lregK μ b := by
    intro b
    unfold lregR lregK
    rw [eight_eq, Ideal.div_coe (by norm_num : (8 : ℝ) ≠ 0),
      sum_mul_of_nonneg _ _ (fun c _ => sqrt_nonneg (regsq_nonneg μ b c))]
    refine Finset.sum_congr rfl fun c _ => ?_
    rw [Ideal.div_coe (by norm_num : (8 : ℝ) ≠ 0), safeNorm_eq_sqrt (regsq_nonneg μ b c)]
  unfold lossR lossK
  simp only [hvar, hdist, hreg]

/-! ## Sums over pixels, re-indexed -/

/-- 512 rows are two tiles of 256. -/
theorem sum_rows_halves {M : Type*} [AddCommMonoid M] (g : Fin 512 → M) :
    ∑ h : Fin 512, g h = ∑ hh : Fin 2, ∑ th : Fin 256, g ⟨hh.val * 256 + th.val, by have := hh.isLt; have := th.isLt; omega⟩ := by
  rw [← Fintype.sum_equiv (finProdFinEquiv : Fin 2 × Fin 256 ≃ Fin 512) (fun x => g (finProdFinEquiv x)) g (fun _ => rfl),
    Fintype.sum_prod_type]
  refine Finset.sum_congr rfl fun hh _ => Finset.sum_congr rfl fun th _ => congrArg g (Fin.ext ?_)
  show th.val + 256 * hh.val = hh.val * 256 + th.val
  omega

/-- A flat pixel index is (row, column). -/
theorem sum_pixels {M : Type*} [AddCommMonoid M] (g : Fin 262144 → M) :
    ∑ k : Fin 262144, g k = ∑ h : Fin 512, ∑ w : Fin 512, g ⟨h.val * 512 + w.val, by have := h.isLt; have := w.isLt; omega⟩ := by
  rw [← Fintype.sum_equiv (finProdFinEquiv : Fin 512 × Fin 512 ≃ Fin 262144) (fun x => g (finProdFinEquiv x)) g (fun _ => rfl),
    Fintype.sum_prod_type]
  refine Finset.sum_congr rfl fun h _ => Finset.sum_congr rfl fun w _ => congrArg g (Fin.ext ?_)
  show w.val + 512 * h.val = h.val * 512 + w.val
  omega

/-- A flat index into a tile of 256 rows is (row in the tile, column). -/
theorem sum_tile {M : Type*} [AddCommMonoid M] (g : Fin 131072 → M) :
    ∑ k : Fin 131072, g k = ∑ th : Fin 256, ∑ w : Fin 512, g ⟨th.val * 512 + w.val, by have := th.isLt; have := w.isLt; omega⟩ := by
  rw [← Fintype.sum_equiv (finProdFinEquiv : Fin 256 × Fin 512 ≃ Fin 131072) (fun x => g (finProdFinEquiv x)) g (fun _ => rfl),
    Fintype.sum_prod_type]
  refine Finset.sum_congr rfl fun th _ => Finset.sum_congr rfl fun w _ => congrArg g (Fin.ext ?_)
  show w.val + 512 * th.val = th.val * 512 + w.val
  omega

end Cert.Disc

end
-- ==== Proof.PreRead.lean ====
/-
  What the precondition says, read back: every feature is a real number, and every label 0..7 occurs among the
  pixels of every sample.
-/
import proofs.«424189_j66632122630437_4_alg».proof.Proof.Spec
import proofs.«424189_j66632122630437_4_alg».proof.Proof.Gen.Pre_finite_inputs
import Idealize.ShloMosaic.Lib.ReduceAll
import Idealize.ShloMosaic.Lib.StableHlo.Predicate
import Idealize.ShloMosaic.Lib.Pipeline.Value

noncomputable section

namespace Cert.PreRead

open Idealize.ShloMosaic Idealize.ShloMosaic.ValueIdx Cert.Disc

/-! ## A left fold by `or` that ends at 1 -/

/-- A left fold by `or` over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduction by `or` from an initial value other than 1 that is 1 at `j` met a 1 at some operand index that reduces into `j`. -/
theorem reduce_ori_eq_one {s t u : Shape} {axes : List (Fin s.rank)} (x : s.Idx → BitVec 1) (init : u.Idx → BitVec 1)
    (h : s.ReducesTo axes t) (hu : 0 < u.numel) (j : t.Idx) (hinit : init (Shape.Idx.first hu) ≠ 1#1)
    (e : Host.reduce IntOp.ori x init h hu j = 1#1) : ∃ i : s.Idx, h.drop i = j ∧ x i = 1#1 := by
  rw [Host.reduce_eq_foldl] at e
  rcases foldl_ori_eq_one x _ _ e with h1 | ⟨i, hi, hx⟩
  · exact absurd h1 hinit
  · rw [List.mem_filter] at hi
    exact ⟨i, by simpa using hi.2, hx⟩

/-! ## An extended real whose absolute value is below +∞ is a real -/

/-- The word 0x7F800000 read as a float is +∞. -/
theorem inf_word : Ideal.ofBits .f32 0x7F800000#32 = (⊤ : EReal) := by
  simp [Ideal.ofBits, Ideal.ieee]

/-- If max x (-x) < +∞ then x is neither infinity. -/
theorem real_of_abs_lt (x : EReal) (hx : Ideal.cmp .olt (max x (-x)) (Ideal.ofBits .f32 0x7F800000#32) = 1#1) :
    ∃ r : ℝ, x = (r : EReal) := by
  rw [inf_word] at hx
  have hlt : max x (-x) < ⊤ := by
    simpa [Ideal.cmp, StableHlo.Predicate.ofBool_eq_one_iff] using hx
  induction x using EReal.rec with
  | bot => simp at hlt
  | coe r => exact ⟨r, rfl⟩
  | top => simp at hlt

instance : Subsingleton Cert.Pre_finite_inputs.S_.Idx := ⟨fun _ _ => funext fun d => d.elim0⟩

/-! ## The label test read at one element -/

section Read

open Cert.Pre_finite_inputs

/-- The labels, flattened to [4, 262144] and laid along a new last axis of extent 8, read at (b, n, c): the label of sample b at row n / 512, column n % 512. -/
theorem labels_apply (t : ST.Idx → BitVec 32) (h₀ : S4x512x512.ShapeCasts S4x262144)
    (h₁ : S4x262144.BroadcastsInDim S4x262144x1 (![0, 1] : Fin 2 → Fin S4x262144x1.rank))
    (h₂ : S4x262144x1.BroadcastsInDim S4x262144x8 (![0, 1, 2] : Fin 3 → Fin S4x262144x8.rank))
    (i : S4x262144x8.Idx) (hr : (i 1).val / 512 < 512) (hc : (i 1).val % 512 < 512) :
    broadcastInDim S4x262144x8 ![0, 1, 2] h₂ (broadcastInDim S4x262144x1 ![0, 1] h₁ (shapeCast S4x262144 t h₀)) i
      = t (ix3 (i 0) ⟨(i 1).val / 512, hr⟩ ⟨(i 1).val % 512, hc⟩) := by
  rw [broadcastInDim_apply _ h₂ _ i (ix3 (i 0) (i 1) (0 : Fin 1)) (fun a => by
      match a with
      | ⟨0, _⟩ => rfl
      | ⟨1, _⟩ => rfl
      | ⟨2, _⟩ => rfl)]
  rw [broadcastInDim_apply _ h₁ _ _ (ix2 (i 0) (i 1)) (fun a => by
      match a with
      | ⟨0, _⟩ => rfl
      | ⟨1, _⟩ => rfl)]
  refine shapeCast_apply t h₀ _ _ ?_
  rw [Shape.rowMajor_val_three, Shape.rowMajor_val_two]
  have h1 : (i 1).val < 262144 := (i 1).isLt
  show ((i 0).val * 512 + (i 1).val / 512) * 512 + (i 1).val % 512 = (i 0).val * 262144 + (i 1).val
  omega

/-- The iota 0..7 laid along the last axis of [4, 262144, 8], read at (b, n, c): the word c. -/
theorem iota_apply' (h₁ : S8.BroadcastsInDim S1x1x8 (![2] : Fin 1 → Fin S1x1x8.rank))
    (h₂ : S1x1x8.BroadcastsInDim S4x262144x8 (![0, 1, 2] : Fin 3 → Fin S4x262144x8.rank)) (i : S4x262144x8.Idx) :
    broadcastInDim S4x262144x8 ![0, 1, 2] h₂ (broadcastInDim S1x1x8 ![2] h₁ (iotaInDim S8 32 0)) i = BitVec.ofNat 32 (i 2).val := by
  rw [broadcastInDim_apply _ h₂ _ i (ix3 (0 : Fin 1) (0 : Fin 1) (i 2)) (fun a => by
      match a with
      | ⟨0, _⟩ => rfl
      | ⟨1, _⟩ => rfl
      | ⟨2, _⟩ => rfl)]
  rw [broadcastInDim_apply _ h₁ _ _ (ix1 (i 2)) (fun a => by
      match a with
      | ⟨0, _⟩ => rfl)]
  rfl

end Read

/-- The printed precondition holding of (p, t) gives finiteness of p and the presence of every label in every sample. -/
theorem of_pre (p : SP.Idx → EReal) (t : ST.Idx → BitVec 32)
    (h : Cert.Pre_finite_inputs.fn (F := Ideal) p t = fun _ => 1#1) :
    (∀ i, ∃ r : ℝ, p i = (r : EReal)) ∧ ∀ (b : Fin 4) (c : Fin 8), ∃ (hh ww : Fin 512), lab t b hh ww c := by
  have h0 := congrFun h ValueIdx.ix0
  unfold Cert.Pre_finite_inputs.fn at h0
  dsimp only at h0
  obtain ⟨hA, hB⟩ := IntOp.andi_eq_one.1 h0
  refine ⟨fun i => real_of_abs_lt (p i) (Host.reduce_andi_all _ _ _ _ ix0 hA i), fun b c => ?_⟩
  -- the disjunction over the pixels of sample b of "the label is c" is 1
  have hbc := Host.reduce_andi_all _ _ _ _ ix0 hB (ix2 b c)
  -- so one flattened pixel n of sample b carries the word c
  obtain ⟨i, hi, hx⟩ := reduce_ori_eq_one _ _ _ _ (ix2 b c) (by decide) hbc
  have e0 : (i 0).val = b.val := by
    have := Shape.ReducesTo.drop_apply_val_of_eq Cert.Pre_finite_inputs.Facts.reducesTo_S4x262144x8_S4x8_d1 i 0 0
    rw [hi] at this; exact this.symm
  have e2 : (i 2).val = c.val := by
    have := Shape.ReducesTo.drop_apply_val_of_eq Cert.Pre_finite_inputs.Facts.reducesTo_S4x262144x8_S4x8_d1 i 1 2
    rw [hi] at this; exact this.symm
  have h1 : (i 1).val < 262144 := (i 1).isLt
  have hr : (i 1).val / 512 < 512 := by omega
  have hc : (i 1).val % 512 < 512 := by omega
  have hw := StableHlo.Predicate.cmpi_eq_iff.1 hx
  rw [labels_apply t _ _ _ i hr hc, iota_apply' _ _ i] at hw
  refine ⟨⟨(i 1).val / 512, hr⟩, ⟨(i 1).val % 512, hc⟩, ?_⟩
  unfold lab
  have eb : (i 0 : Fin 4) = b := Fin.ext e0
  rw [← eb, ← e2]
  exact hw

end Cert.PreRead

end
-- ==== Proof.Region1Tile.lean ====
/-
  The arithmetic of one grid point of the distance region, read at the extended reals.
  A point sees a tile of 256 rows of one sample: its features (8 x 256 x 512), its labels (256 x 512) and the sample's
  8 x 8 centroid block (feature, label).  For each label k in turn the body spreads column k of the centroid block over
  the tile, sums over the 8 features the squared difference to it, multiplies by the indicator that the pixel's label is
  k, takes the root, subtracts one half, clips to [0, 100000], squares, and sums over the tile; the eight sums are added
  in turn from zero and the total is added to every lane of the output block.  Here: the repeated operations as three
  small functions (the spread column, the per-pixel term, the tile total), the body's terms as compositions of them,
  each read at an index as a finite sum, ONE lemma for a label's contribution, and the body at a lane as what the block
  held plus the sum over the eight labels.
-/
import proofs.«424189_j66632122630437_4_alg».proof.Proof.Gen.KernelIdeal.Skeleton
import proofs.«424189_j66632122630437_4_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

set_option maxRecDepth 16384

noncomputable section

namespace Cert.KernelIdeal.Region1

open Cert.KernelIdeal Cert.KernelIdeal.Gen Cert.Disc
open Idealize.ShloMosaic Idealize.ShloMosaic.ValueIdx
section Generic
variable {F : FTy → Type} [FloatOps F]

/-- A column of the centroid block spread over the tile: entry (f, h, w) is the column's entry f. -/
def spread (s : FVec F S8x1 .f32) : FVec F S8x256x512 .f32 :=
  broadcastTo S8x256x512 (shapeCast S8x1x1 s shapeCasts_S8x1_S8x1x1) broadcasts_S8x1x1_S8x256x512

/-- Per pixel of the tile: the squared distance of its features to the spread column, times the indicator that its
    label is k; the root of that, less one half, clipped to [0, 100000], squared. -/
def pix (v4 : FVec F S8x256x512 .f32) (v6 : IVec S256x512 32) (B : FVec F S8x256x512 .f32) (k : BitVec 32) :
    FVec F S256x512 .f32 :=
  have d : FVec F S8x256x512 .f32 := subf v4 B
  have s : FVec F S256x512 .f32 := multiReduction .add [0] S256x512 (mulf d d) 0x00000000#32 reduces_S8x256x512_S256x512 (.inl rfl) rfl
  have m : FVec F S256x512 .f32 := sitofp .f32 (extui 32 (cmpi .eq v6 (broadcast S256x512 k)) natLt_1_32)
  have r : FVec F S256x512 .f32 := subf (sqrt (mulf s m)) (broadcast S256x512 (Scalar.ofBits .f32 0x3F000000#32))
  have q : FVec F S256x512 .f32 :=
    minimumf (broadcast S256x512 (Scalar.ofBits .f32 0x47C35000#32)) (maximumf (broadcast S256x512 (Scalar.ofBits .f32 0x00000000#32)) r)
  mulf q q

/-- The sum over the tile, as the one-entry vector the body extracts it from. -/
def tot (x : FVec F S256x512 .f32) : FVec F S1x1x1 .f32 :=
  shapeCast S1x1x1 (multiReduction .add [1, 2] S1 (shapeCast S1x256x512 x shapeCasts_S256x512_S1x256x512) 0x00000000#32
    reduces_S1x256x512_S1 (.inl rfl) rfl) shapeCasts_S1_S1x1x1

/-- The same, as the 1 x 1 vector the body adds to its accumulator. -/
def term (x : FVec F S256x512 .f32) : FVec F S1x1 .f32 := broadcast S1x1 (extractAt ![0, 0, 0] (tot x) inpos_S1x1x1_p0_0_0)

theorem pay6_eq (x0 : Vec F S1x8x256x512 .f32) (x1 : Vec F S1x256x512 .i32) (x2 : Vec F S1x8x8 .f32) :
    k1_pay6 x0 x1 x2 = addf (broadcast S1x1 (Scalar.ofBits .f32 0x00000000#32))
      (term (pix (k1_pay3 x0) (k1_pay4 x1) (spread (extractStridedSlice S8x1 ![0, 0] (k1_pay5 x2) slices_S8x8_o0_0_S8x1)) 0#32)) := rfl

theorem pay7_eq (x2 : Vec F S1x8x8 .f32) :
    k1_pay7 x2 = spread (extractStridedSlice S8x1 ![0, 1] (k1_pay5 x2) slices_S8x8_o0_1_S8x1) := rfl

theorem pay8_eq (v4 : FVec F S8x256x512 .f32) (v6 : IVec S256x512 32) (v8 : FVec F S8x8 .f32) (v34 : FVec F S1x1 .f32)
    (v37 : FVec F S8x256x512 .f32) :
    k1_pay8 v4 v6 v8 v34 v37 = addf (addf v34 (term (pix v4 v6 v37 1#32)))
      (term (pix v4 v6 (spread (extractStridedSlice S8x1 ![0, 2] v8 slices_S8x8_o0_2_S8x1)) 2#32)) := rfl

theorem pay9_eq (v8 : FVec F S8x8 .f32) : k1_pay9 v8 = extractStridedSlice S8x1 ![0, 3] v8 slices_S8x8_o0_3_S8x1 := rfl

theorem pay10_eq (v4 : FVec F S8x256x512 .f32) (v6 : IVec S256x512 32) (v84 : FVec F S1x1 .f32) (v85 : FVec F S8x1 .f32) :
    k1_pay10 v4 v6 v84 v85 = addf v84 (term (pix v4 v6 (spread v85) 3#32)) := rfl

theorem pay11_eq (v4 : FVec F S8x256x512 .f32) (v6 : IVec S256x512 32) (v8 : FVec F S8x8 .f32) :
    k1_pay11 v4 v6 v8 = term (pix v4 v6 (spread (extractStridedSlice S8x1 ![0, 4] v8 slices_S8x8_o0_4_S8x1)) 4#32) := rfl

theorem pay12_eq (v4 : FVec F S8x256x512 .f32) (v6 : IVec S256x512 32) (v8 : FVec F S8x8 .f32) (v109 v133 : FVec F S1x1 .f32) :
    k1_pay12 v4 v6 v8 v109 v133 = addf (addf v109 v133)
      (term (pix v4 v6 (spread (extractStridedSlice S8x1 ![0, 5] v8 slices_S8x8_o0_5_S8x1)) 5#32)) := rfl

theorem pay13_eq (v4 : FVec F S8x256x512 .f32) (v6 : IVec S256x512 32) (v8 : FVec F S8x8 .f32) :
    k1_pay13 v4 v6 v8 = tot (pix v4 v6 (spread (extractStridedSlice S8x1 ![0, 6] v8 slices_S8x8_o0_6_S8x1)) 6#32) := rfl

theorem pay1_eq (v4 : FVec F S8x256x512 .f32) (v6 : IVec S256x512 32) (v8 : FVec F S8x8 .f32) (v159 : FVec F S1x1 .f32)
    (v181 : FVec F S1x1x1 .f32) (v210 : Vec F S1x1x128 .f32) :
    k1_pay1 v4 v6 v8 v159 v181 v210 = shapeCast S1x1x128 (addf (shapeCast S1x128 v210 shapeCasts_S1x1x128_S1x128)
      (broadcastTo S1x128 (shapeCast S1x1 (addf (addf v159 (broadcast S1x1 (extractAt ![0, 0, 0] v181 inpos_S1x1x1_p0_0_0)))
        (term (pix v4 v6 (spread (extractStridedSlice S8x1 ![0, 7] v8 slices_S8x8_o0_7_S8x1)) 7#32))) shapeCasts_S1x1_S1x1)
        broadcasts_S1x1_S1x128)) shapeCasts_S1x128_S1x1x128 := rfl

/-- One run of the body as a function of the three input blocks and of what the output block held when the
    accumulation reads it: the eight labels' tile sums added in turn from zero, then added to every lane. -/
def body (x0 : Vec F S1x8x256x512 .f32) (x1 : Vec F S1x256x512 .i32) (x2 : Vec F S1x8x8 .f32) (o : Vec F S1x1x128 .f32) :
    FVec F S1x1x128 .f32 :=
  k1_pay1 (k1_pay3 x0) (k1_pay4 x1) (k1_pay5 x2)
    (k1_pay12 (k1_pay3 x0) (k1_pay4 x1) (k1_pay5 x2)
      (k1_pay10 (k1_pay3 x0) (k1_pay4 x1)
        (k1_pay8 (k1_pay3 x0) (k1_pay4 x1) (k1_pay5 x2) (k1_pay6 x0 x1 x2) (k1_pay7 x2))
        (k1_pay9 (k1_pay5 x2)))
      (k1_pay11 (k1_pay3 x0) (k1_pay4 x1) (k1_pay5 x2)))
    (k1_pay13 (k1_pay3 x0) (k1_pay4 x1) (k1_pay5 x2))
    o

end Generic

section AtIdeal

/-- The spread column at (f, h, w) is the column's entry f. -/
theorem spread_apply (s : FVec Ideal S8x1 .f32) (f : Fin 8) (th : Fin 256) (w : Fin 512) :
    spread s (ix3 f th w) = s (ix2 f 0) := by
  unfold spread
  refine (broadcastTo_apply _ broadcasts_S8x1x1_S8x256x512 (ix3 f th w) (ix3 f 0 0) fun a => ?_).trans ?_
  · match a with
    | ⟨0, _⟩ => rfl
    | ⟨1, _⟩ => rfl
    | ⟨2, _⟩ => rfl
  · exact shapeCast_apply s shapeCasts_S8x1_S8x1x1 (ix3 f 0 0) (ix2 f 0) (by
      rw [Shape.rowMajor_val_two, Shape.rowMajor_val_three]
      show f.val * 1 + 0 = (f.val * 1 + 0) * 1 + 0
      omega)

/-- Column o of the 8 x 8 block, entry f. -/
theorem slice_apply (v8 : FVec Ideal S8x8 .f32) (o : Nat) (ho : o < 8) (h : S8x8.Slices ![0, o] S8x1) (f : Fin 8) :
    extractStridedSlice S8x1 ![0, o] v8 h (ix2 f 0) = v8 (ix2 f ⟨o, ho⟩) :=
  slice2_axis1_apply o v8 h f 0 ⟨o, ho⟩ rfl

/-- The widened comparison bit, converted, is the indicator. -/
theorem ind_eq (x k : BitVec 32) :
    (FloatOps.sitofp (F := Ideal) .f32 ((IntOp.cmpi .eq x k).setWidth 32) : EReal) = if x = k then 1 else 0 := by
  by_cases h : x = k
  · subst h
    rw [if_pos rfl]
    show (((BitVec.setWidth 32 (IntOp.cmpi .eq x x)).toInt : ℝ) : EReal) = 1
    simp [IntOp.cmpi]
  · rw [if_neg h]
    show (((BitVec.setWidth 32 (IntOp.cmpi .eq x k)).toInt : ℝ) : EReal) = 0
    have hb : (x == k) = false := beq_eq_false_iff_ne.mpr h
    simp [IntOp.cmpi, hb]

/-- The per-pixel term at a pixel of the tile. -/
theorem pix_apply (v4 : FVec Ideal S8x256x512 .f32) (v6 : IVec S256x512 32) (B : FVec Ideal S8x256x512 .f32) (k : BitVec 32)
    (th : Fin 256) (w : Fin 512) :
    pix v4 v6 B k (ix2 th w)
      = clipsq (Ideal.sqrt ((∑ f : Fin 8, (v4 (ix3 f th w) - B (ix3 f th w)) * (v4 (ix3 f th w) - B (ix3 f th w)))
          * (if v6 (ix2 th w) = k then 1 else 0)) - half) := by
  have hs : multiReduction (F := Ideal) .add [0] S256x512 (mulf (subf v4 B) (subf v4 B)) 0x00000000#32
        reduces_S8x256x512_S256x512 (.inl rfl) rfl (ix2 th w)
      = ∑ f : Fin 8, (v4 (ix3 f th w) - B (ix3 f th w)) * (v4 (ix3 f th w) - B (ix3 f th w)) := by
    refine (Ideal.multiReduction_add_single _ _ reduces_S8x256x512_S256x512 _ _ (ix2 th w)).trans ?_
    refine Finset.sum_congr rfl fun f _ => ?_
    have e : reduces_S8x256x512_S256x512.lift (ix2 th w) f = ix3 f th w :=
      funext fun a => Fin.ext (by match a with | ⟨0, _⟩ => rfl | ⟨1, _⟩ => rfl | ⟨2, _⟩ => rfl)
    rw [e]; rfl
  have e1 : pix v4 v6 B k (ix2 th w)
      = min cap (max (Ideal.ofBits .f32 0x00000000#32)
          (Ideal.sqrt (multiReduction (F := Ideal) .add [0] S256x512 (mulf (subf v4 B) (subf v4 B)) 0x00000000#32
              reduces_S8x256x512_S256x512 (.inl rfl) rfl (ix2 th w)
            * FloatOps.sitofp (F := Ideal) .f32 ((IntOp.cmpi .eq (v6 (ix2 th w)) k).setWidth 32)) - half))
        * min cap (max (Ideal.ofBits .f32 0x00000000#32)
          (Ideal.sqrt (multiReduction (F := Ideal) .add [0] S256x512 (mulf (subf v4 B) (subf v4 B)) 0x00000000#32
              reduces_S8x256x512_S256x512 (.inl rfl) rfl (ix2 th w)
            * FloatOps.sitofp (F := Ideal) .f32 ((IntOp.cmpi .eq (v6 (ix2 th w)) k).setWidth 32)) - half)) := rfl
  rw [e1, hs, ind_eq, Ideal.ofBits_zero_f32]
  rfl

/-- The tile's total, at its one index, is the double sum over the tile's pixels. -/
theorem tot_apply (x : FVec Ideal S256x512 .f32) (j : S1x1x1.Idx) :
    tot x j = ∑ th : Fin 256, ∑ w : Fin 512, x (ix2 th w) := by
  unfold tot shapeCast
  refine (Ideal.multiReduction_add_total _ _ reduces_S1x256x512_S1 (fun b => by match b with | ⟨0, _⟩ => rfl) _ _ _).trans ?_
  refine (Equiv.sum_comp (Shape.reshapeEquiv shapeCasts_S256x512_S1x256x512) x).trans ?_
  exact sum_idx2 x

theorem term_apply (x : FVec Ideal S256x512 .f32) (i : S1x1.Idx) :
    term x i = ∑ th : Fin 256, ∑ w : Fin 512, x (ix2 th w) := tot_apply x _

end AtIdeal

section Tile

/-- The blocks as the body sees them, with the unit block axis dropped. -/
theorem pay3_apply (x0 : Vec Ideal S1x8x256x512 .f32) (f : Fin 8) (th : Fin 256) (w : Fin 512) :
    k1_pay3 x0 (ix3 f th w) = x0 (ix4 0 f th w) :=
  shapeCast_1abc_abc_apply x0 shapeCasts_S1x8x256x512_S8x256x512 f th w
theorem pay4_apply (x1 : Vec Ideal S1x256x512 .i32) (th : Fin 256) (w : Fin 512) :
    k1_pay4 x1 (ix2 th w) = x1 (ix3 0 th w) :=
  shapeCast_1ab_ab_apply x1 shapeCasts_S1x256x512_S256x512 th w
theorem pay5_apply (x2 : Vec Ideal S1x8x8 .f32) (f k : Fin 8) :
    k1_pay5 x2 (ix2 f k) = x2 (ix3 0 f k) :=
  shapeCast_1ab_ab_apply x2 shapeCasts_S1x8x8_S8x8 f k

/-- The tile's summed clipped squared distance to centroid k, from the point's three blocks. -/
def tileTerm (x0 : Vec Ideal S1x8x256x512 .f32) (x1 : Vec Ideal S1x256x512 .i32) (x2 : Vec Ideal S1x8x8 .f32) (k : Fin 8) : EReal :=
  ∑ th : Fin 256, ∑ w : Fin 512,
    clipsq (Ideal.sqrt ((∑ f : Fin 8, (x0 (ix4 0 f th w) - x2 (ix3 0 f k)) * (x0 (ix4 0 f th w) - x2 (ix3 0 f k)))
      * (if (x1 (ix3 0 th w) : BitVec 32) = BitVec.ofNat 32 k.val then 1 else 0)) - half)

/-- ONE label's contribution: the body's tile total for the column at offset o and the label word o is the tile's sum for
    label o. -/
theorem label_tot (x0 : Vec Ideal S1x8x256x512 .f32) (x1 : Vec Ideal S1x256x512 .i32) (x2 : Vec Ideal S1x8x8 .f32)
    (o : Nat) (ho : o < 8) (h : S8x8.Slices ![0, o] S8x1) (j : S1x1x1.Idx) :
    tot (pix (k1_pay3 x0) (k1_pay4 x1) (spread (extractStridedSlice S8x1 ![0, o] (k1_pay5 x2) h)) (BitVec.ofNat 32 o)) j
      = tileTerm x0 x1 x2 ⟨o, ho⟩ := by
  rw [tot_apply]
  unfold tileTerm
  refine Finset.sum_congr rfl fun th _ => Finset.sum_congr rfl fun w _ => ?_
  rw [pix_apply]
  simp only [spread_apply, slice_apply _ o ho, pay3_apply, pay4_apply, pay5_apply]

theorem label_term (x0 : Vec Ideal S1x8x256x512 .f32) (x1 : Vec Ideal S1x256x512 .i32) (x2 : Vec Ideal S1x8x8 .f32)
    (o : Nat) (ho : o < 8) (h : S8x8.Slices ![0, o] S8x1) (i : S1x1.Idx) :
    term (pix (k1_pay3 x0) (k1_pay4 x1) (spread (extractStridedSlice S8x1 ![0, o] (k1_pay5 x2) h)) (BitVec.ofNat 32 o)) i
      = tileTerm x0 x1 x2 ⟨o, ho⟩ := label_tot x0 x1 x2 o ho h _

/-- The order of the three sums over a tile's pixels and the labels is free. -/
theorem sum_labels_tile {M : Type*} [AddCommMonoid M] (g : Fin 256 → Fin 512 → Fin 8 → M) :
    ∑ k : Fin 8, ∑ th : Fin 256, ∑ w : Fin 512, g th w k = ∑ th : Fin 256, ∑ w : Fin 512, ∑ k : Fin 8, g th w k := by
  rw [Finset.sum_comm]
  exact Finset.sum_congr rfl fun th _ => Finset.sum_comm

/-- The body at a lane: what the block held there, plus the eight labels' tile sums. -/
theorem body_apply (x0 : Vec Ideal S1x8x256x512 .f32) (x1 : Vec Ideal S1x256x512 .i32) (x2 : Vec Ideal S1x8x8 .f32)
    (o : Vec Ideal S1x1x128 .f32) (l : Fin 128) :
    body x0 x1 x2 o (ix3 0 0 l) = o (ix3 0 0 l) + ∑ k : Fin 8, tileTerm x0 x1 x2 k := by
  unfold body
  rw [pay1_eq, pay12_eq, pay10_eq, pay8_eq, pay6_eq, pay7_eq, pay9_eq, pay11_eq, pay13_eq]
  refine (shapeCast_ab_1ab_apply _ shapeCasts_S1x128_S1x1x128 0 0 l).trans ?_
  rw [addf_apply]
  congr 1
  · exact shapeCast_1ab_ab_apply o shapeCasts_S1x1x128_S1x128 0 l
  · refine (broadcastTo_apply _ broadcasts_S1x1_S1x128 (ix2 0 l) (ix2 0 0) fun a => ?_).trans ?_
    · match a with
      | ⟨0, _⟩ => rfl
      | ⟨1, _⟩ => rfl
    · rw [shapeCast_self]
      simp only [addf_apply, broadcast_apply]
      have e6 := label_tot x0 x1 x2 6 (by omega) slices_S8x8_o0_6_S8x1
      have e0 := label_term x0 x1 x2 0 (by omega) slices_S8x8_o0_0_S8x1
      have e1 := label_term x0 x1 x2 1 (by omega) slices_S8x8_o0_1_S8x1
      have e2 := label_term x0 x1 x2 2 (by omega) slices_S8x8_o0_2_S8x1
      have e3 := label_term x0 x1 x2 3 (by omega) slices_S8x8_o0_3_S8x1
      have e4 := label_term x0 x1 x2 4 (by omega) slices_S8x8_o0_4_S8x1
      have e5 := label_term x0 x1 x2 5 (by omega) slices_S8x8_o0_5_S8x1
      have e7 := label_term x0 x1 x2 7 (by omega) slices_S8x8_o0_7_S8x1
      unfold extractAt
      rw [e0, e1, e2, e3, e4, e5, e6, e7, Ideal.ofBits_def, Ideal.ofBits_zero_f32, zero_add, Fin.sum_univ_eight]
      rfl

end Tile

end Cert.KernelIdeal.Region1

end
-- ==== Proof.Region1.lean ====
/-
  What the second pallas_call leaves in its output array, for ANY contents V of the buffers at its entry.
  Its grid is (sample b, row tile hh); each point adds into a block carried from hh = 0 (reset to zero) to hh = 1 the
  tile's summed clipped squared distances: for each label c in turn, over the tile's pixels, the root of (the squared
  distance of the pixel's features to centroid c, times the indicator that the pixel carries c), less one half,
  clipped to [0, 100000] and squared.  The centroids are read from the third input window (4 x 8 x 8: sample, feature,
  label).  After both tiles every lane of the block holds the sample's summed distance, arrangement K.
  The road: at a point the block ends at (what it held, zero at the first tile of a sample) plus the sum over the eight
  labels of the tile's sums; a tile's block of the features is rows hh * 256 .. hh * 256 + 255 of sample b, of the
  labels likewise, and the centroid block is sample b's, so each tile sum is the specification's term summed over that
  tile's pixels; the two tiles of a sample are the two halves of its 512 rows, and the order of the sums over rows,
  columns and labels is free in a commutative monoid.  The array's block b is written back after its second tile.
-/
import proofs.«424189_j66632122630437_4_alg».proof.Proof.Gen.KernelIdeal.Frame
import proofs.«424189_j66632122630437_4_alg».proof.Proof.Spec
import proofs.«424189_j66632122630437_4_alg».proof.Proof.SpecLaws
import proofs.«424189_j66632122630437_4_alg».proof.Proof.Region1Tile
import Idealize.ShloMosaic.Lib.ValueIdx
import Idealize.ShloMosaic.Lib.Pipeline.Value
import Idealize.ShloMosaic.PureOps.Ideal.Laws

set_option maxRecDepth 16384

noncomputable section

namespace Cert.KernelIdeal.Region1

open Cert.KernelIdeal Cert.KernelIdeal.Gen Cert.Disc
open Idealize.ShloMosaic Idealize.ShloMosaic.TcCoe Idealize.ShloMosaic.ValueIdx Idealize.SL.Sem
open Idealize.ShloMosaic.Pipeline (Dat Cfg Window)

section Pieces
variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a point that resets the block: the block is zeroed, read back, and the body's sum added to it. -/
theorem out_A (c : Dev nD) (i : grid1.Coords) (a2 : Memref sig .tc .vmem S1x8x256x512 .f32) (h2 : a2.IsWhole)
    (a3 : Memref sig .tc .vmem S1x256x512 .i32) (h3 : a3.IsWhole) (a4 : Memref sig .tc .vmem S1x8x8 .f32) (h4 : a4.IsWhole)
    (a5 : Memref sig .tc .vmem S1x1x128 .f32) (h5 : a5.IsWhole) (hc : cond1_0 i)
    (x0 : Vec F S1x8x256x512 .f32) (x1 : Vec F S1x256x512 .i32) (x2 : Vec F S1x8x8 .f32) :
    out1_A_3 c i a2 h2 a3 h3 a4 h4 a5 h5 hc x0 x1 x2 = body x0 x1 x2 (k1_pay2 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x128) hz3, View.readCov_unit_zero (S := S1x1x128) _ hz3]
  unfold body
  simp only [View.readAt_eq_ld, h2.read_unread, h3.read_unread, h4.read_unread, View.ld_unit_zero (S := S1x8x256x512) hz4,
    View.ld_unit_zero (S := S1x256x512) hz3, View.ld_unit_zero (S := S1x8x8) hz3]

/-- At any other point: the body's sum is added to what the block held. -/
theorem out_B (c : Dev nD) (i : grid1.Coords) (a2 : Memref sig .tc .vmem S1x8x256x512 .f32) (h2 : a2.IsWhole)
    (a3 : Memref sig .tc .vmem S1x256x512 .i32) (h3 : a3.IsWhole) (a4 : Memref sig .tc .vmem S1x8x8 .f32) (h4 : a4.IsWhole)
    (a5 : Memref sig .tc .vmem S1x1x128 .f32) (h5 : a5.IsWhole) (hc : ¬cond1_0 i)
    (x0 : Vec F S1x8x256x512 .f32) (x1 : Vec F S1x256x512 .i32) (x2 : Vec F S1x8x8 .f32) (xo : Vec F S1x1x128 .f32) :
    out1_B_3 c i a2 h2 a3 h3 a4 h4 a5 h5 hc x0 x1 x2 xo = body x0 x1 x2 xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  unfold body
  simp only [View.readAt_eq_ld, h2.read_unread, h3.read_unread, h4.read_unread, h5.read_unread,
    View.ld_unit_zero (S := S1x8x256x512) hz4, View.ld_unit_zero (S := S1x256x512) hz3, View.ld_unit_zero (S := S1x8x8) hz3,
    View.ld_unit_zero (S := S1x1x128) hz3]

end Pieces

variable (V : (c : Dev nD) → (b : Ref sig .tc) → Buf (Elt Ideal) ((c : Thread nD τ).loc b))

/-- The centroids the region reads, as a function of (sample, feature, label). -/
abbrev cent (c : Dev nD) : Fin 4 → Fin 8 → Fin 8 → EReal := fun b f k => (V c main_v6 : S4x8x8.Idx → EReal) (ix3 b f k)

/-- The three input blocks of a point, at their literal types. -/
abbrev pblk (c : Dev nD) (t : Fin cfg1.N) : Vec Ideal S1x8x256x512 .f32 := iblk1 V c 0 t
abbrev tblk (c : Dev nD) (t : Fin cfg1.N) : Vec Ideal S1x256x512 .i32 := iblk1 V c 1 t
abbrev cblk (c : Dev nD) (t : Fin cfg1.N) : Vec Ideal S1x8x8 .f32 := iblk1 V c 2 t

/-- The block index maps over the grid: point t is (sample t / 2, row tile t % 2). -/
theorem idx_facts : ∀ t : Fin cfg1.N,
    win1_0.index t (0 : Fin 4) = t.val / 2 ∧ win1_0.index t (1 : Fin 4) = 0 ∧ win1_0.index t (2 : Fin 4) = t.val % 2
    ∧ win1_0.index t (3 : Fin 4) = 0
    ∧ win1_1.index t (0 : Fin 3) = t.val / 2 ∧ win1_1.index t (1 : Fin 3) = t.val % 2 ∧ win1_1.index t (2 : Fin 3) = 0
    ∧ win1_2.index t (0 : Fin 3) = t.val / 2 ∧ win1_2.index t (1 : Fin 3) = 0 ∧ win1_2.index t (2 : Fin 3) = 0
    ∧ win1_3.index t (0 : Fin 3) = t.val / 2 ∧ win1_3.index t (1 : Fin 3) = 0 ∧ win1_3.index t (2 : Fin 3) = 0 :=
  (by decide +kernel : ∀ t : Fin grid1.N, _)

theorem pblk_apply (c : Dev nD) (t : Fin cfg1.N) (b : Fin 4) (hh : Fin 2) (ht : t.val = 2 * b.val + hh.val)
    (f : Fin 8) (th : Fin 256) (w : Fin 512) :
    pblk V c t (ix4 0 f th w)
      = (V c main_arg0 : S4x8x512x512.Idx → EReal) (ix4 b f ⟨hh.val * 256 + th.val, by have := hh.isLt; have := th.isLt; omega⟩ w) := by
  obtain ⟨e0, e1, e2, e3, -⟩ := idx_facts t
  show (iblk1 V c 0 t) (ix4 0 f th w) = _
  unfold iblk1
  rw [View.read_apply]
  show V c main_arg0 _ = V c main_arg0 _
  refine congrArg (V c main_arg0) ?_
  funext a
  apply Fin.ext
  have := b.isLt; have := hh.isLt
  match a with
  | ⟨0, _⟩ => show win1_0.index t (0 : Fin 4) * 1 + 1 * 0 = b.val; omega
  | ⟨1, _⟩ => show win1_0.index t (1 : Fin 4) * 8 + 1 * f.val = f.val; omega
  | ⟨2, _⟩ => show win1_0.index t (2 : Fin 4) * 256 + 1 * th.val = hh.val * 256 + th.val; omega
  | ⟨3, _⟩ => show win1_0.index t (3 : Fin 4) * 512 + 1 * w.val = w.val; omega

theorem tblk_apply (c : Dev nD) (t : Fin cfg1.N) (b : Fin 4) (hh : Fin 2) (ht : t.val = 2 * b.val + hh.val)
    (th : Fin 256) (w : Fin 512) :
    tblk V c t (ix3 0 th w)
      = (V c main_arg1 : S4x512x512.Idx → BitVec 32) (ix3 b ⟨hh.val * 256 + th.val, by have := hh.isLt; have := th.isLt; omega⟩ w) := by
  obtain ⟨-, -, -, -, e0, e1, e2, -⟩ := idx_facts t
  show (iblk1 V c 1 t) (ix3 0 th w) = _
  unfold iblk1
  rw [View.read_apply]
  show V c main_arg1 _ = V c main_arg1 _
  refine congrArg (V c main_arg1) ?_
  funext a
  apply Fin.ext
  have := b.isLt; have := hh.isLt
  match a with
  | ⟨0, _⟩ => show win1_1.index t (0 : Fin 3) * 1 + 1 * 0 = b.val; omega
  | ⟨1, _⟩ => show win1_1.index t (1 : Fin 3) * 256 + 1 * th.val = hh.val * 256 + th.val; omega
  | ⟨2, _⟩ => show win1_1.index t (2 : Fin 3) * 512 + 1 * w.val = w.val; omega

theorem cblk_apply (c : Dev nD) (t : Fin cfg1.N) (b : Fin 4) (hh : Fin 2) (ht : t.val = 2 * b.val + hh.val)
    (f k : Fin 8) :
    cblk V c t (ix3 0 f k) = cent V c b f k := by
  obtain ⟨-, -, -, -, -, -, -, e0, e1, e2, -⟩ := idx_facts t
  show (iblk1 V c 2 t) (ix3 0 f k) = _
  unfold iblk1
  rw [View.read_apply]
  show V c main_v6 _ = V c main_v6 _
  refine congrArg (V c main_v6) ?_
  funext a
  apply Fin.ext
  have := b.isLt; have := hh.isLt
  match a with
  | ⟨0, _⟩ => show win1_2.index t (0 : Fin 3) * 1 + 1 * 0 = b.val; omega
  | ⟨1, _⟩ => show win1_2.index t (1 : Fin 3) * 8 + 1 * f.val = f.val; omega
  | ⟨2, _⟩ => show win1_2.index t (2 : Fin 3) * 8 + 1 * k.val = k.val; omega

/-- A tile's sum for label k is the specification's clipped squared distance summed over the tile's pixels. -/
theorem tile_eq (c : Dev nD) (t : Fin cfg1.N) (b : Fin 4) (hh : Fin 2) (ht : t.val = 2 * b.val + hh.val) (k : Fin 8) :
    tileTerm (pblk V c t) (tblk V c t) (cblk V c t) k
      = ∑ th : Fin 256, ∑ w : Fin 512, dK (V c main_arg0) (V c main_arg1) (cent V c) b
          ⟨hh.val * 256 + th.val, by have := hh.isLt; have := th.isLt; omega⟩ w k := by
  unfold tileTerm dK oh lab
  refine Finset.sum_congr rfl fun th _ => Finset.sum_congr rfl fun w _ => ?_
  simp only [pblk_apply V c t b hh ht, tblk_apply V c t b hh ht, cblk_apply V c t b hh ht]

/-- The eight labels' sums of a tile, as the specification's triple sum over the tile. -/
theorem tiles_eq (c : Dev nD) (t : Fin cfg1.N) (b : Fin 4) (hh : Fin 2) (ht : t.val = 2 * b.val + hh.val) :
    ∑ k : Fin 8, tileTerm (pblk V c t) (tblk V c t) (cblk V c t) k
      = ∑ th : Fin 256, ∑ w : Fin 512, ∑ k : Fin 8, dK (V c main_arg0) (V c main_arg1) (cent V c) b
          ⟨hh.val * 256 + th.val, by have := hh.isLt; have := th.isLt; omega⟩ w k := by
  rw [← sum_labels_tile]
  exact Finset.sum_congr rfl fun k _ => tile_eq V c t b hh ht k

/-- What the output block holds after an even point: the body over a zeroed block. -/
theorem outsAt_even (c : Dev nD) (t : Fin cfg1.N) (h0 : t.val % 2 = 0) :
    outsAt1 V c t.val t.isLt = body (pblk V c t) (tblk V c t) (cblk V c t) (k1_pay2 (F := Ideal)) := by
  rw [outsAt1_A V c t h0]
  exact out_A (F := Ideal) c (grid1.coords t) (ms1_0 t) (hs1_0 t) (ms1_1 t) (hs1_1 t) (ms1_2 t) (hs1_2 t) (ms1_3 t) (hs1_3 t)
    ((hcond1_0 t).mpr h0) (iblk1 V c 0 t) (iblk1 V c 1 t) (iblk1 V c 2 t)

/-- After an odd point: the body over what the point before left. -/
theorem outsAt_odd (c : Dev nD) (t : Fin cfg1.N) (h0 : ¬t.val % 2 = 0) :
    outsAt1 V c t.val t.isLt = body (pblk V c t) (tblk V c t) (cblk V c t)
      (outsAt1 V c (t.val - 1) (Nat.lt_of_le_of_lt (Nat.sub_le _ _) t.isLt)) := by
  rw [outsAt1_B V c t h0]
  exact out_B (F := Ideal) c (grid1.coords t) (ms1_0 t) (hs1_0 t) (ms1_1 t) (hs1_1 t) (ms1_2 t) (hs1_2 t) (ms1_3 t) (hs1_3 t)
    (fun h => h0 ((hcond1_0 t).mp h)) (iblk1 V c 0 t) (iblk1 V c 1 t) (iblk1 V c 2 t)
    (outsAt1 V c (t.val - 1) (Nat.lt_of_le_of_lt (Nat.sub_le _ _) t.isLt))

/-- After the second tile of sample b every lane holds the sample's summed distance. -/
theorem lane_odd (c : Dev nD) (t : Fin cfg1.N) (b : Fin 4) (ht : t.val = 2 * b.val + 1) (l : Fin 128) :
    (outsAt1 V c t.val t.isLt : Vec Ideal S1x1x128 .f32) (ix3 0 0 l)
      = distK (V c main_arg0) (V c main_arg1) (cent V c) b := by
  have hodd : ¬t.val % 2 = 0 := by omega
  have h0' : (⟨t.val - 1, Nat.lt_of_le_of_lt (Nat.sub_le _ _) t.isLt⟩ : Fin cfg1.N).val % 2 = 0 := by
    show (t.val - 1) % 2 = 0; omega
  rw [outsAt_odd V c t hodd, body_apply]
  rw [show outsAt1 V c (t.val - 1) (Nat.lt_of_le_of_lt (Nat.sub_le _ _) t.isLt)
      = body (pblk V c ⟨t.val - 1, Nat.lt_of_le_of_lt (Nat.sub_le _ _) t.isLt⟩) (tblk V c ⟨t.val - 1, Nat.lt_of_le_of_lt (Nat.sub_le _ _) t.isLt⟩)
          (cblk V c ⟨t.val - 1, Nat.lt_of_le_of_lt (Nat.sub_le _ _) t.isLt⟩) (k1_pay2 (F := Ideal))
      from outsAt_even V c ⟨t.val - 1, Nat.lt_of_le_of_lt (Nat.sub_le _ _) t.isLt⟩ h0', body_apply]
  rw [tiles_eq V c t b 1 (by show t.val = 2 * b.val + 1; exact ht),
    tiles_eq V c ⟨t.val - 1, Nat.lt_of_le_of_lt (Nat.sub_le _ _) t.isLt⟩ b 0 (by show t.val - 1 = 2 * b.val + 0; omega)]
  rw [show (k1_pay2 (F := Ideal)) (ix3 0 0 l) = 0 from Ideal.ofBits_zero_f32, zero_add]
  unfold distK
  rw [sum_rows_halves, Fin.sum_univ_two]

/-- The same at any index of the block: its first two coordinates are zero. -/
theorem lane_any (c : Dev nD) (t : Fin cfg1.N) (b : Fin 4) (ht : t.val = 2 * b.val + 1) (y : S1x1x128.Idx) :
    (outsAt1 V c t.val t.isLt : Vec Ideal S1x1x128 .f32) y = distK (V c main_arg0) (V c main_arg1) (cent V c) b := by
  have e : y = ix3 0 0 (y 2) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  rw [e]
  exact lane_odd V c t b ht (y 2)

/-- The output array the region leaves: every lane of sample b at the sample's summed distance. -/
abbrev distArr (c : Dev nD) : S4x1x128.Idx → EReal := fun i => distK (V c main_arg0) (V c main_arg1) (cent V c) (i 0)

/-- What a point that writes its block back writes: its block of that array. -/
theorem flushed_eq (c : Dev nD) (t : Fin cfg1.N) (hf : (cfg1.win 3).flush t = true) :
    (dat1 (F := Ideal) V c).flushed 3 t = ((cfg1.win 3).blk t).view.read (Elt Ideal) (distArr V c) := by
  have hodd : t.val % 2 = 1 := (flush1_3 t).mp hf
  have hN : t.val < 8 := lt_of_lt_of_eq t.isLt (show cfg1.N = 8 from N_1)
  obtain ⟨-, -, -, -, -, -, -, -, -, -, e0, e1, e2⟩ := idx_facts t
  show (cfg1.win 3).cut (grid1.coords t) ((dat1 (F := Ideal) V c).after 3 t) = _
  rw [after1_3]
  funext y
  rw [View.read_apply]
  refine (lane_any V c t ⟨t.val / 2, by omega⟩ (by show t.val = 2 * (t.val / 2) + 1; omega) y).trans ?_
  show _ = distK (V c main_arg0) (V c main_arg1) (cent V c) _
  refine congrArg (distK (V c main_arg0) (V c main_arg1) (cent V c)) (Fin.ext ?_)
  show t.val / 2 = win1_3.index t (0 : Fin 3) * 1 + 1 * (y 0).val
  have h : (y 0).val < 1 := (y 0).isLt
  omega

/-- An index of the array is in point t's block iff each coordinate is in the block's range on its axis. -/
theorem mem_blk (t : Fin cfg1.N) (i : S4x1x128.Idx) :
    i ∈ ((cfg1.win 3).blk t).view.set
      ↔ ∀ a : Fin 3, win1_3.index t a * S1x1x128.size a ≤ (i a).val ∧ (i a).val < win1_3.index t a * S1x1x128.size a + S1x1x128.size a := by
  show i ∈ ((View.whole main_v7).slice (win1_3.rect t)).set ↔ _
  rw [View.set_slice_whole, Rect.mem_set_unit]
  exact Iff.rfl

/-- Output window 3: every lane of sample b holds the summed clipped squared distance of its pixels to the centroids. -/
theorem dist_final (c : Dev nD) (b : Fin 4) (l : Fin 128) :
    ((dat1 (F := Ideal) V c).arrAt 3 cfg1.N : S4x1x128.Idx → EReal) (ix3 b 0 l)
      = distK (V c main_arg0) (V c main_arg1) (cent V c) b := by
  have hlt : 2 * b.val + 1 < cfg1.N := by rw [show cfg1.N = 8 from N_1]; have := b.isLt; omega
  have hfl : (cfg1.win 3).flush ⟨2 * b.val + 1, hlt⟩ = true := (flush1_3 _).mpr (by show (2 * b.val + 1) % 2 = 1; omega)
  refine (dat1 (F := Ideal) V c).arrAt_apply_of_mem 3 (distArr V c) (flushed_eq V c) cfg1.N ⟨2 * b.val + 1, hlt⟩ (ix3 b 0 l) hlt hfl ?_
  obtain ⟨-, -, -, -, -, -, -, -, -, -, e0, e1, e2⟩ := idx_facts ⟨2 * b.val + 1, hlt⟩
  rw [mem_blk]
  intro a
  have hb := b.isLt
  have hl := l.isLt
  match a with
  | ⟨0, _⟩ =>
    show win1_3.index ⟨2 * b.val + 1, hlt⟩ (0 : Fin 3) * 1 ≤ b.val ∧ b.val < win1_3.index ⟨2 * b.val + 1, hlt⟩ (0 : Fin 3) * 1 + 1
    rw [e0]; show (2 * b.val + 1) / 2 * 1 ≤ b.val ∧ b.val < (2 * b.val + 1) / 2 * 1 + 1; omega
  | ⟨1, _⟩ =>
    show win1_3.index ⟨2 * b.val + 1, hlt⟩ (1 : Fin 3) * 1 ≤ 0 ∧ 0 < win1_3.index ⟨2 * b.val + 1, hlt⟩ (1 : Fin 3) * 1 + 1
    rw [e1]; omega
  | ⟨2, _⟩ =>
    show win1_3.index ⟨2 * b.val + 1, hlt⟩ (2 : Fin 3) * 128 ≤ l.val ∧ l.val < win1_3.index ⟨2 * b.val + 1, hlt⟩ (2 : Fin 3) * 128 + 128
    rw [e2]; omega

/-- The three input windows' arrays are left as entered. -/
theorem arg0_kept (c : Dev nD) : (dat1 (F := Ideal) V c).arrAt 0 cfg1.N = V c main_arg0 :=
  ((dat1 (F := Ideal) V c).arrAt_in 0 rfl _).trans (A_eq1 V c 0)
theorem arg1_kept (c : Dev nD) : (dat1 (F := Ideal) V c).arrAt 1 cfg1.N = V c main_arg1 :=
  ((dat1 (F := Ideal) V c).arrAt_in 1 rfl _).trans (A_eq1 V c 1)
theorem cent_kept (c : Dev nD) : (dat1 (F := Ideal) V c).arrAt 2 cfg1.N = V c main_v6 :=
  ((dat1 (F := Ideal) V c).arrAt_in 2 rfl _).trans (A_eq1 V c 2)

end Cert.KernelIdeal.Region1

end
-- ==== Proof.Region0.lean ====
/-
  What the first pallas_call leaves in its two output arrays, for ANY contents V of the buffers at its entry.
  Its grid is (sample b, row tile hh) with hh = 0, 1; each point adds, into blocks carried from hh = 0 (where they are
  reset to zero) to hh = 1, the tile's per-label pixel counts (the same number in all 128 lanes) and the tile's
  per-label feature sums (a matrix product of the features with the label indicators over the tile's 256 x 512
  pixels, padded with zeros from 8 to 128 lanes).  After both tiles the blocks hold the whole sample's counts and sums.

  The road: what each of the two control cases leaves in each block, as the body's arithmetic of the blocks it read;
  that arithmetic at an entry, over the extended reals (an indicator that is 0 or 1, a lane sum, a matrix product into
  a zero accumulator, a padding with zeros); the blocks read in the arrays' coordinates; a sample's counts and sums as
  the sum of its two row tiles' shares; the blocks after the first and after the second point of a sample; and the
  arrays after the last point, each sample's block written back by the sample's second point.
-/
import proofs.«424189_j66632122630437_4_alg».proof.Proof.Gen.KernelIdeal.Frame
import proofs.«424189_j66632122630437_4_alg».proof.Proof.Spec
import proofs.«424189_j66632122630437_4_alg».proof.Proof.SpecLaws
import Idealize.ShloMosaic.Lib.ValueIdx
import Idealize.ShloMosaic.Lib.Pipeline.Value
import Idealize.ShloMosaic.PureOps.Ideal.Laws
import Idealize.ShloMosaic.Lib.Tactic

set_option maxRecDepth 16384

noncomputable section

namespace Cert.KernelIdeal.Region0

open Cert.KernelIdeal Cert.KernelIdeal.Gen Cert.Disc
open Idealize.ShloMosaic Idealize.ShloMosaic.TcCoe Idealize.ShloMosaic.ValueIdx Idealize.SL.Sem
open Idealize.ShloMosaic.Pipeline (Dat Cfg Window)

/-! ## What each control case leaves in each output block, as the body's arithmetic of what it read -/

section Pieces
variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- An accumulating point leaves in the counts block what it held plus the tile's per-label pixel counts. -/
theorem pieceB3 (c : Dev nD) (i : grid0.Coords) (arg2 : Memref sig .tc .vmem S1x8x256x512 .f32) (harg2 : arg2.IsWhole) (arg3 : Memref sig .tc .vmem S1x256x512 .i32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S1x8x256x512 .f32) (x1 : Vec F S1x256x512 .i32) (xo2 : Vec F S1x8x128 .f32) (xo3 : Vec F S1x8x128 .f32) :
    out0_B_3 c i arg2 harg2 arg3 harg3 arg4 harg4 arg5 harg5 hc0 x0 x1 xo2 xo3 = k0_pay5 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  simp only [View.readAt_eq_ld, harg3.read_unread, harg5.read_unread, View.ld_unit_zero (S := S1x256x512) hz3, View.ld_unit_zero (S := S1x8x128) hz3]

/-- An accumulating point leaves in the sums block what it held plus the tile's per-label feature sums. -/
theorem pieceB2 (c : Dev nD) (i : grid0.Coords) (arg2 : Memref sig .tc .vmem S1x8x256x512 .f32) (harg2 : arg2.IsWhole) (arg3 : Memref sig .tc .vmem S1x256x512 .i32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S1x8x256x512 .f32) (x1 : Vec F S1x256x512 .i32) (xo2 : Vec F S1x8x128 .f32) (xo3 : Vec F S1x8x128 .f32) :
    out0_B_2 c i arg2 harg2 arg3 harg3 arg4 harg4 arg5 harg5 hc0 x0 x1 xo2 xo3 = k0_pay1 (k0_pay6 x0 x1) (k0_pay7 xo2) := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread, View.ld_unit_zero (S := S1x8x256x512) hz4, View.ld_unit_zero (S := S1x256x512) hz3, View.ld_unit_zero (S := S1x8x128) hz3]

/-- A resetting point leaves in the counts block the zero block plus the tile's per-label pixel counts. -/
theorem pieceA3 (c : Dev nD) (i : grid0.Coords) (arg2 : Memref sig .tc .vmem S1x8x256x512 .f32) (harg2 : arg2.IsWhole) (arg3 : Memref sig .tc .vmem S1x256x512 .i32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S1x8x256x512 .f32) (x1 : Vec F S1x256x512 .i32) :
    out0_A_3 c i arg2 harg2 arg3 harg3 arg4 harg4 arg5 harg5 hc0 x0 x1 = k0_pay5 x1 k0_pay3 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x8x128) hz3, View.readCov_unit_zero (S := S1x8x128) _ hz3]
  simp only [View.readAt_eq_ld, harg3.read_unread, View.ld_unit_zero (S := S1x256x512) hz3, View.ld_unit_zero (S := S1x8x128) hz3]

/-- A resetting point leaves in the sums block the zero block plus the tile's per-label feature sums. -/
theorem pieceA2 (c : Dev nD) (i : grid0.Coords) (arg2 : Memref sig .tc .vmem S1x8x256x512 .f32) (harg2 : arg2.IsWhole) (arg3 : Memref sig .tc .vmem S1x256x512 .i32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S1x8x256x512 .f32) (x1 : Vec F S1x256x512 .i32) :
    out0_A_2 c i arg2 harg2 arg3 harg3 arg4 harg4 arg5 harg5 hc0 x0 x1 = k0_pay1 (k0_pay6 x0 x1) (k0_pay7 k0_pay2) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, View.ld_unit_zero (S := S1x8x256x512) hz4, View.ld_unit_zero (S := S1x256x512) hz3, View.ld_unit_zero (S := S1x8x128) hz3]

end Pieces

/-! ## Re-layings of a tile, read at explicit coordinates -/

section Layout
variable {α : Type}

theorem cast_add_unit (v : S8x128.Idx → α) (h : S8x128.ShapeCasts S1x8x128) (k : Fin 8) (l : Fin 128) :
    shapeCast S1x8x128 v h (ix3 (0 : Fin 1) k l) = v (ix2 k l) :=
  shapeCast_apply v h (ix3 (0 : Fin 1) k l) (ix2 k l) (by
    rw [Shape.rowMajor_val_two, Shape.rowMajor_val_three]
    show k.val * 128 + l.val = (0 * 8 + k.val) * 128 + l.val
    omega)

theorem cast_drop_unit (v : S1x8x128.Idx → α) (h : S1x8x128.ShapeCasts S8x128) (k : Fin 8) (l : Fin 128) :
    shapeCast S8x128 v h (ix2 k l) = v (ix3 (0 : Fin 1) k l) :=
  shapeCast_apply v h (ix2 k l) (ix3 (0 : Fin 1) k l) (by
    rw [Shape.rowMajor_val_two, Shape.rowMajor_val_three]
    show (0 * 8 + k.val) * 128 + l.val = k.val * 128 + l.val
    omega)

theorem cast_flat (v : S8x256x512.Idx → α) (h : S8x256x512.ShapeCasts S8x131072) (k : Fin 8) (th : Fin 256) (w : Fin 512)
    (hb : th.val * 512 + w.val < 131072) :
    shapeCast S8x131072 v h (ix2 k (⟨th.val * 512 + w.val, hb⟩ : Fin 131072)) = v (ix3 k th w) :=
  shapeCast_apply v h (ix2 k (⟨th.val * 512 + w.val, hb⟩ : Fin 131072)) (ix3 k th w) (by
    rw [Shape.rowMajor_val_two, Shape.rowMajor_val_three]
    show (k.val * 256 + th.val) * 512 + w.val = k.val * 131072 + (th.val * 512 + w.val)
    omega)

theorem cast_feat (v : S1x8x256x512.Idx → α) (h : S1x8x256x512.ShapeCasts S8x256x512) (f : Fin 8) (th : Fin 256) (w : Fin 512) :
    shapeCast S8x256x512 v h (ix3 f th w) = v (ix4 (0 : Fin 1) f th w) :=
  shapeCast_apply v h (ix3 f th w) (ix4 (0 : Fin 1) f th w) (by
    rw [Shape.rowMajor_val_three, Shape.rowMajor_val_four]
    show ((0 * 8 + f.val) * 256 + th.val) * 512 + w.val = (f.val * 256 + th.val) * 512 + w.val
    omega)

theorem cast_column (v : S8.Idx → α) (h : S8.ShapeCasts S8x1) (k : Fin 8) :
    shapeCast S8x1 v h (ix2 k (0 : Fin 1)) = v (ix1 k) :=
  shapeCast_apply v h (ix2 k (0 : Fin 1)) (ix1 k) (by
    rw [Shape.rowMajor_val_two, Shape.rowMajor_val_one]
    show k.val = k.val * 1 + 0
    omega)

theorem bcast_lanes (v : S8x1.Idx → α) (h : S8x1.Broadcasts S8x128) (k : Fin 8) (l : Fin 128) :
    broadcastTo S8x128 v h (ix2 k l) = v (ix2 k (0 : Fin 1)) :=
  broadcastTo_apply v h (ix2 k l) (ix2 k (0 : Fin 1)) (fun a => by
    match a with
    | ⟨0, _⟩ => rfl
    | ⟨1, _⟩ => rfl)

theorem bcast_labels (v : S1x256x512.Idx → α) (h : S1x256x512.Broadcasts S8x256x512) (k : Fin 8) (th : Fin 256) (w : Fin 512) :
    broadcastTo S8x256x512 v h (ix3 k th w) = v (ix3 (0 : Fin 1) th w) :=
  broadcastTo_apply v h (ix3 k th w) (ix3 (0 : Fin 1) th w) (fun a => by
    match a with
    | ⟨0, _⟩ => rfl
    | ⟨1, _⟩ => rfl
    | ⟨2, _⟩ => rfl)

theorem bcast_iota (v : S8x1x1.Idx → α) (h : S8x1x1.Broadcasts S8x256x512) (k : Fin 8) (th : Fin 256) (w : Fin 512) :
    broadcastTo S8x256x512 v h (ix3 k th w) = v (ix3 k (0 : Fin 1) (0 : Fin 1)) :=
  broadcastTo_apply v h (ix3 k th w) (ix3 k (0 : Fin 1) (0 : Fin 1)) (fun a => by
    match a with
    | ⟨0, _⟩ => rfl
    | ⟨1, _⟩ => rfl
    | ⟨2, _⟩ => rfl)

end Layout

/-! ## The tile's arithmetic at the extended reals -/

/-- A comparison of two words for equality, widened to a word and converted, is 1 where they agree and 0 elsewhere. -/
theorem bit_val (x y : BitVec 32) : ((((IntOp.cmpi .eq x y).setWidth 32).toInt : ℝ) : EReal) = if x = y then 1 else 0 := by
  by_cases h : x = y
  · subst h; simp [IntOp.cmpi]
  · have hb : (x == y) = false := by simpa using h
    rw [if_neg h]
    simp [IntOp.cmpi, hb]

/-- The indicator the body builds: at (label k, row th, column w) of the tile, 1 if the pixel's label word is k, else 0. -/
theorem mask_apply (x1 : Vec Ideal S1x256x512 .i32) (k : Fin 8) (th : Fin 256) (w : Fin 512) :
    k0_pay4 (F := Ideal) x1 (ix3 k th w) = if x1 (ix3 (0 : Fin 1) th w) = BitVec.ofNat 32 k.val then 1 else 0 := by
  unfold k0_pay4
  dsimp only
  refine Eq.trans ?_ (bit_val _ _)
  show ((((IntOp.cmpi .eq (broadcastTo S8x256x512 _ _ (ix3 k th w)) (broadcastTo S8x256x512 _ _ (ix3 k th w))).setWidth 32).toInt : ℝ) : EReal) = _
  rw [bcast_labels, bcast_iota, shapeCast_shapeCast, iota_single_apply]

/-- Inserting the pixel coordinate n at the reduced axis of a label index k gives (k, n). -/
theorem lift_eq (h : S8x131072.Reduces [1] S8) (k : Fin 8) (n : Fin 131072) : h.lift (ix1 k) n = ix2 k n :=
  funext fun a => match a with
    | ⟨0, _⟩ => Fin.ext rfl
    | ⟨1, _⟩ => Fin.ext rfl

/-- The lane sum of the flattened indicator, row k: the number of the tile's pixels that carry label k. -/
theorem count_row (src : FVec Ideal S8x256x512 .f32) (hc : S8x256x512.ShapeCasts S8x131072) (h : S8x131072.Reduces [1] S8)
    (hφ : FKind.Formats .f32) (hacc : (0x00000000#32 : BitVec 32) = 0x00000000#32) (k : Fin 8) :
    multiReduction (F := Ideal) .add [1] S8 (shapeCast S8x131072 src hc) 0x00000000#32 h hφ hacc (ix1 k)
      = ∑ th : Fin 256, ∑ w : Fin 512, src (ix3 k th w) := by
  refine (Ideal.multiReduction_add_single (shapeCast S8x131072 src hc) 0x00000000#32 h hφ hacc (ix1 k)).trans ?_
  show ∑ n : Fin 131072, shapeCast S8x131072 src hc (h.lift (ix1 k) n) = _
  rw [sum_tile]
  refine Finset.sum_congr rfl fun th _ => Finset.sum_congr rfl fun w _ => ?_
  rw [lift_eq, cast_flat]

/-- The counts block after a point: what it held, plus in every lane of row k the number of the tile's pixels labelled k. -/
theorem counts_step (x1 : Vec Ideal S1x256x512 .i32) (v : Vec Ideal S1x8x128 .f32) (k : Fin 8) (l : Fin 128) :
    k0_pay5 (F := Ideal) x1 v (ix3 (0 : Fin 1) k l)
      = v (ix3 (0 : Fin 1) k l) + ∑ th : Fin 256, ∑ w : Fin 512, (if x1 (ix3 (0 : Fin 1) th w) = BitVec.ofNat 32 k.val then (1 : EReal) else 0) := by
  unfold k0_pay5
  dsimp only
  refine (cast_add_unit _ _ k l).trans ?_
  refine (addf_apply _ _ (ix2 k l)).trans ?_
  refine congrArg₂ (· + ·) (cast_drop_unit _ _ k l) ?_
  refine (bcast_lanes _ _ k l).trans ?_
  rw [shapeCast_self]
  refine (cast_column _ _ k).trans ?_
  refine (count_row _ _ _ _ _ k).trans ?_
  exact Finset.sum_congr rfl fun th _ => Finset.sum_congr rfl fun w _ => mask_apply x1 k th w

/-! ### The matrix product of the features with the indicator, contracting the pixel axis -/

theorem lhs_dot_0 (i : S8x8.Idx) (q : dot_S8x131072_S8x131072_S8x8_1_1_0_0_n_n.contr.Idx) :
    (dot_S8x131072_S8x131072_S8x8_1_1_0_0_n_n.lhsIdx i q 0).val = (i 0).val := by
  unfold DotDims.lhsIdx
  rw [dif_neg (show ¬(0 : Fin S8x131072.rank) ∈ dot_S8x131072_S8x131072_S8x8_1_1_0_0_n_n.lhsBatch by decide), dif_pos (show (0 : Fin S8x131072.rank) ∈ dot_S8x131072_S8x131072_S8x8_1_1_0_0_n_n.lhsNonContracting by decide)]
  rfl
theorem lhs_dot_1 (i : S8x8.Idx) (q : dot_S8x131072_S8x131072_S8x8_1_1_0_0_n_n.contr.Idx) :
    (dot_S8x131072_S8x131072_S8x8_1_1_0_0_n_n.lhsIdx i q 1).val = (q ⟨0, by decide⟩).val :=
  dot_S8x131072_S8x131072_S8x8_1_1_0_0_n_n.lhsIdx_val_of_single rfl i q
theorem rhs_dot_0 (i : S8x8.Idx) (q : dot_S8x131072_S8x131072_S8x8_1_1_0_0_n_n.contr.Idx) :
    (dot_S8x131072_S8x131072_S8x8_1_1_0_0_n_n.rhsIdx i q 0).val = (i 1).val := by
  unfold DotDims.rhsIdx
  rw [dif_neg (show ¬(0 : Fin S8x131072.rank) ∈ dot_S8x131072_S8x131072_S8x8_1_1_0_0_n_n.rhsBatch by decide), dif_pos (show (0 : Fin S8x131072.rank) ∈ dot_S8x131072_S8x131072_S8x8_1_1_0_0_n_n.rhsNonContracting by decide)]
  rfl
theorem rhs_dot_1 (i : S8x8.Idx) (q : dot_S8x131072_S8x131072_S8x8_1_1_0_0_n_n.contr.Idx) :
    (dot_S8x131072_S8x131072_S8x8_1_1_0_0_n_n.rhsIdx i q 1).val = (q ⟨0, by decide⟩).val :=
  dot_S8x131072_S8x131072_S8x8_1_1_0_0_n_n.rhsIdx_val_of_single rfl i q

/-- Entry (f, c) of the product into a zero accumulator: the sum over the tile's pixels n of feature f at n times the
    indicator of label c at n. -/
theorem matmul_entry (a b : FVec Ideal S8x131072 .bf16) (f c : Fin 8) :
    matmul (F := Ideal) dot_S8x131072_S8x131072_S8x8_1_1_0_0_n_n none a b (constant (F := Ideal) S8x8 .f32 0x00000000#32) (ix2 f c)
      = ∑ n : Fin 131072, a (ix2 f n) * b (ix2 c n) := by
  simp only [matmul]
  rw [Ideal.matmul_constant_zero_apply, ← Equiv.sum_comp (ValueIdx.contrEquiv1 dot_S8x131072_S8x131072_S8x8_1_1_0_0_n_n 131072 rfl rfl).symm]
  refine Finset.sum_congr rfl fun k _ => ?_
  have hk := ValueIdx.contrEquiv1_symm_val dot_S8x131072_S8x131072_S8x8_1_1_0_0_n_n 131072 rfl rfl k
  have el : dot_S8x131072_S8x131072_S8x8_1_1_0_0_n_n.lhsIdx (ix2 f c) ((ValueIdx.contrEquiv1 dot_S8x131072_S8x131072_S8x8_1_1_0_0_n_n 131072 rfl rfl).symm k) = ix2 f k := funext fun x => Fin.ext (by
    match x with
    | ⟨0, _⟩ => exact lhs_dot_0 _ _
    | ⟨1, _⟩ => exact (lhs_dot_1 _ _).trans hk)
  have er : dot_S8x131072_S8x131072_S8x8_1_1_0_0_n_n.rhsIdx (ix2 f c) ((ValueIdx.contrEquiv1 dot_S8x131072_S8x131072_S8x8_1_1_0_0_n_n 131072 rfl rfl).symm k) = ix2 c k := funext fun x => Fin.ext (by
    match x with
    | ⟨0, _⟩ => exact rhs_dot_0 _ _
    | ⟨1, _⟩ => exact (rhs_dot_1 _ _).trans hk)
  rw [el, er]

/-- The sums block after a point: what it held, plus at lane l < 8 of row f the tile's sum of feature f over the pixels
    labelled l, and nothing at the lanes from 8 on (the product is padded with zeros from 8 to 128 lanes). -/
theorem sums_step (x0 : Vec Ideal S1x8x256x512 .f32) (x1 : Vec Ideal S1x256x512 .i32) (v : Vec Ideal S1x8x128 .f32) (f : Fin 8) (l : Fin 128) :
    k0_pay1 (F := Ideal) (k0_pay6 x0 x1) (k0_pay7 v) (ix3 (0 : Fin 1) f l)
      = v (ix3 (0 : Fin 1) f l) + (if l.val < 8 then ∑ th : Fin 256, ∑ w : Fin 512, x0 (ix4 (0 : Fin 1) f th w) * (if x1 (ix3 (0 : Fin 1) th w) = BitVec.ofNat 32 l.val then (1 : EReal) else 0) else 0) := by
  unfold k0_pay1
  (try dsimp only)
  refine (cast_add_unit _ _ f l).trans ?_
  refine (addf_apply _ _ (ix2 f l)).trans ?_
  refine congrArg₂ (· + ·) ?_ ?_
  · unfold k0_pay7; exact cast_drop_unit _ _ f l
  · unfold k0_pay6
    (try dsimp only)
    by_cases hl : l.val < 8
    · rw [if_pos hl]
      refine (concatenate_pair_apply_left (t := S8x128) (s₁ := S8x8) (s₂ := S8x120) (1 : Fin S8x128.rank) _ _ _ (ix2 f l) rfl (ix2 (n0 := 8) (n1 := 8) f (⟨l.val, hl⟩ : Fin 8)) (fun b => by
        match b with
        | ⟨0, _⟩ => rfl
        | ⟨1, _⟩ => rfl)).trans ?_
      refine (matmul_entry _ _ f ⟨l.val, hl⟩).trans ?_
      rw [sum_tile]
      refine Finset.sum_congr rfl fun th _ => Finset.sum_congr rfl fun w _ => ?_
      refine congrArg₂ (· * ·) ?_ ?_
      · refine (truncf_apply (φ := .f32) (ψ := .bf16) _ _ _).trans ?_
        refine (cast_flat _ _ f th w _).trans ?_
        exact cast_feat _ _ f th w
      · refine (cast_flat _ _ ⟨l.val, hl⟩ th w _).trans ?_
        refine (truncf_apply (φ := .f32) (ψ := .bf16) _ _ _).trans ?_
        exact mask_apply x1 ⟨l.val, hl⟩ th w
    · rw [if_neg hl]
      refine (concatenate_pair_apply_right (t := S8x128) (s₁ := S8x8) (s₂ := S8x120) (1 : Fin S8x128.rank) _ _ _ (ix2 f l) rfl rfl (ix2 (n0 := 8) (n1 := 120) f (⟨l.val - 8, by have := l.isLt; omega⟩ : Fin 120)) (fun b hb => by
        match b, hb with
        | ⟨0, _⟩, _ => rfl
        | ⟨1, _⟩, hb => exact absurd rfl hb) (by show (l.val - 8) + 8 = l.val; omega)).trans ?_
      show (Scalar.sitofp (F := Ideal) .f32 (0#32) : EReal) = 0
      simp

/-! ## A sample's counts and sums as two row tiles -/

section Halves
variable (p : SP.Idx → EReal) (t : ST.Idx → BitVec 32)

/-- Row th of row tile hh is row 256 hh + th of the sample. -/
abbrev row (hh : Fin 2) (th : Fin 256) : Fin 512 := ⟨hh.val * 256 + th.val, by have := hh.isLt; have := th.isLt; omega⟩

/-- The pixels of row tile hh of sample b that carry label c, counted. -/
def cntTile (b : Fin 4) (c : Fin 8) (hh : Fin 2) : EReal := ∑ th : Fin 256, ∑ w : Fin 512, oh t b (row hh th) w c

/-- Feature f summed over the pixels of row tile hh of sample b that carry label c. -/
def smTile (b : Fin 4) (f c : Fin 8) (hh : Fin 2) : EReal :=
  ∑ th : Fin 256, ∑ w : Fin 512, p (ix4 b f (row hh th) w) * oh t b (row hh th) w c

theorem cnt_halves (b : Fin 4) (c : Fin 8) : cnt t b c = cntTile t b c 0 + cntTile t b c 1 := by
  unfold cnt cntTile
  rw [sum_rows_halves, Fin.sum_univ_two]

theorem sm_halves (b : Fin 4) (f c : Fin 8) : sm p t b f c = smTile p t b f c 0 + smTile p t b f c 1 := by
  unfold sm smTile
  rw [sum_rows_halves, Fin.sum_univ_two]

/-- The indicator, with the label test written out. -/
theorem oh_eq (b : Fin 4) (h w : Fin 512) (c : Fin 8) :
    oh t b h w c = if t (ix3 b h w) = BitVec.ofNat 32 c.val then (1 : EReal) else 0 := by
  unfold oh
  exact if_congr Iff.rfl rfl rfl

/-- What a lane of the sums array ends holding: the sample's sum at a lane below 8, zero at the padding lanes. -/
def smLane (b : Fin 4) (f : Fin 8) (n : ℕ) : EReal := if hl : n < 8 then sm p t b f ⟨n, hl⟩ else 0

/-- The same for one row tile. -/
def smLaneTile (b : Fin 4) (f : Fin 8) (n : ℕ) (hh : Fin 2) : EReal := if hl : n < 8 then smTile p t b f ⟨n, hl⟩ hh else 0

theorem smLane_halves (b : Fin 4) (f : Fin 8) (n : ℕ) : smLane p t b f n = smLaneTile p t b f n 0 + smLaneTile p t b f n 1 := by
  unfold smLane smLaneTile
  by_cases hl : n < 8
  · rw [dif_pos hl, dif_pos hl, dif_pos hl, sm_halves]
  · rw [dif_neg hl, dif_neg hl, dif_neg hl, add_zero]

/-- The counts array and the sums array after the run, as functions of the two argument arrays. -/
def Gcnt : S4x8x128.Idx → EReal := fun i => cnt t ⟨(i 0).val, (i 0).isLt⟩ ⟨(i 1).val, (i 1).isLt⟩
def Gsm : S4x8x128.Idx → EReal := fun i => smLane p t ⟨(i 0).val, (i 0).isLt⟩ ⟨(i 1).val, (i 1).isLt⟩ (i 2).val

end Halves

/-! ## The blocks the points read, in the arrays' coordinates -/

variable (V : (c : Dev nD) → (b : Ref sig .tc) → Buf (Elt Ideal) ((c : Thread nD τ).loc b))

/-- The feature block and the label block at a point, and the two arrays, at their literal types. -/
abbrev fblk (c : Dev nD) (t : Fin cfg0.N) : Vec Ideal S1x8x256x512 .f32 := iblk0 V c 0 t
abbrev lblk (c : Dev nD) (t : Fin cfg0.N) : Vec Ideal S1x256x512 .i32 := iblk0 V c 1 t
abbrev farr (c : Dev nD) : Vec Ideal S4x8x512x512 .f32 := V c main_arg0
abbrev larr (c : Dev nD) : Vec Ideal S4x512x512 .i32 := V c main_arg1

/-- The block indices over the grid: point t is (sample t / 2, row tile t % 2); the inputs' blocks follow both, the
    outputs' blocks only the sample. -/
theorem idx_facts : ∀ t : Fin cfg0.N,
    win0_0.index t (0 : Fin 4) = t.val / 2 ∧ win0_0.index t (1 : Fin 4) = 0 ∧ win0_0.index t (2 : Fin 4) = t.val % 2 ∧ win0_0.index t (3 : Fin 4) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = 0 ∧ win0_3.index t (2 : Fin 3) = 0 :=
  (by decide +kernel : ∀ t : Fin grid0.N, _)

/-- Entry (f, th, w) of the feature block at point t is entry (t / 2, f, 256 (t % 2) + th, w) of the feature array. -/
theorem fblk_apply (c : Dev nD) (t : Fin cfg0.N) (f : Fin 8) (th : Fin 256) (w : Fin 512) (b : Fin 4) (h : Fin 512)
    (hb : b.val = t.val / 2) (hh : h.val = (t.val % 2) * 256 + th.val) :
    fblk V c t (ix4 (0 : Fin 1) f th w) = farr V c (ix4 b f h w) := by
  obtain ⟨e0, e1, e2, e3, -⟩ := idx_facts t
  unfold fblk farr iblk0
  rw [View.read_apply]
  show V c main_arg0 _ = V c main_arg0 _
  congr 1
  funext a
  apply Fin.ext
  match a with
  | ⟨0, _⟩ => show win0_0.index t (0 : Fin 4) * 1 + 1 * 0 = b.val; rw [e0, hb]; omega
  | ⟨1, _⟩ => show win0_0.index t (1 : Fin 4) * 8 + 1 * f.val = f.val; rw [e1]; omega
  | ⟨2, _⟩ => show win0_0.index t (2 : Fin 4) * 256 + 1 * th.val = h.val; rw [e2, hh]; omega
  | ⟨3, _⟩ => show win0_0.index t (3 : Fin 4) * 512 + 1 * w.val = w.val; rw [e3]; omega

/-- Entry (th, w) of the label block at point t is entry (t / 2, 256 (t % 2) + th, w) of the label array. -/
theorem lblk_apply (c : Dev nD) (t : Fin cfg0.N) (th : Fin 256) (w : Fin 512) (b : Fin 4) (h : Fin 512)
    (hb : b.val = t.val / 2) (hh : h.val = (t.val % 2) * 256 + th.val) :
    lblk V c t (ix3 (0 : Fin 1) th w) = larr V c (ix3 b h w) := by
  obtain ⟨-, -, -, -, e0, e1, e2, -⟩ := idx_facts t
  unfold lblk larr iblk0
  rw [View.read_apply]
  show V c main_arg1 _ = V c main_arg1 _
  congr 1
  funext a
  apply Fin.ext
  match a with
  | ⟨0, _⟩ => show win0_1.index t (0 : Fin 3) * 1 + 1 * 0 = b.val; rw [e0, hb]; omega
  | ⟨1, _⟩ => show win0_1.index t (1 : Fin 3) * 256 + 1 * th.val = h.val; rw [e1, hh]; omega
  | ⟨2, _⟩ => show win0_1.index t (2 : Fin 3) * 512 + 1 * w.val = w.val; rw [e2]; omega

/-! ## A point's tile sums are the row tile's share of the sample's -/

theorem tile_count (c : Dev nD) (tt : Fin cfg0.N) (k : Fin 8) (b : Fin 4) (hh : Fin 2) (hb : b.val = tt.val / 2) (hhh : hh.val = tt.val % 2) :
    (∑ th : Fin 256, ∑ w : Fin 512, (if lblk V c tt (ix3 (0 : Fin 1) th w) = BitVec.ofNat 32 k.val then (1 : EReal) else 0))
      = cntTile (larr V c) b k hh := by
  unfold cntTile
  refine Finset.sum_congr rfl fun th _ => Finset.sum_congr rfl fun w _ => ?_
  rw [lblk_apply V c tt th w b (row hh th) hb (by show hh.val * 256 + th.val = _; rw [hhh]), oh_eq]

theorem tile_sum (c : Dev nD) (tt : Fin cfg0.N) (f : Fin 8) (l : Fin 128) (b : Fin 4) (hh : Fin 2) (hb : b.val = tt.val / 2) (hhh : hh.val = tt.val % 2) :
    (if l.val < 8 then ∑ th : Fin 256, ∑ w : Fin 512, fblk V c tt (ix4 (0 : Fin 1) f th w)
        * (if lblk V c tt (ix3 (0 : Fin 1) th w) = BitVec.ofNat 32 l.val then (1 : EReal) else 0) else 0)
      = smLaneTile (farr V c) (larr V c) b f l.val hh := by
  unfold smLaneTile
  by_cases hl : l.val < 8
  · rw [if_pos hl, dif_pos hl]
    unfold smTile
    refine Finset.sum_congr rfl fun th _ => Finset.sum_congr rfl fun w _ => ?_
    rw [fblk_apply V c tt f th w b (row hh th) hb (by show hh.val * 256 + th.val = _; rw [hhh]),
      lblk_apply V c tt th w b (row hh th) hb (by show hh.val * 256 + th.val = _; rw [hhh]), oh_eq]
  · rw [if_neg hl, dif_neg hl]

/-! ## What the two blocks hold after each point of a sample -/

/-- After the first point of a sample (its row tile 0, where the blocks are reset) the blocks hold tile 0's share. -/
theorem even_counts (c : Dev nD) (tt : Fin cfg0.N) (h0 : tt.val % 2 = 0) (b : Fin 4) (hb : b.val = tt.val / 2) (k : Fin 8) (l : Fin 128) :
    (outsAt0 V c tt.val tt.isLt).2 (ix3 (0 : Fin 1) k l) = 0 + cntTile (larr V c) b k 0 := by
  rw [outsAt0_A V c tt h0]
  dsimp only
  refine (congrFun (pieceA3 (F := Ideal) c (grid0.coords tt) (ms0_0 tt) (hs0_0 tt) (ms0_1 tt) (hs0_1 tt) (ms0_2 tt) (hs0_2 tt) (ms0_3 tt) (hs0_3 tt) ((hcond0_0 tt).mpr h0) (iblk0 V c 0 tt) (iblk0 V c 1 tt)) (ix3 (0 : Fin 1) k l)).trans ?_
  refine (counts_step (lblk V c tt) (k0_pay3 (F := Ideal)) k l).trans ?_
  refine congrArg₂ (· + ·) ?_ (tile_count V c tt k b 0 hb (by show 0 = tt.val % 2; omega))
  exact Ideal.ofBits_zero_f32

theorem even_sums (c : Dev nD) (tt : Fin cfg0.N) (h0 : tt.val % 2 = 0) (b : Fin 4) (hb : b.val = tt.val / 2) (f : Fin 8) (l : Fin 128) :
    (outsAt0 V c tt.val tt.isLt).1 (ix3 (0 : Fin 1) f l) = 0 + smLaneTile (farr V c) (larr V c) b f l.val 0 := by
  rw [outsAt0_A V c tt h0]
  dsimp only
  refine (congrFun (pieceA2 (F := Ideal) c (grid0.coords tt) (ms0_0 tt) (hs0_0 tt) (ms0_1 tt) (hs0_1 tt) (ms0_2 tt) (hs0_2 tt) (ms0_3 tt) (hs0_3 tt) ((hcond0_0 tt).mpr h0) (iblk0 V c 0 tt) (iblk0 V c 1 tt)) (ix3 (0 : Fin 1) f l)).trans ?_
  refine (sums_step (fblk V c tt) (lblk V c tt) (k0_pay2 (F := Ideal)) f l).trans ?_
  refine congrArg₂ (· + ·) ?_ (tile_sum V c tt f l b 0 hb (by show 0 = tt.val % 2; omega))
  exact Ideal.ofBits_zero_f32

/-- After the second point of a sample (its row tile 1, added to what the first left) the blocks hold the whole sample's. -/
theorem odd_counts (c : Dev nD) (tt : Fin cfg0.N) (h1 : tt.val % 2 = 1) (b : Fin 4) (hb : b.val = tt.val / 2) (k : Fin 8) (l : Fin 128) :
    (outsAt0 V c tt.val tt.isLt).2 (ix3 (0 : Fin 1) k l) = cnt (larr V c) b k := by
  have hB : ¬tt.val % 2 = 0 := by omega
  have hlt : tt.val - 1 < cfg0.N := Nat.lt_of_le_of_lt (Nat.sub_le _ _) tt.isLt
  rw [outsAt0_B V c tt hB]
  dsimp only
  refine (congrFun (pieceB3 (F := Ideal) c (grid0.coords tt) (ms0_0 tt) (hs0_0 tt) (ms0_1 tt) (hs0_1 tt) (ms0_2 tt) (hs0_2 tt) (ms0_3 tt) (hs0_3 tt) (fun h => hB ((hcond0_0 tt).mp h)) (iblk0 V c 0 tt) (iblk0 V c 1 tt) (outsAt0 V c (tt.val - 1) hlt).1 (outsAt0 V c (tt.val - 1) hlt).2) (ix3 (0 : Fin 1) k l)).trans ?_
  refine (counts_step (lblk V c tt) (outsAt0 V c (tt.val - 1) hlt).2 k l).trans ?_
  rw [cnt_halves]
  refine congrArg₂ (· + ·) ?_ (tile_count V c tt k b 1 hb (by show 1 = tt.val % 2; omega))
  exact (even_counts V c ⟨tt.val - 1, hlt⟩ (by show (tt.val - 1) % 2 = 0; omega) b (by show b.val = (tt.val - 1) / 2; omega) k l).trans (zero_add _)

theorem odd_sums (c : Dev nD) (tt : Fin cfg0.N) (h1 : tt.val % 2 = 1) (b : Fin 4) (hb : b.val = tt.val / 2) (f : Fin 8) (l : Fin 128) :
    (outsAt0 V c tt.val tt.isLt).1 (ix3 (0 : Fin 1) f l) = smLane (farr V c) (larr V c) b f l.val := by
  have hB : ¬tt.val % 2 = 0 := by omega
  have hlt : tt.val - 1 < cfg0.N := Nat.lt_of_le_of_lt (Nat.sub_le _ _) tt.isLt
  rw [outsAt0_B V c tt hB]
  dsimp only
  refine (congrFun (pieceB2 (F := Ideal) c (grid0.coords tt) (ms0_0 tt) (hs0_0 tt) (ms0_1 tt) (hs0_1 tt) (ms0_2 tt) (hs0_2 tt) (ms0_3 tt) (hs0_3 tt) (fun h => hB ((hcond0_0 tt).mp h)) (iblk0 V c 0 tt) (iblk0 V c 1 tt) (outsAt0 V c (tt.val - 1) hlt).1 (outsAt0 V c (tt.val - 1) hlt).2) (ix3 (0 : Fin 1) f l)).trans ?_
  refine (sums_step (fblk V c tt) (lblk V c tt) (outsAt0 V c (tt.val - 1) hlt).1 f l).trans ?_
  rw [smLane_halves]
  refine congrArg₂ (· + ·) ?_ (tile_sum V c tt f l b 1 hb (by show 1 = tt.val % 2; omega))
  exact (even_sums V c ⟨tt.val - 1, hlt⟩ (by show (tt.val - 1) % 2 = 0; omega) b (by show b.val = (tt.val - 1) / 2; omega) f l).trans (zero_add _)

/-! ## From the blocks to the arrays -/

/-- What the second point of a sample writes back to the counts array is the sample's block of the counts. -/
theorem flushed_counts (c : Dev nD) (tt : Fin cfg0.N) (hf : (cfg0.win 3).flush tt = true) :
    (dat0 V c).flushed 3 tt = ((cfg0.win 3).blk tt).view.read (Elt Ideal) (Gcnt (larr V c)) := by
  have h1 : tt.val % 2 = 1 := (flush0_3 tt).mp hf
  have hN : tt.val < 8 := lt_of_lt_of_eq tt.isLt (show cfg0.N = 8 from N_0)
  obtain ⟨-, -, -, -, -, -, -, -, -, -, e0, e1, e2⟩ := idx_facts tt
  show (cfg0.win 3).cut (grid0.coords tt) ((dat0 V c).after 3 tt) = _
  rw [after0_3]
  funext y
  obtain ⟨y0, k, l, rfl⟩ : ∃ (y0 : Fin 1) (k : Fin 8) (l : Fin 128), y = ix3 y0 k l := ⟨y 0, y 1, y 2, eq_ix3 y⟩
  obtain rfl : y0 = 0 := Subsingleton.elim _ _
  rw [View.read_apply]
  show (outsAt0 V c tt.val tt.isLt).2 (ix3 (0 : Fin 1) k l) = Gcnt (larr V c) (((cfg0.win 3).blk tt).view.emb (ix3 (0 : Fin 1) k l))
  rw [odd_counts V c tt h1 ⟨tt.val / 2, by omega⟩ rfl k l]
  unfold Gcnt
  congr 1
  · apply Fin.ext; show tt.val / 2 = win0_3.index tt (0 : Fin 3) * 1 + 1 * 0; rw [e0]; omega
  · apply Fin.ext; show k.val = win0_3.index tt (1 : Fin 3) * 8 + 1 * k.val; rw [e1]; omega

/-- What the second point of a sample writes back to the sums array is the sample's block of the sums. -/
theorem flushed_sums (c : Dev nD) (tt : Fin cfg0.N) (hf : (cfg0.win 2).flush tt = true) :
    (dat0 V c).flushed 2 tt = ((cfg0.win 2).blk tt).view.read (Elt Ideal) (Gsm (farr V c) (larr V c)) := by
  have h1 : tt.val % 2 = 1 := (flush0_2 tt).mp hf
  have hN : tt.val < 8 := lt_of_lt_of_eq tt.isLt (show cfg0.N = 8 from N_0)
  obtain ⟨-, -, -, -, -, -, -, e0, e1, e2, -⟩ := idx_facts tt
  show (cfg0.win 2).cut (grid0.coords tt) ((dat0 V c).after 2 tt) = _
  rw [after0_2]
  funext y
  obtain ⟨y0, f, l, rfl⟩ : ∃ (y0 : Fin 1) (f : Fin 8) (l : Fin 128), y = ix3 y0 f l := ⟨y 0, y 1, y 2, eq_ix3 y⟩
  obtain rfl : y0 = 0 := Subsingleton.elim _ _
  rw [View.read_apply]
  show (outsAt0 V c tt.val tt.isLt).1 (ix3 (0 : Fin 1) f l) = Gsm (farr V c) (larr V c) (((cfg0.win 2).blk tt).view.emb (ix3 (0 : Fin 1) f l))
  rw [odd_sums V c tt h1 ⟨tt.val / 2, by omega⟩ rfl f l]
  unfold Gsm
  congr 1
  · apply Fin.ext; show tt.val / 2 = win0_2.index tt (0 : Fin 3) * 1 + 1 * 0; rw [e0]; omega
  · apply Fin.ext; show f.val = win0_2.index tt (1 : Fin 3) * 8 + 1 * f.val; rw [e1]; omega
  · show l.val = win0_2.index tt (2 : Fin 3) * 128 + 1 * l.val; rw [e2]; omega

/-- An index of an output array is in point tt's block iff each coordinate is in the block's range on its axis. -/
theorem mem_blk3 (tt : Fin cfg0.N) (i : S4x8x128.Idx) :
    i ∈ ((cfg0.win 3).blk tt).view.set ↔ ∀ a : Fin 3, win0_3.index tt a * S1x8x128.size a ≤ (i a).val ∧ (i a).val < win0_3.index tt a * S1x8x128.size a + S1x8x128.size a := by
  show i ∈ ((View.whole main_v0_1).slice (win0_3.rect tt)).set ↔ _
  rw [View.set_slice_whole, Rect.mem_set_unit]
  exact Iff.rfl

theorem mem_blk2 (tt : Fin cfg0.N) (i : S4x8x128.Idx) :
    i ∈ ((cfg0.win 2).blk tt).view.set ↔ ∀ a : Fin 3, win0_2.index tt a * S1x8x128.size a ≤ (i a).val ∧ (i a).val < win0_2.index tt a * S1x8x128.size a + S1x8x128.size a := by
  show i ∈ ((View.whole main_v0_0).slice (win0_2.rect tt)).set ↔ _
  rw [View.set_slice_whole, Rect.mem_set_unit]
  exact Iff.rfl

/-- Sample b's block of each output array is written back by the sample's second point, 2 b + 1. -/
theorem cover3 (i : S4x8x128.Idx) : ∃ tt : Fin cfg0.N, (cfg0.win 3).flush tt = true ∧ i ∈ ((cfg0.win 3).blk tt).view.set := by
  have hi0 : (i 0).val < 4 := (i 0).isLt
  have hi1 : (i 1).val < 8 := (i 1).isLt
  have hi2 : (i 2).val < 128 := (i 2).isLt
  have hN : cfg0.N = 8 := N_0
  obtain ⟨tt, htt⟩ : ∃ tt : Fin cfg0.N, tt.val = 2 * (i 0).val + 1 := ⟨⟨2 * (i 0).val + 1, by rw [hN]; omega⟩, rfl⟩
  obtain ⟨-, -, -, -, -, -, -, -, -, -, e0, e1, e2⟩ := idx_facts tt
  refine ⟨tt, (flush0_3 tt).mpr (by omega), ?_⟩
  rw [mem_blk3]
  intro a
  match a with
  | ⟨0, _⟩ => show win0_3.index tt (0 : Fin 3) * 1 ≤ (i 0).val ∧ (i 0).val < win0_3.index tt (0 : Fin 3) * 1 + 1; rw [e0]; omega
  | ⟨1, _⟩ => show win0_3.index tt (1 : Fin 3) * 8 ≤ (i 1).val ∧ (i 1).val < win0_3.index tt (1 : Fin 3) * 8 + 8; rw [e1]; omega
  | ⟨2, _⟩ => show win0_3.index tt (2 : Fin 3) * 128 ≤ (i 2).val ∧ (i 2).val < win0_3.index tt (2 : Fin 3) * 128 + 128; rw [e2]; omega

theorem cover2 (i : S4x8x128.Idx) : ∃ tt : Fin cfg0.N, (cfg0.win 2).flush tt = true ∧ i ∈ ((cfg0.win 2).blk tt).view.set := by
  have hi0 : (i 0).val < 4 := (i 0).isLt
  have hi1 : (i 1).val < 8 := (i 1).isLt
  have hi2 : (i 2).val < 128 := (i 2).isLt
  have hN : cfg0.N = 8 := N_0
  obtain ⟨tt, htt⟩ : ∃ tt : Fin cfg0.N, tt.val = 2 * (i 0).val + 1 := ⟨⟨2 * (i 0).val + 1, by rw [hN]; omega⟩, rfl⟩
  obtain ⟨-, -, -, -, -, -, -, e0, e1, e2, -⟩ := idx_facts tt
  refine ⟨tt, (flush0_2 tt).mpr (by omega), ?_⟩
  rw [mem_blk2]
  intro a
  match a with
  | ⟨0, _⟩ => show win0_2.index tt (0 : Fin 3) * 1 ≤ (i 0).val ∧ (i 0).val < win0_2.index tt (0 : Fin 3) * 1 + 1; rw [e0]; omega
  | ⟨1, _⟩ => show win0_2.index tt (1 : Fin 3) * 8 ≤ (i 1).val ∧ (i 1).val < win0_2.index tt (1 : Fin 3) * 8 + 8; rw [e1]; omega
  | ⟨2, _⟩ => show win0_2.index tt (2 : Fin 3) * 128 ≤ (i 2).val ∧ (i 2).val < win0_2.index tt (2 : Fin 3) * 128 + 128; rw [e2]; omega

/-- The two output arrays after the run. -/
theorem counts_arr (c : Dev nD) : (dat0 (F := Ideal) V c).arrAt 3 cfg0.N = Gcnt (larr V c) :=
  (dat0 (F := Ideal) V c).arrAt_eq_of_cover 3 (Gcnt (larr V c)) (flushed_counts V c) cover3

theorem sums_arr (c : Dev nD) : (dat0 (F := Ideal) V c).arrAt 2 cfg0.N = Gsm (farr V c) (larr V c) :=
  (dat0 (F := Ideal) V c).arrAt_eq_of_cover 2 (Gsm (farr V c) (larr V c)) (flushed_sums V c) cover2

/-- Output window 2 (the sums): lane l < 8 of row f of sample b holds feature f summed over the pixels labelled l. -/
theorem sums_final (c : Dev nD) (b : Fin 4) (f : Fin 8) (l : Fin 128) (hl : l.val < 8) :
    ((dat0 (F := Ideal) V c).arrAt 2 cfg0.N : S4x8x128.Idx → EReal) (ix3 b f l)
      = sm (V c main_arg0) (V c main_arg1) b f ⟨l.val, hl⟩ := by
  refine (congrFun (sums_arr V c) (ix3 b f l)).trans ?_
  show smLane (farr V c) (larr V c) b f l.val = _
  unfold smLane
  rw [dif_pos hl]

/-- Output window 3 (the counts): every lane of row k of sample b holds the number of pixels labelled k. -/
theorem counts_final (c : Dev nD) (b : Fin 4) (k : Fin 8) (l : Fin 128) :
    ((dat0 (F := Ideal) V c).arrAt 3 cfg0.N : S4x8x128.Idx → EReal) (ix3 b k l)
      = cnt (V c main_arg1) b k :=
  congrFun (counts_arr V c) (ix3 b k l)

/-- The two input windows' arrays are left as entered. -/
theorem arg0_kept (c : Dev nD) : (dat0 (F := Ideal) V c).arrAt 0 cfg0.N = V c main_arg0 :=
  ((dat0 (F := Ideal) V c).arrAt_in 0 rfl _).trans (A_eq0 V c 0)
theorem arg1_kept (c : Dev nD) : (dat0 (F := Ideal) V c).arrAt 1 cfg0.N = V c main_arg1 :=
  ((dat0 (F := Ideal) V c).arrAt_in 1 rfl _).trans (A_eq0 V c 1)

end Cert.KernelIdeal.Region0

end
-- ==== Proof.KernelMid.lean ====
/-
  Between the two pallas_calls the host slices the first 8 lanes of the sums and lane 0 of the counts, and divides:
  the centroids.  This module reads the buffer contents at the second pallas_call's entry (`W2`): the centroid array
  is `mean`, the count array is `cnt`, and the two argument arrays are as launched.
-/
import proofs.«424189_j66632122630437_4_alg».proof.Proof.Gen.KernelIdeal.Frame
import proofs.«424189_j66632122630437_4_alg».proof.Proof.Spec
import proofs.«424189_j66632122630437_4_alg».proof.Proof.SpecLaws
import proofs.«424189_j66632122630437_4_alg».proof.Proof.Region0
import Idealize.ShloMosaic.Lib.ValueIdx
import Idealize.ShloMosaic.Lib.Pipeline.Value
import Idealize.ShloMosaic.PureOps.Ideal.Laws

set_option maxRecDepth 16384

noncomputable section

namespace Cert.KernelIdeal.Mid

open Cert.KernelIdeal Cert.KernelIdeal.Gen Cert.Disc
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The features as launched on core c. -/
abbrev feat (c : Dev nD) : SP.Idx → EReal := m ((c : Thread nD τ).loc main_arg0)
/-- The labels as launched on core c. -/
abbrev labs (c : Dev nD) : ST.Idx → BitVec 32 := m ((c : Thread nD τ).loc main_arg1)

/-! ## The host operations read at an index, over a variable operand -/

/-- Lane 0 of the counts block, reshaped to (sample, label). -/
theorem count_read (X : S4x8x128.Idx → EReal) (b : Fin 4) (k : Fin 8) :
    (shapeCast S4x8 (extractStridedSlice S4x8x1 ![0, 0, 0] X slices_S4x8x128_S4x8x1_0_0_0) shapeCasts_S4x8x1_S4x8
      : S4x8.Idx → EReal) (ix2 b k) = X (ix3 b k 0) := by
  refine (shapeCast_apply _ shapeCasts_S4x8x1_S4x8 (ix2 b k) (ix3 b k (0 : Fin 1)) ?_).trans ?_
  · rewrite [Shape.rowMajor_val_three, Shape.rowMajor_val_two]
    show (b.val * 8 + k.val) * 1 + 0 = b.val * 8 + k.val
    omega
  · exact extractStridedSlice_apply ![0, 0, 0] X slices_S4x8x128_S4x8x1_0_0_0 (ix3 b k (0 : Fin 1)) (ix3 b k (0 : Fin 128))
      (fun a => match a with
        | ⟨0, _⟩ => by show b.val = 0 + b.val; omega
        | ⟨1, _⟩ => by show k.val = 0 + k.val; omega
        | ⟨2, _⟩ => by show (0 : Nat) = 0 + 0; omega)

/-- The first 8 lanes of the sums block. -/
theorem sum_read (X : S4x8x128.Idx → EReal) (b : Fin 4) (f k : Fin 8) :
    (extractStridedSlice S4x8x8 ![0, 0, 0] X slices_S4x8x128_S4x8x8_0_0_0 : S4x8x8.Idx → EReal) (ix3 b f k)
      = X (ix3 b f (⟨k.val, by have := k.isLt; omega⟩ : Fin 128)) :=
  extractStridedSlice_apply ![0, 0, 0] X slices_S4x8x128_S4x8x8_0_0_0 (ix3 b f k) (ix3 b f (⟨k.val, by have := k.isLt; omega⟩ : Fin 128))
    (fun a => match a with
      | ⟨0, _⟩ => by show b.val = 0 + b.val; omega
      | ⟨1, _⟩ => by show f.val = 0 + f.val; omega
      | ⟨2, _⟩ => by show k.val = 0 + k.val; omega)

/-- The counts broadcast along the feature axis. -/
theorem bcast_read (Y : S4x8.Idx → EReal) (b : Fin 4) (f k : Fin 8) :
    (broadcastInDim S4x8x8 ![0, 1, 2] bcast_S4x1x8_S4x8x8_0_1_2 (broadcastInDim S4x1x8 ![0, 2] bcast_S4x8_S4x1x8_0_2 Y)
      : S4x8x8.Idx → EReal) (ix3 b f k) = Y (ix2 b k) := by
  refine (broadcastInDim_apply _ bcast_S4x1x8_S4x8x8_0_1_2 _ (ix3 b f k) (ix3 b (0 : Fin 1) k) (fun a => match a with
    | ⟨0, _⟩ => by show b.val = if (4 : Nat) = 1 then 0 else b.val; rw [if_neg (by decide)]
    | ⟨1, _⟩ => by show 0 = if (1 : Nat) = 1 then 0 else f.val; rw [if_pos rfl]
    | ⟨2, _⟩ => by show k.val = if (8 : Nat) = 1 then 0 else k.val; rw [if_neg (by decide)])).trans ?_
  exact broadcastInDim_apply _ bcast_S4x8_S4x1x8_0_2 Y (ix3 b (0 : Fin 1) k) (ix2 b k) (fun a => match a with
    | ⟨0, _⟩ => by show b.val = if (4 : Nat) = 1 then 0 else b.val; rw [if_neg (by decide)]
    | ⟨1, _⟩ => by show k.val = if (8 : Nat) = 1 then 0 else k.val; rw [if_neg (by decide)])

/-- The host's quotient of two arrays, at an index. -/
theorem divf_read (X Y : FVec Ideal S4x8x8 .f32) (i : S4x8x8.Idx) : Host.divf X Y i = Ideal.div (X i) (Y i) := rfl

/-! ## The first region's two output arrays, as the second region finds them -/

theorem W1_sums (c : Dev nD) :
    W1 (F := Ideal) m ρ c (Proc.devRef .tc main_v0_0) = (dat0 (V0 m ρ) c).arrAt 2 cfg0.N := W1_arr m ρ c 2
theorem W1_counts (c : Dev nD) :
    W1 (F := Ideal) m ρ c (Proc.devRef .tc main_v0_1) = (dat0 (V0 m ρ) c).arrAt 3 cfg0.N := W1_arr m ρ c 3

theorem counts_lane0 (c : Dev nD) (b : Fin 4) (k : Fin 8) :
    (W1 (F := Ideal) m ρ c (Proc.devRef .tc main_v0_1) : S4x8x128.Idx → EReal) (ix3 b k 0) = cnt (labs m c) b k := by
  rw [W1_counts]
  exact Region0.counts_final (V0 m ρ) c b k 0

theorem sums_lane (c : Dev nD) (b : Fin 4) (f k : Fin 8) :
    (W1 (F := Ideal) m ρ c (Proc.devRef .tc main_v0_0) : S4x8x128.Idx → EReal) (ix3 b f (⟨k.val, by have := k.isLt; omega⟩ : Fin 128))
      = sm (feat m c) (labs m c) b f k := by
  rw [W1_sums]
  exact Region0.sums_final (V0 m ρ) c b f ⟨k.val, by have := k.isLt; omega⟩ k.isLt

/-! ## The buffers at the second region's entry -/

theorem arg0_eq (c : Dev nD) : W2 (F := Ideal) m ρ c (Proc.devRef .tc main_arg0) = m ((c : Thread nD τ).loc main_arg0) := by
  have h1 : W2 (F := Ideal) m ρ c (Proc.devRef .tc main_arg0) = W1 m ρ c (Proc.devRef .tc main_arg0) :=
    StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have h0 : W1 (F := Ideal) m ρ c (Proc.devRef .tc main_arg0) = W0 m ρ c (Proc.devRef .tc main_arg0) :=
    (W1_arr m ρ c 0).trans (((dat0 (V0 m ρ) c).arrAt_in 0 rfl _).trans (A_eq0 (V0 m ρ) c 0))
  exact h1.trans h0
theorem arg1_eq (c : Dev nD) : W2 (F := Ideal) m ρ c (Proc.devRef .tc main_arg1) = m ((c : Thread nD τ).loc main_arg1) := by
  have h1 : W2 (F := Ideal) m ρ c (Proc.devRef .tc main_arg1) = W1 m ρ c (Proc.devRef .tc main_arg1) :=
    StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have h0 : W1 (F := Ideal) m ρ c (Proc.devRef .tc main_arg1) = W0 m ρ c (Proc.devRef .tc main_arg1) :=
    (W1_arr m ρ c 1).trans (((dat0 (V0 m ρ) c).arrAt_in 1 rfl _).trans (A_eq0 (V0 m ρ) c 1))
  exact h1.trans h0

/-- The count array at the second region's entry. -/
theorem counts_eq (c : Dev nD) (b : Fin 4) (k : Fin 8) :
    (W2 (F := Ideal) m ρ c (Proc.devRef .tc main_v3) : S4x8.Idx → EReal) (ix2 b k) = cnt (labs m c) b k := by
  show (StableHlo.after hostOps1 (W1 (F := Ideal) m ρ c) (Proc.devRef .tc main_v3) : S4x8.Idx → EReal) (ix2 b k) = _
  after_results
  exact (count_read (W1 (F := Ideal) m ρ c (Proc.devRef .tc main_v0_1)) b k).trans (counts_lane0 m ρ c b k)

/-- The centroid array at the second region's entry. -/
theorem means_eq (c : Dev nD) (b : Fin 4) (f : Fin 8) (k : Fin 8) :
    (W2 (F := Ideal) m ρ c (Proc.devRef .tc main_v6) : S4x8x8.Idx → EReal) (ix3 b f k) = mean (feat m c) (labs m c) b f k := by
  show (StableHlo.after hostOps1 (W1 (F := Ideal) m ρ c) (Proc.devRef .tc main_v6) : S4x8x8.Idx → EReal) (ix3 b f k) = _
  after_results
  refine (divf_read _ _ _).trans ?_
  show Ideal.div _ _ = Ideal.div (sm (feat m c) (labs m c) b f k) (cnt (labs m c) b k)
  refine congrArg₂ Ideal.div ?_ ?_
  · exact (sum_read (W1 (F := Ideal) m ρ c (Proc.devRef .tc main_v0_0)) b f k).trans (sums_lane m ρ c b f k)
  · refine (bcast_read _ b f k).trans ?_
    exact (count_read (W1 (F := Ideal) m ρ c (Proc.devRef .tc main_v0_1)) b k).trans (counts_lane0 m ρ c b k)

end Cert.KernelIdeal.Mid

end
-- ==== Proof.LibReduceTwo.lean ====
/-
  A host float sum over the LAST TWO axes of a rank-3 array, read at an index: at the exact instance it is the initial
  value plus the double sum over those two axes.  (The library reads a sum over one axis, and a sum into a result
  whose axes all have size one; this is the form between the two.)
-/
import Idealize.ShloMosaic.PureOps.Ideal
import Idealize.ShloMosaic.PureOps.Ideal.Laws
import Idealize.ShloMosaic.Lib.ValueIdx

noncomputable section

namespace Cert.LibReduceTwo

open Idealize.ShloMosaic Idealize.ShloMosaic.ValueIdx

/-- For any extents: entry `i` of the sum of `x` over its last two axes is `init` plus the double sum of row `i`. -/
theorem hostReduceAdd_last_two {a n k : Nat} (h' : (⟨3, ![a, n, k]⟩ : Shape).ReducesTo [1, 2] ⟨1, ![a]⟩)
    (x : (⟨3, ![a, n, k]⟩ : Shape).Idx → EReal) (init : EReal) (i : Fin a) :
    Ideal.hostReduceAdd h' x init (ix1 i) = init + ∑ j : Fin n, ∑ l : Fin k, x (ix3 i j l) := by
  classical
  unfold Ideal.hostReduceAdd
  congr 1
  -- an index drops to row i exactly when its first coordinate is i
  have hdrop : ∀ m : (⟨3, ![a, n, k]⟩ : Shape).Idx, h'.drop m = ix1 i ↔ m 0 = i := by
    intro m
    have hv : (h'.drop m 0 : Nat) = m 0 := Shape.ReducesTo.drop_apply_val_of_eq h' m 0 0 Nat.one_pos rfl
    constructor
    · intro e; rw [e] at hv; exact Fin.ext hv.symm
    · intro e; funext b; have hb : b = 0 := Subsingleton.elim _ _; subst hb; exact Fin.ext (by rw [hv, e]; rfl)
  -- an index of row i is (i, its second coordinate, its third)
  have hback : ∀ m : (⟨3, ![a, n, k]⟩ : Shape).Idx, m 0 = i → ix3 i (m 1 : Fin n) (m 2 : Fin k) = m := fun m h0 => by
    funext b; match b with
    | ⟨0, _⟩ => exact h0.symm
    | ⟨1, _⟩ => rfl
    | ⟨2, _⟩ => rfl
  refine Eq.trans ?_ (Fintype.sum_prod_type' (fun (j : Fin n) (l : Fin k) => x (ix3 i j l)))
  refine Finset.sum_nbij' (fun m => ((m 1 : Fin n), (m 2 : Fin k))) (fun jl => ix3 i jl.1 jl.2)
    (fun _ _ => Finset.mem_univ _) (fun jl _ => Finset.mem_filter.2 ⟨Finset.mem_univ _, (hdrop _).2 rfl⟩)
    (fun m hm => hback m ((hdrop m).1 (Finset.mem_filter.1 hm).2)) (fun _ _ => rfl) ?_
  intro m hm
  exact (congrArg x (hback m ((hdrop m).1 (Finset.mem_filter.1 hm).2))).symm

/-- The same at the literal extents 4 x 262144 x 8 (stated apart so that it rewrites a goal over literal shapes). -/
theorem hostReduceAdd_4_262144_8 (h' : (⟨3, ![4, 262144, 8]⟩ : Shape).ReducesTo [1, 2] ⟨1, ![4]⟩)
    (x : (⟨3, ![4, 262144, 8]⟩ : Shape).Idx → EReal) (init : EReal) (i : Fin 4) :
    Ideal.hostReduceAdd h' x init (ix1 i) = init + ∑ j : Fin 262144, ∑ l : Fin 8, x (ix3 i j l) :=
  hostReduceAdd_last_two h' x init i

/-- The same at the literal extents 4 x 8 x 8. -/
theorem hostReduceAdd_4_8_8 (h' : (⟨3, ![4, 8, 8]⟩ : Shape).ReducesTo [1, 2] ⟨1, ![4]⟩)
    (x : (⟨3, ![4, 8, 8]⟩ : Shape).Idx → EReal) (init : EReal) (i : Fin 4) :
    Ideal.hostReduceAdd h' x init (ix1 i) = init + ∑ j : Fin 8, ∑ l : Fin 8, x (ix3 i j l) :=
  hostReduceAdd_last_two h' x init i

end Cert.LibReduceTwo

end
-- ==== Proof.KernelTail.lean ====
/-
  After the second pallas_call the host computes the loss from three arrays it finds at that region's exit (`W3`):
  the counts (4 x 8), the centroids (4 x 8 x 8) and lane 0 of the summed distances (4 x 1 x 128).  This module reads
  the result buffer at the last boundary (`W6`): it is the loss in arrangement K of those three.
-/
import proofs.«424189_j66632122630437_4_alg».proof.Proof.Gen.KernelIdeal.Frame
import proofs.«424189_j66632122630437_4_alg».proof.Proof.Spec
import proofs.«424189_j66632122630437_4_alg».proof.Proof.SpecLaws
import proofs.«424189_j66632122630437_4_alg».proof.Proof.LibReduceTwo
import Idealize.ShloMosaic.Lib.ValueIdx
import Idealize.ShloMosaic.Lib.Pipeline.Value
import Idealize.ShloMosaic.PureOps.Ideal.Laws

set_option maxRecDepth 16384

noncomputable section

namespace Cert.KernelIdeal.Tail

open Cert.KernelIdeal Cert.KernelIdeal.Gen Cert.Disc
open Idealize.ShloMosaic Idealize.ShloMosaic.TcCoe Idealize.ShloMosaic.ValueIdx Idealize.SL.Sem
open Idealize.ShloMosaic.Pipeline (Dat Cfg Window)

/-! ## The tail's arithmetic as terms of the three arrays it reads -/

/-- A scalar constant broadcast to any shape reads as the constant. -/
theorem bcast_const_apply {t : Shape} (dims : Fin S_.rank → Fin t.rank) (h : S_.BroadcastsInDim t dims) (w : BitVec 32) (j : t.Idx) :
    broadcastInDim t dims h (constant (F := Ideal) S_ .f32 w) j = Ideal.ofBits .f32 w :=
  broadcastInDim_apply dims h _ j ix0 (fun a => a.elim0)

/-- The side condition of a broadcast's read on one axis: the operand's coordinate is the result's, or 0 on a unit axis. -/
macro "bc_side" : tactic => `(tactic| first | exact (if_neg (by decide +revert)).symm | exact (if_pos rfl).symm)

section Terms

variable (n : FVec Ideal S4x8 .f32) (d : FVec Ideal S4x1x128 .f32) (mu : FVec Ideal S4x8x8 .f32)

/-- Lane 0 of the summed distances, as a vector over the samples. -/
def tD : FVec Ideal S4 .f32 :=
  fun i => shapeCast S4 (extractStridedSlice S4x1x1 ![0, 0, 0] d slices_S4x1x128_S4x1x1_0_0_0) shapeCasts_S4x1x1_S4 i

theorem tD_apply (b : Fin 4) : tD d (ix1 b) = d (ix3 b 0 0) := by
  unfold tD
  rw [shapeCast_apply _ shapeCasts_S4x1x1_S4 (ix1 b) (ix3 b 0 0)
    (by rw [Shape.rowMajor_val_three, Shape.rowMajor_val_one]; show (b.val * 1 + 0) * 1 + 0 = b.val; omega)]
  exact extractStridedSlice_apply _ d _ (ix3 b 0 0) (ix3 b 0 0) (fun a => match a with
    | ⟨0, _⟩ => (Nat.zero_add _).symm
    | ⟨1, _⟩ => rfl
    | ⟨2, _⟩ => rfl)

/-- The reciprocal of each count. -/
def tRecip : FVec Ideal S4x8 .f32 :=
  Host.divf (broadcastInDim S4x8 ![] bcast_S_S4x8 (constant (F := Ideal) S_ .f32 0x3F800000#32)) n

theorem tRecip_apply (i : S4x8.Idx) : tRecip n i = Ideal.div one (n i) := by
  show Ideal.div (broadcastInDim S4x8 ![] bcast_S_S4x8 (constant (F := Ideal) S_ .f32 0x3F800000#32) i) (n i) = _
  rw [bcast_const_apply]

/-- The sum over the labels of the reciprocal counts. -/
def tRecipSum : FVec Ideal S4 .f32 :=
  Host.reduceAdd (tRecip n) (constant (F := Ideal) S_ .f32 0x00000000#32) reducesTo_S4x8_S4_d1 h_S_

theorem tRecipSum_apply (b : Fin 4) : tRecipSum n (ix1 b) = ∑ k : Fin 8, Ideal.div one (n (ix2 b k)) := by
  unfold tRecipSum
  simp only [Host.reduceAdd, Ideal.hostReduceAdd_def]
  rw [Ideal.hostReduceAdd_single reducesTo_S4x8_S4_d1 (by decide)]
  refine (congrArg₂ (· + ·) Ideal.ofBits_zero_f32 (Finset.sum_congr rfl fun k _ => ?_)).trans (zero_add _)
  rw [← tRecip_apply]
  exact congrArg (tRecip n) (funext fun a => Fin.ext (by match a with | ⟨0, _⟩ => rfl | ⟨1, _⟩ => rfl))

end Terms

section Terms2

variable (n : FVec Ideal S4x8 .f32) (d : FVec Ideal S4x1x128 .f32) (mu : FVec Ideal S4x8x8 .f32)

/-- The counts, summed distances and centroids as functions of their coordinates. -/
abbrev nOf : Fin 4 → Fin 8 → EReal := fun b k => n (ix2 b k)
abbrev dOf : Fin 4 → EReal := fun b => d (ix3 b 0 0)
abbrev muOf : Fin 4 → Fin 8 → Fin 8 → EReal := fun b f k => mu (ix3 b f k)

/-- The variance term of each sample. -/
def tVar : FVec Ideal S4 .f32 :=
  Host.divf (mulf (tD d) (tRecipSum n)) (broadcastInDim S4 ![] bcast_S_S4 (constant (F := Ideal) S_ .f32 0x41000000#32))

theorem tVar_apply (b : Fin 4) : tVar n d (ix1 b) = lvarK (nOf n) (dOf d) b := by
  show Ideal.div (tD d (ix1 b) * tRecipSum n (ix1 b))
    (broadcastInDim S4 ![] bcast_S_S4 (constant (F := Ideal) S_ .f32 0x41000000#32) (ix1 b)) = _
  rw [tD_apply, tRecipSum_apply, bcast_const_apply]
  rfl

/-- The centroids with the feature axis last. -/
def tMt : FVec Ideal S4x8x8 .f32 := transpose S4x8x8 [0, 2, 1] mu transposes_S4x8x8_S4x8x8_0_2_1

theorem tMt_apply (b : Fin 4) (c f : Fin 8) : tMt mu (ix3 b c f) = mu (ix3 b f c) :=
  transpose_apply [0, 2, 1] mu transposes_S4x8x8_S4x8x8_0_2_1 (ix3 b c f) (ix3 b f c) (fun a => match a with
    | ⟨0, _⟩ => rfl
    | ⟨1, _⟩ => rfl
    | ⟨2, _⟩ => rfl)

/-- The difference of two centroids, feature by feature. -/
def tDiff : FVec Ideal S4x8x8x8 .f32 :=
  subf
    (broadcastInDim S4x8x8x8 ![0, 1, 2, 3] bcast_S4x8x1x8_S4x8x8x8_0_1_2_3
      (broadcastInDim S4x8x1x8 ![0, 1, 3] bcast_S4x8x8_S4x8x1x8_0_1_3 (tMt mu)))
    (broadcastInDim S4x8x8x8 ![0, 1, 2, 3] bcast_S4x1x8x8_S4x8x8x8_0_1_2_3
      (broadcastInDim S4x1x8x8 ![0, 2, 3] bcast_S4x8x8_S4x1x8x8_0_2_3 (tMt mu)))

theorem tDiff_apply (b : Fin 4) (c c' f : Fin 8) : tDiff mu (ix4 b c c' f) = mu (ix3 b f c) - mu (ix3 b f c') := by
  show broadcastInDim S4x8x8x8 ![0, 1, 2, 3] bcast_S4x8x1x8_S4x8x8x8_0_1_2_3
      (broadcastInDim S4x8x1x8 ![0, 1, 3] bcast_S4x8x8_S4x8x1x8_0_1_3 (tMt mu)) (ix4 b c c' f)
    - broadcastInDim S4x8x8x8 ![0, 1, 2, 3] bcast_S4x1x8x8_S4x8x8x8_0_1_2_3
      (broadcastInDim S4x1x8x8 ![0, 2, 3] bcast_S4x8x8_S4x1x8x8_0_2_3 (tMt mu)) (ix4 b c c' f) = _
  rw [broadcastInDim_apply _ bcast_S4x8x1x8_S4x8x8x8_0_1_2_3 _ (ix4 b c c' f) (ix4 b c 0 f) (fun a => match a with
      | ⟨0, _⟩ => by bc_side
      | ⟨1, _⟩ => by bc_side
      | ⟨2, _⟩ => by bc_side
      | ⟨3, _⟩ => by bc_side),
    broadcastInDim_apply _ bcast_S4x8x8_S4x8x1x8_0_1_3 _ (ix4 b c 0 f) (ix3 b c f) (fun a => match a with
      | ⟨0, _⟩ => by bc_side
      | ⟨1, _⟩ => by bc_side
      | ⟨2, _⟩ => by bc_side),
    broadcastInDim_apply _ bcast_S4x1x8x8_S4x8x8x8_0_1_2_3 _ (ix4 b c c' f) (ix4 b 0 c' f) (fun a => match a with
      | ⟨0, _⟩ => by bc_side
      | ⟨1, _⟩ => by bc_side
      | ⟨2, _⟩ => by bc_side
      | ⟨3, _⟩ => by bc_side),
    broadcastInDim_apply _ bcast_S4x8x8_S4x1x8x8_0_2_3 _ (ix4 b 0 c' f) (ix3 b c' f) (fun a => match a with
      | ⟨0, _⟩ => by bc_side
      | ⟨1, _⟩ => by bc_side
      | ⟨2, _⟩ => by bc_side),
    tMt_apply, tMt_apply]

/-- The squared distance between two centroids. -/
def tPd : FVec Ideal S4x8x8 .f32 :=
  Host.reduceAdd (mulf (tDiff mu) (tDiff mu)) (constant (F := Ideal) S_ .f32 0x00000000#32) reducesTo_S4x8x8x8_S4x8x8_d3 h_S_

theorem tPd_apply (b : Fin 4) (c c' : Fin 8) : tPd mu (ix3 b c c') = pdsq (muOf mu) b c c' := by
  unfold tPd
  simp only [Host.reduceAdd, Ideal.hostReduceAdd_def]
  rw [Ideal.hostReduceAdd_single reducesTo_S4x8x8x8_S4x8x8_d3 (by decide)]
  refine (congrArg₂ (· + ·) Ideal.ofBits_zero_f32 (Finset.sum_congr rfl fun (f : Fin 8) _ => ?_)).trans (zero_add _)
  have hi : (Shape.Reduces.lift (by decide : S4x8x8x8.Reduces [3] S4x8x8) (ix3 b c c') f) = ix4 b c c' f :=
    funext fun a => Fin.ext (by match a with | ⟨0, _⟩ => rfl | ⟨1, _⟩ => rfl | ⟨2, _⟩ => rfl | ⟨3, _⟩ => rfl)
  rw [hi]
  show tDiff mu (ix4 b c c' f) * tDiff mu (ix4 b c c' f) = _
  rw [tDiff_apply]

end Terms2

section Terms3

variable (n : FVec Ideal S4x8 .f32) (d : FVec Ideal S4x1x128 .f32) (mu : FVec Ideal S4x8x8 .f32)

/-- The comparison of a row number with a column number, as a bit. -/
theorem eye_bit (c c' : Fin 8) :
    IntOp.cmpi .eq (IntOp.addi (BitVec.ofNat 32 c.val) 0#32) (BitVec.ofNat 32 c'.val) = if c = c' then 1#1 else 0#1 := by
  revert c c'; decide

/-- The margin matrix: 3 off the diagonal, 0 on it. -/
def tMargin : FVec Ideal S8x8 .f32 :=
  mulf (broadcastInDim S8x8 ![] bcast_S_S8x8 (constant (F := Ideal) S_ .f32 0x40400000#32))
    (subf (broadcastInDim S8x8 ![] bcast_S_S8x8 (constant (F := Ideal) S_ .f32 0x3F800000#32))
      (uitofp .f32 (cmpi .eq (addi (iotaInDim S8x8 32 0) (broadcastInDim S8x8 ![] bcast_S_S8x8 (constantI S_ 32 0#32)))
        (iotaInDim S8x8 32 1))))

theorem tMargin_apply (c c' : Fin 8) : tMargin (ix2 c c') = margin c c' := by
  show broadcastInDim S8x8 ![] bcast_S_S8x8 (constant (F := Ideal) S_ .f32 0x40400000#32) (ix2 c c')
    * (broadcastInDim S8x8 ![] bcast_S_S8x8 (constant (F := Ideal) S_ .f32 0x3F800000#32) (ix2 c c')
      - (((IntOp.cmpi .eq (IntOp.addi (BitVec.ofNat 32 c.val)
            (broadcastInDim S8x8 ![] bcast_S_S8x8 (constantI S_ 32 0#32) (ix2 c c'))) (BitVec.ofNat 32 c'.val)).toNat : ℝ) : EReal)) = _
  rw [bcast_const_apply, bcast_const_apply,
    broadcastInDim_apply _ bcast_S_S8x8 (constantI S_ 32 0#32) (ix2 c c') ix0 (fun a => a.elim0)]
  show three * (one - (((IntOp.cmpi .eq (IntOp.addi (BitVec.ofNat 32 c.val) 0#32) (BitVec.ofNat 32 c'.val)).toNat : ℝ) : EReal)) = _
  rw [eye_bit]
  unfold margin eye
  by_cases h : c = c'
  · rw [if_pos h, if_pos h]; norm_num
  · rw [if_neg h, if_neg h]; norm_num

/-- The margin minus the distance between two centroids. -/
def tGap : FVec Ideal S4x8x8 .f32 :=
  subf (broadcastInDim S4x8x8 ![0, 1, 2] bcast_S1x8x8_S4x8x8_0_1_2 (broadcastInDim S1x8x8 ![1, 2] bcast_S8x8_S1x8x8_1_2 tMargin))
    (Host.sqrt (tPd mu))

theorem tGap_apply (b : Fin 4) (c c' : Fin 8) :
    tGap mu (ix3 b c c') = margin c c' - Ideal.sqrt (pdsq (muOf mu) b c c') := by
  show broadcastInDim S4x8x8 ![0, 1, 2] bcast_S1x8x8_S4x8x8_0_1_2 (broadcastInDim S1x8x8 ![1, 2] bcast_S8x8_S1x8x8_1_2 tMargin) (ix3 b c c')
    - Ideal.sqrt (tPd mu (ix3 b c c')) = _
  rw [broadcastInDim_apply _ bcast_S1x8x8_S4x8x8_0_1_2 _ (ix3 b c c') (ix3 0 c c') (fun a => match a with
      | ⟨0, _⟩ => by bc_side
      | ⟨1, _⟩ => by bc_side
      | ⟨2, _⟩ => by bc_side),
    broadcastInDim_apply _ bcast_S8x8_S1x8x8_1_2 _ (ix3 0 c c') (ix2 c c') (fun a => match a with
      | ⟨0, _⟩ => by bc_side
      | ⟨1, _⟩ => by bc_side),
    tMargin_apply, tPd_apply]

/-- The gap clipped to [0, 100000] and squared. -/
def tSq : FVec Ideal S4x8x8 .f32 :=
  mulf
    (minimumf (broadcastInDim S4x8x8 ![] bcast_S_S4x8x8 (constant (F := Ideal) S_ .f32 0x47C35000#32))
      (maximumf (broadcastInDim S4x8x8 ![] bcast_S_S4x8x8 (constant (F := Ideal) S_ .f32 0x00000000#32)) (tGap mu)))
    (minimumf (broadcastInDim S4x8x8 ![] bcast_S_S4x8x8 (constant (F := Ideal) S_ .f32 0x47C35000#32))
      (maximumf (broadcastInDim S4x8x8 ![] bcast_S_S4x8x8 (constant (F := Ideal) S_ .f32 0x00000000#32)) (tGap mu)))

theorem tSq_apply (b : Fin 4) (c c' : Fin 8) :
    tSq mu (ix3 b c c') = clipsq (margin c c' - Ideal.sqrt (pdsq (muOf mu) b c c')) := by
  show min (broadcastInDim S4x8x8 ![] bcast_S_S4x8x8 (constant (F := Ideal) S_ .f32 0x47C35000#32) (ix3 b c c'))
        (max (broadcastInDim S4x8x8 ![] bcast_S_S4x8x8 (constant (F := Ideal) S_ .f32 0x00000000#32) (ix3 b c c')) (tGap mu (ix3 b c c')))
    * min (broadcastInDim S4x8x8 ![] bcast_S_S4x8x8 (constant (F := Ideal) S_ .f32 0x47C35000#32) (ix3 b c c'))
        (max (broadcastInDim S4x8x8 ![] bcast_S_S4x8x8 (constant (F := Ideal) S_ .f32 0x00000000#32) (ix3 b c c')) (tGap mu (ix3 b c c'))) = _
  rw [bcast_const_apply, bcast_const_apply, tGap_apply, Ideal.ofBits_zero_f32]
  rfl

/-- The distance term of each sample. -/
def tDist : FVec Ideal S4 .f32 :=
  Host.divf (Host.reduceAdd (tSq mu) (constant (F := Ideal) S_ .f32 0x00000000#32) reducesTo_S4x8x8_S4_d1_2 h_S_)
    (broadcastInDim S4 ![] bcast_S_S4 (constant (F := Ideal) S_ .f32 0x42600000#32))

theorem tDist_apply (b : Fin 4) : tDist mu (ix1 b) = ldistK (muOf mu) b := by
  show Ideal.div (Host.reduceAdd (tSq mu) (constant (F := Ideal) S_ .f32 0x00000000#32) reducesTo_S4x8x8_S4_d1_2 h_S_ (ix1 b))
    (broadcastInDim S4 ![] bcast_S_S4 (constant (F := Ideal) S_ .f32 0x42600000#32) (ix1 b)) = _
  rw [bcast_const_apply]
  simp only [Host.reduceAdd, Ideal.hostReduceAdd_def]
  rw [Cert.LibReduceTwo.hostReduceAdd_4_8_8]
  unfold ldistK
  refine congrArg (Ideal.div · fiftysix) ?_
  refine (congrArg₂ (· + ·) Ideal.ofBits_zero_f32 (Finset.sum_congr rfl fun c _ => Finset.sum_congr rfl fun c' _ => ?_)).trans (zero_add _)
  exact tSq_apply mu b c c'

/-- The squared norm of each centroid. -/
def tRegSq : FVec Ideal S4x8 .f32 :=
  Host.reduceAdd (mulf mu mu) (constant (F := Ideal) S_ .f32 0x00000000#32) reducesTo_S4x8x8_S4x8_d1 h_S_

theorem tRegSq_apply (b : Fin 4) (c : Fin 8) : tRegSq mu (ix2 b c) = regsq (muOf mu) b c := by
  unfold tRegSq
  simp only [Host.reduceAdd, Ideal.hostReduceAdd_def]
  rw [Ideal.hostReduceAdd_single reducesTo_S4x8x8_S4x8_d1 (by decide)]
  refine (congrArg₂ (· + ·) Ideal.ofBits_zero_f32 (Finset.sum_congr rfl fun (f : Fin 8) _ => ?_)).trans (zero_add _)
  have hi : (Shape.Reduces.lift (by decide : S4x8x8.Reduces [1] S4x8) (ix2 b c) f) = ix3 b f c :=
    funext fun a => Fin.ext (by match a with | ⟨0, _⟩ => rfl | ⟨1, _⟩ => rfl | ⟨2, _⟩ => rfl)
  rw [hi]
  rfl

/-- The regulariser of each sample. -/
def tReg : FVec Ideal S4 .f32 :=
  Host.divf (Host.reduceAdd (Host.sqrt (tRegSq mu)) (constant (F := Ideal) S_ .f32 0x00000000#32) reducesTo_S4x8_S4_d1 h_S_)
    (broadcastInDim S4 ![] bcast_S_S4 (constant (F := Ideal) S_ .f32 0x41000000#32))

theorem tReg_apply (b : Fin 4) : tReg mu (ix1 b) = lregK (muOf mu) b := by
  show Ideal.div (Host.reduceAdd (Host.sqrt (tRegSq mu)) (constant (F := Ideal) S_ .f32 0x00000000#32) reducesTo_S4x8_S4_d1 h_S_ (ix1 b))
    (broadcastInDim S4 ![] bcast_S_S4 (constant (F := Ideal) S_ .f32 0x41000000#32) (ix1 b)) = _
  rw [bcast_const_apply]
  simp only [Host.reduceAdd, Ideal.hostReduceAdd_def]
  rw [Ideal.hostReduceAdd_single reducesTo_S4x8_S4_d1 (by decide)]
  unfold lregK
  refine congrArg (Ideal.div · eight) ?_
  refine (congrArg₂ (· + ·) Ideal.ofBits_zero_f32 (Finset.sum_congr rfl fun (c : Fin 8) _ => ?_)).trans (zero_add _)
  have hi : (Shape.Reduces.lift (by decide : S4x8.Reduces [1] S4) (ix1 b) c) = ix2 b c :=
    funext fun a => Fin.ext (by match a with | ⟨0, _⟩ => rfl | ⟨1, _⟩ => rfl)
  rw [hi]
  show Ideal.sqrt (tRegSq mu (ix2 b c)) = _
  rw [tRegSq_apply]

/-- Each sample's weighted sum of the three terms. -/
def tPer : FVec Ideal S4 .f32 :=
  addf
    (addf (mulf (broadcastInDim S4 ![] bcast_S_S4 (constant (F := Ideal) S_ .f32 0x3F800000#32)) (tVar n d))
      (mulf (broadcastInDim S4 ![] bcast_S_S4 (constant (F := Ideal) S_ .f32 0x3F800000#32)) (tDist mu)))
    (mulf (broadcastInDim S4 ![] bcast_S_S4 (constant (F := Ideal) S_ .f32 0x3A83126F#32)) (tReg mu))

theorem tPer_apply (b : Fin 4) :
    tPer n d mu (ix1 b) = (one * lvarK (nOf n) (dOf d) b + one * ldistK (muOf mu) b) + milli * lregK (muOf mu) b := by
  show (broadcastInDim S4 ![] bcast_S_S4 (constant (F := Ideal) S_ .f32 0x3F800000#32) (ix1 b) * tVar n d (ix1 b)
      + broadcastInDim S4 ![] bcast_S_S4 (constant (F := Ideal) S_ .f32 0x3F800000#32) (ix1 b) * tDist mu (ix1 b))
    + broadcastInDim S4 ![] bcast_S_S4 (constant (F := Ideal) S_ .f32 0x3A83126F#32) (ix1 b) * tReg mu (ix1 b) = _
  rw [bcast_const_apply, bcast_const_apply, tVar_apply, tDist_apply, tReg_apply]

/-- The loss: the mean over the samples. -/
def tLoss : FVec Ideal S_ .f32 :=
  Host.divf (Host.reduceAdd (tPer n d mu) (constant (F := Ideal) S_ .f32 0x00000000#32) reducesTo_S4_S_d0 h_S_)
    (constant (F := Ideal) S_ .f32 0x40800000#32)

/-- A sum over the one-axis indices of four samples is the sum over the samples. -/
theorem sum_S4 (g : S4.Idx → EReal) : ∑ j : S4.Idx, g j = ∑ b : Fin 4, g (ix1 b) :=
  Fintype.sum_equiv ⟨fun j => j 0, fun b => ix1 b, fun j => (eq_ix1 j).symm, fun b => rfl⟩ g (fun b => g (ix1 b))
    (fun j => congrArg g (eq_ix1 j))

theorem tLoss_apply (j : S_.Idx) : tLoss n d mu j = lossK (nOf n) (dOf d) (muOf mu) := by
  show Ideal.div (Host.reduceAdd (tPer n d mu) (constant (F := Ideal) S_ .f32 0x00000000#32) reducesTo_S4_S_d0 h_S_ j)
    (Ideal.ofBits .f32 0x40800000#32) = _
  simp only [Host.reduceAdd, Ideal.hostReduceAdd_def]
  rw [Ideal.hostReduceAdd_total reducesTo_S4_S_d0 (fun b => b.elim0), sum_S4]
  unfold lossK
  refine congrArg (Ideal.div · four) ?_
  refine (congrArg₂ (· + ·) Ideal.ofBits_zero_f32 (Finset.sum_congr rfl fun (b : Fin 4) _ => ?_)).trans (zero_add _)
  exact tPer_apply n d mu b

end Terms3

/-! ## The result buffer -/

variable (m : (ℓ : Loc nD τ sig) → Buf (Elt Ideal) ℓ) (ρ : Dev nD → PrngReg)

/-- The counts, summed distances and centroids the host tail finds. -/
abbrev nT (c : Dev nD) : Fin 4 → Fin 8 → EReal := fun b k => (W3 (F := Ideal) m ρ c (Proc.devRef .tc main_v3) : S4x8.Idx → EReal) (ix2 b k)
abbrev dT (c : Dev nD) : Fin 4 → EReal := fun b => (W3 (F := Ideal) m ρ c (Proc.devRef .tc main_v7) : S4x1x128.Idx → EReal) (ix3 b 0 0)
abbrev muT (c : Dev nD) : Fin 4 → Fin 8 → Fin 8 → EReal := fun b f k => (W3 (F := Ideal) m ρ c (Proc.devRef .tc main_v6) : S4x8x8.Idx → EReal) (ix3 b f k)

/-- The result buffer holds the tail's term of the three arrays. -/
theorem result_term (c : Dev nD) :
    (W6 (F := Ideal) m ρ c (Proc.devRef .tc main_v58) : S_.Idx → EReal)
      = tLoss (W3 (F := Ideal) m ρ c (Proc.devRef .tc main_v3)) (W3 (F := Ideal) m ρ c (Proc.devRef .tc main_v7))
          (W3 (F := Ideal) m ρ c (Proc.devRef .tc main_v6)) := by
  dsimp only [W6, W5, W4]
  after_results_simp
  rfl

/-- The result buffer at the end of @main. -/
theorem result_eq (c : Dev nD) :
    (W6 (F := Ideal) m ρ c (Proc.devRef .tc main_v58) : S_.Idx → EReal) = fun _ => lossK (nT m ρ c) (dT m ρ c) (muT m ρ c) := by
  funext j
  rw [result_term]
  exact tLoss_apply _ _ _ j

end Cert.KernelIdeal.Tail

end
-- ==== Proof.KernelWhole.lean ====
/-
  The kernel program's result as one function of its launched arguments: the loss in arrangement K of the launched
  labels' counts, the launched features' centroids, and the summed distances to those centroids.  Assembled from the
  four stretches of @main: the first pallas_call (counts and sums), the host's division (centroids), the second
  pallas_call (summed distances to the centroids it is handed), the host's tail (the loss of the three).
-/
import proofs.«424189_j66632122630437_4_alg».proof.Proof.Gen.KernelIdeal.Frame
import proofs.«424189_j66632122630437_4_alg».proof.Proof.Spec
import proofs.«424189_j66632122630437_4_alg».proof.Proof.SpecLaws
import proofs.«424189_j66632122630437_4_alg».proof.Proof.Region1
import proofs.«424189_j66632122630437_4_alg».proof.Proof.KernelMid
import proofs.«424189_j66632122630437_4_alg».proof.Proof.KernelTail
import Idealize.ShloMosaic.Lib.ValueIdx
import Idealize.ShloMosaic.Lib.Pipeline.Value
import Idealize.ShloMosaic.PureOps.Ideal.Laws

set_option maxRecDepth 16384

noncomputable section

namespace Cert.KernelIdeal.Whole

open Cert.KernelIdeal Cert.KernelIdeal.Gen Cert.Disc
open Idealize.ShloMosaic Idealize.ShloMosaic.TcCoe Idealize.ShloMosaic.ValueIdx Idealize.SL.Sem
open Idealize.ShloMosaic.Pipeline (Dat Cfg Window)

open Cert.KernelIdeal.Mid

variable (m : (ℓ : Loc nD τ sig) → Buf (Elt Ideal) ℓ) (ρ : Dev nD → PrngReg)

/-- The count array is not written by the second pallas_call: at its exit it is what it was at its entry. -/
theorem counts_exit (c : Dev nD) (b : Fin 4) (k : Fin 8) : Tail.nT m ρ c b k = cnt (labs m c) b k := by
  have h : W3 (F := Ideal) m ρ c (Proc.devRef .tc main_v3) = W2 (F := Ideal) m ρ c (Proc.devRef .tc main_v3) :=
    W3_of_ne m ρ c main_v3 (by decide)
  show (W3 (F := Ideal) m ρ c (Proc.devRef .tc main_v3) : S4x8.Idx → EReal) (ix2 b k) = _
  rw [h]
  exact counts_eq m ρ c b k

/-- The centroid array is an input of the second pallas_call: at its exit it is what it was at its entry. -/
theorem cent_exit (c : Dev nD) :
    W3 (F := Ideal) m ρ c (Proc.devRef .tc main_v6) = W2 (F := Ideal) m ρ c (Proc.devRef .tc main_v6) :=
  (W3_arr m ρ c 2).trans (Region1.cent_kept (V2 m ρ) c)

theorem means_exit (c : Dev nD) (b : Fin 4) (f : Fin 8) (k : Fin 8) : Tail.muT m ρ c b f k = mean (feat m c) (labs m c) b f k := by
  show (W3 (F := Ideal) m ρ c (Proc.devRef .tc main_v6) : S4x8x8.Idx → EReal) (ix3 b f k) = _
  rw [cent_exit m ρ c]
  exact means_eq m ρ c b f k

/-- The second pallas_call's output at its exit: the summed distances to the centroids, over the launched arguments. -/
theorem dist_exit (c : Dev nD) (b : Fin 4) :
    Tail.dT m ρ c b = distK (feat m c) (labs m c) (mean (feat m c) (labs m c)) b := by
  have h7 : W3 (F := Ideal) m ρ c (Proc.devRef .tc main_v7) = (dat1 (F := Ideal) (V2 m ρ) c).arrAt 3 cfg1.N := W3_arr m ρ c 3
  show (W3 (F := Ideal) m ρ c (Proc.devRef .tc main_v7) : S4x1x128.Idx → EReal) (ix3 b 0 0) = _
  rw [h7, Region1.dist_final (V2 m ρ) c b 0]
  have e0 : V2 (F := Ideal) m ρ c main_arg0 = m ((c : Thread nD τ).loc main_arg0) := arg0_eq m ρ c
  have e1 : V2 (F := Ideal) m ρ c main_arg1 = m ((c : Thread nD τ).loc main_arg1) := arg1_eq m ρ c
  have e2 : Region1.cent (V2 m ρ) c = mean (feat m c) (labs m c) :=
    funext fun b => funext fun f => funext fun k => means_eq m ρ c b f k
  rw [e0, e1, e2]

/-- The result buffer at the end of @main, over the launched arguments. -/
theorem result_eq (c : Dev nD) :
    (W6 (F := Ideal) m ρ c (Proc.devRef .tc main_v58) : S_.Idx → EReal)
      = fun _ => lossK (cnt (labs m c)) (distK (feat m c) (labs m c) (mean (feat m c) (labs m c))) (mean (feat m c) (labs m c)) := by
  rw [Tail.result_eq m ρ c]
  have hn : Tail.nT m ρ c = cnt (labs m c) := funext fun b => funext fun k => counts_exit m ρ c b k
  have hd : Tail.dT m ρ c = distK (feat m c) (labs m c) (mean (feat m c) (labs m c)) := funext fun b => dist_exit m ρ c b
  have hm : Tail.muT m ρ c = mean (feat m c) (labs m c) :=
    funext fun b => funext fun f => funext fun k => means_exit m ρ c b f k
  rw [hn, hd, hm]

end Cert.KernelIdeal.Whole

end
-- ==== Proof.RefFront.lean ====
/-
  The reference's first stages, read at an index: its count array is `cnt`, its centroid array is `mean`, and its
  summed distance per sample is `distR` (arrangement R) of those centroids.  The reference flattens the 512 x 512 pixels
  to one axis of 262144; a flat pixel k is (row k / 512, column k % 512).
-/
import proofs.«424189_j66632122630437_4_alg».proof.Proof.RefRun
import proofs.«424189_j66632122630437_4_alg».proof.Proof.Spec
import proofs.«424189_j66632122630437_4_alg».proof.Proof.SpecLaws
import proofs.«424189_j66632122630437_4_alg».proof.Proof.LibReduceTwo
import Idealize.ShloMosaic.Lib.ValueIdx
import Idealize.ShloMosaic.Lib.Pipeline.Value
import Idealize.ShloMosaic.PureOps.Ideal.Laws

set_option maxRecDepth 16384

noncomputable section

namespace Cert.ReferenceIdeal.Front

open Cert.ReferenceIdeal Cert.ReferenceIdeal.Gen Cert.ReferenceIdeal.Read Cert.Disc
open Idealize.ShloMosaic Idealize.ShloMosaic.TcCoe Idealize.ShloMosaic.ValueIdx Idealize.SL.Sem

variable (x0 : (⟨S4x8x512x512, .f32⟩ : BufTy).Contents (Elt Ideal)) (x1 : (⟨S4x512x512, .i32⟩ : BufTy).Contents (Elt Ideal))

/-- The indicator bit converted to a float is 1 where the two words agree and 0 elsewhere. -/
theorem uitofp_cmpi_eq (a b : BitVec 32) :
    (FloatOps.uitofp (F := Ideal) .f32 (IntOp.cmpi .eq a b) : EReal) = if a = b then 1 else 0 := by
  by_cases h : a = b
  · have hc : IntOp.cmpi .eq a b = 1#1 := by simp only [IntOp.cmpi, h, beq_self_eq_true]; rfl
    rw [if_pos h, hc]
    show (((1#1 : BitVec 1).toNat : ℝ) : EReal) = 1
    simp
  · have hc : IntOp.cmpi .eq a b = 0#1 := by
      simp only [IntOp.cmpi]
      have : (a == b) = false := by simpa using h
      rw [this]; rfl
    rw [if_neg h, hc]
    show (((0#1 : BitVec 1).toNat : ℝ) : EReal) = 0
    simp

/-- A flat pixel index, from its row and column. -/
abbrev px (h w : Fin 512) : Fin 262144 := ⟨h.val * 512 + w.val, by have := h.isLt; have := w.isLt; omega⟩

/-- The label array read through the reshape at a flat pixel is the label at (row, column). -/
theorem idx_lab (b : Fin 4) (h w : Fin 512) (c : Fin 8) :
    idx_main_v1 (idx_main_v2 (idx_main_v6 (ix3 b (px h w) c))) = ix3 b h w := by
  funext a
  refine Fin.ext ?_
  have hh := h.isLt; have hw := w.isLt; have hb := b.isLt
  match a with
  | ⟨0, _⟩ => show (b.val * 262144 + (h.val * 512 + w.val)) / 262144 = b.val; omega
  | ⟨1, _⟩ => show (b.val * 262144 + (h.val * 512 + w.val)) / 512 % 512 = h.val; omega
  | ⟨2, _⟩ => show (b.val * 262144 + (h.val * 512 + w.val)) % 512 = w.val; omega

/-- Stage %9 (the indicator as a float) at (sample, flat pixel, label) is the specification's indicator. -/
theorem oh_read (b : Fin 4) (h w : Fin 512) (c : Fin 8) :
    val_main_v9 (F := Ideal) x1 (ix3 b (px h w) c) = oh x1 b h w c := by
  rw [val_main_v9_apply, val_main_v8_apply, val_main_v6_apply, val_main_v2_apply, val_main_v1_apply,
    val_main_v7_apply, val_main_v5_apply, val_main_v4_apply, val_main_v3_apply, idx_lab, uitofp_cmpi_eq]
  rfl

/-- Stage %10 (the per-label pixel counts). -/
theorem counts_eq (b : Fin 4) (k : Fin 8) : val_main_v10 (F := Ideal) x1 (ix2 b k) = cnt x1 b k := by
  rw [val_main_v10_apply, val_main_cst_apply, Ideal.ofBits_def, Ideal.ofBits_zero_f32, zero_add, sum_pixels]
  unfold cnt
  refine Finset.sum_congr rfl fun h _ => Finset.sum_congr rfl fun w _ => ?_
  have hi : idx_main_v10 (ix2 b k) (px h w) = ix3 b (px h w) k :=
    funext fun a => Fin.ext (by match a with | ⟨0, _⟩ => rfl | ⟨1, _⟩ => rfl | ⟨2, _⟩ => rfl)
  show val_main_v9 (F := Ideal) x1 (idx_main_v10 (ix2 b k) (px h w)) = _
  rw [hi, oh_read]

/-- The feature array read through the reshape at a flat pixel is the feature at (row, column). -/
theorem idx_feat (b : Fin 4) (f : Fin 8) (h w : Fin 512) :
    idx_main_v0 (ix3 b f (px h w)) = ix4 b f h w := by
  funext a
  refine Fin.ext ?_
  have hh := h.isLt; have hw := w.isLt; have hb := b.isLt; have hf := f.isLt
  match a with
  | ⟨0, _⟩ => show ((b.val * 8 + f.val) * 262144 + (h.val * 512 + w.val)) / 2097152 = b.val; omega
  | ⟨1, _⟩ => show ((b.val * 8 + f.val) * 262144 + (h.val * 512 + w.val)) / 262144 % 8 = f.val; omega
  | ⟨2, _⟩ => show ((b.val * 8 + f.val) * 262144 + (h.val * 512 + w.val)) / 512 % 512 = h.val; omega
  | ⟨3, _⟩ => show ((b.val * 8 + f.val) * 262144 + (h.val * 512 + w.val)) % 512 = w.val; omega

/-- Stage %14 (the centroids). -/
theorem means_eq (b : Fin 4) (f : Fin 8) (k : Fin 8) : val_main_v14 (F := Ideal) x0 x1 (ix3 b f k) = mean x0 x1 b f k := by
  rw [val_main_v14_apply, val_main_v11_apply, val_main_v13_apply, val_main_v12_apply, Ideal.hostDivf_def]
  have hc : idx_main_v12 (idx_main_v13 (ix3 b f k)) = ix2 b k :=
    funext fun a => Fin.ext (by match a with | ⟨0, _⟩ => rfl | ⟨1, _⟩ => rfl)
  rw [hc, counts_eq, sum_pixels]
  unfold mean sm
  congr 1
  refine Finset.sum_congr rfl fun h _ => Finset.sum_congr rfl fun w _ => ?_
  have hl : lidx_main_v11 (ix3 b f k) (px h w) = ix3 b f (px h w) :=
    funext fun a => Fin.ext (by match a with | ⟨0, _⟩ => rfl | ⟨1, _⟩ => rfl | ⟨2, _⟩ => rfl)
  have hr : ridx_main_v11 (ix3 b f k) (px h w) = ix3 b (px h w) k :=
    funext fun a => Fin.ext (by match a with | ⟨0, _⟩ => rfl | ⟨1, _⟩ => rfl | ⟨2, _⟩ => rfl)
  show val_main_v0 (F := Ideal) x0 (lidx_main_v11 (ix3 b f k) (px h w)) * val_main_v9 (F := Ideal) x1 (ridx_main_v11 (ix3 b f k) (px h w)) = _
  rw [hl, hr, val_main_v0_apply, idx_feat, oh_read]

/-- A select on the bit of the comparison "s > 0" is the `if` on `0 < s`. -/
theorem select_cmp_ogt (s a b : EReal) : Scalar.select (Ideal.cmp .ogt s 0) a b = if 0 < s then a else b := by
  unfold Scalar.select Ideal.cmp
  by_cases h : 0 < s <;> simp [h]

/-- Stage %22 at (sample, feature, flat pixel, label): the centroid minus the feature, masked by the indicator. -/
theorem diff_read (b : Fin 4) (f : Fin 8) (h w : Fin 512) (c : Fin 8) :
    val_main_v22 (F := Ideal) x0 x1 (ix4 b f (px h w) c)
      = (mean x0 x1 b f c - x0 (ix4 b f h w)) * oh x1 b h w c := by
  have h1 : idx_main_v15 (idx_main_v17 (ix4 b f (px h w) c)) = ix3 b f c :=
    funext fun a => Fin.ext (by match a with | ⟨0, _⟩ => rfl | ⟨1, _⟩ => rfl | ⟨2, _⟩ => rfl)
  have h2 : idx_main_v16 (idx_main_v18 (ix4 b f (px h w) c)) = ix3 b f (px h w) :=
    funext fun a => Fin.ext (by match a with | ⟨0, _⟩ => rfl | ⟨1, _⟩ => rfl | ⟨2, _⟩ => rfl)
  have h3 : idx_main_v20 (idx_main_v21 (ix4 b f (px h w) c)) = ix3 b (px h w) c :=
    funext fun a => Fin.ext (by match a with | ⟨0, _⟩ => rfl | ⟨1, _⟩ => rfl | ⟨2, _⟩ => rfl)
  rw [val_main_v22_apply, val_main_v19_apply, val_main_v17_apply, val_main_v15_apply, val_main_v18_apply,
    val_main_v16_apply, val_main_v0_apply, val_main_v21_apply, val_main_v20_apply, h1, h2, h3, idx_feat,
    means_eq, oh_read]
  rfl

/-- Stage %24 at (sample, flat pixel, label): the sum over the features of the squared masked difference. -/
theorem sq_read (b : Fin 4) (h w : Fin 512) (c : Fin 8) :
    val_main_v24 (F := Ideal) x0 x1 (ix3 b (px h w) c)
      = ∑ f : Fin 8, ((mean x0 x1 b f c - x0 (ix4 b f h w)) * oh x1 b h w c)
          * ((mean x0 x1 b f c - x0 (ix4 b f h w)) * oh x1 b h w c) := by
  rw [val_main_v24_apply, val_main_cst_0_apply, Ideal.ofBits_def, Ideal.ofBits_zero_f32, zero_add]
  refine Finset.sum_congr rfl fun f _ => ?_
  have hi : idx_main_v24 (ix3 b (px h w) c) f = ix4 b f (px h w) c :=
    funext fun a => Fin.ext (by match a with | ⟨0, _⟩ => rfl | ⟨1, _⟩ => rfl | ⟨2, _⟩ => rfl | ⟨3, _⟩ => rfl)
  rw [hi, val_main_v23_apply, diff_read]
  rfl

/-- Stage %33 at (sample, flat pixel, label): the clipped squared distance of the pixel to the label's centroid. -/
theorem dR_read (b : Fin 4) (h w : Fin 512) (c : Fin 8) :
    val_main_v33 (F := Ideal) x0 x1 (ix3 b (px h w) c) = dR x0 x1 (mean x0 x1) b h w c := by
  simp only [val_main_v33_apply, val_main_v32_apply, val_main_call2_v4_apply, val_main_call2_v3_apply,
    val_main_cst_6_apply, val_main_call2_v2_apply, val_main_call2_v1_apply, val_main_call2_v0_apply,
    val_main_cst_5_apply, val_main_v31_apply, val_main_v30_apply, val_main_cst_4_apply, val_main_v29_apply,
    val_main_call1_v2_apply, val_main_call1_v1_apply, val_main_call1_v0_apply, val_main_cst_3_apply,
    val_main_v28_apply, val_main_v27_apply, val_main_call0_v2_apply, val_main_call0_v1_apply,
    val_main_call0_v0_apply, val_main_cst_2_apply, val_main_v26_apply, val_main_v25_apply, val_main_cst_1_apply,
    sq_read, Ideal.ofBits_def, Ideal.ofBits_zero_f32, Ideal.cmpf_def, Ideal.mulf_def, Ideal.subf_def,
    Ideal.minimumf_def, Ideal.maximumf_def, Ideal.hostUnary_sqrt_def, select_cmp_ogt]
  rfl

/-- Stage %34 (the summed clipped squared distances): a sum over the pixel axis and the label axis. -/
theorem dist_eq (b : Fin 4) : val_main_v34 (F := Ideal) x0 x1 (ix1 b) = distR x0 x1 (mean x0 x1) b := by
  unfold val_main_v34
  simp only [Host.reduceAdd, Ideal.hostReduceAdd_def]
  rw [Cert.LibReduceTwo.hostReduceAdd_4_262144_8, val_main_cst_7_apply, Ideal.ofBits_def, Ideal.ofBits_zero_f32,
    zero_add, sum_pixels]
  unfold distR
  refine Finset.sum_congr rfl fun h _ => Finset.sum_congr rfl fun w _ => Finset.sum_congr rfl fun c _ => ?_
  exact dR_read x0 x1 b h w c

end Cert.ReferenceIdeal.Front

end
-- ==== Proof.RefTailDist.lean ====
/-
  The centroid-separation term of the reference, read at a sample: stages %41 .. %71 from the centroids (stage %14).
-/
import proofs.«424189_j66632122630437_4_alg».proof.Proof.RefRun
import proofs.«424189_j66632122630437_4_alg».proof.Proof.Spec
import proofs.«424189_j66632122630437_4_alg».proof.Proof.SpecLaws
import proofs.«424189_j66632122630437_4_alg».proof.Proof.LibReduceTwo
import Idealize.ShloMosaic.Lib.ValueIdx
import Idealize.ShloMosaic.Lib.Pipeline.Value
import Idealize.ShloMosaic.PureOps.Ideal.Laws

set_option maxRecDepth 16384

noncomputable section

namespace Cert.ReferenceIdeal.TailDist

open Cert.ReferenceIdeal Cert.ReferenceIdeal.Gen Cert.ReferenceIdeal.Read Cert.Disc
open Idealize.ShloMosaic Idealize.ShloMosaic.TcCoe Idealize.ShloMosaic.ValueIdx Idealize.SL.Sem

variable (x0 : (⟨S4x8x512x512, .f32⟩ : BufTy).Contents (Elt Ideal)) (x1 : (⟨S4x512x512, .i32⟩ : BufTy).Contents (Elt Ideal))

/-- The centroids (stage %14) as a function of (sample, feature, label). -/
abbrev mu : Fin 4 → Fin 8 → Fin 8 → EReal := fun b f k => val_main_v14 (F := Ideal) x0 x1 (ix3 b f k)

/-- The indicator bit converted to a float is 1 where the two words agree and 0 elsewhere. -/
theorem uitofp_cmpi_eq (a b : BitVec 32) :
    (FloatOps.uitofp (F := Ideal) .f32 (IntOp.cmpi .eq a b) : EReal) = if a = b then 1 else 0 := by
  by_cases h : a = b
  · have hc : IntOp.cmpi .eq a b = 1#1 := by simp only [IntOp.cmpi, h, beq_self_eq_true]; rfl
    rw [if_pos h, hc]
    show (((1#1 : BitVec 1).toNat : ℝ) : EReal) = 1
    simp
  · have hc : IntOp.cmpi .eq a b = 0#1 := by
      simp only [IntOp.cmpi]
      have : (a == b) = false := by simpa using h
      rw [this]; rfl
    rw [if_neg h, hc]
    show (((0#1 : BitVec 1).toNat : ℝ) : EReal) = 0
    simp

/-- A select on the bit of the comparison "s > 0" is the `if` on `0 < s`. -/
theorem select_cmp_ogt (s a b : EReal) : Scalar.select (Ideal.cmp .ogt s 0) a b = if 0 < s then a else b := by
  unfold Scalar.select Ideal.cmp
  by_cases h : 0 < s <;> simp [h]

/-- Two labels below 8, as 32-bit words (the first with a zero added), agree exactly when the labels do. -/
theorem word_eq_iff (c c' : Fin 8) :
    IntOp.addi (BitVec.ofNat 32 c.val) 0#32 = BitVec.ofNat 32 c'.val ↔ c = c' := by
  revert c c'; decide

/-- The identity matrix's entry, as the program computes it from two position counters. -/
theorem eye_read (c c' : Fin 8) :
    (FloatOps.uitofp (F := Ideal) .f32
      (IntOp.cmpi .eq (IntOp.addi (BitVec.ofNat 32 c.val) 0#32) (BitVec.ofNat 32 c'.val)) : EReal) = eye c c' := by
  rw [uitofp_cmpi_eq]
  unfold eye
  by_cases h : c = c'
  · rw [if_pos h, if_pos ((word_eq_iff c c').mpr h)]
  · rw [if_neg h, if_neg (mt (word_eq_iff c c').mp h)]

/-- Stage %63 at (c, c'): the margin between the two centroids. -/
theorem margin_read (c c' : Fin 8) : val_main_v63 (F := Ideal) (ix2 c c') = margin c c' := by
  rw [val_main_v63_apply, val_main_v62_apply, val_main_cst_15_apply, val_main_v61_apply, val_main_v60_apply,
    val_main_cst_14_apply, val_main_v59_apply, val_main_v58_apply, val_main_v57_apply, val_main_v54_apply,
    val_main_v56_apply, val_main_c_apply, val_main_v55_apply]
  show FloatOps.mulf (F := Ideal) three (FloatOps.subf (F := Ideal) one (FloatOps.uitofp (F := Ideal) .f32
      (IntOp.cmpi .eq (IntOp.addi (BitVec.ofNat 32 c.val) 0#32) (BitVec.ofNat 32 c'.val)))) = _
  rw [eye_read]
  rfl

/-- Stage %48 at (sample, c, c'): the squared distance between the two centroids. -/
theorem pdsq_read (b : Fin 4) (c c' : Fin 8) :
    val_main_v48 (F := Ideal) x0 x1 (ix3 b c c') = pdsq (mu x0 x1) b c c' := by
  rw [val_main_v48_apply, val_main_cst_10_apply, Ideal.ofBits_def, Ideal.ofBits_zero_f32, zero_add]
  unfold pdsq
  refine Finset.sum_congr rfl fun f _ => ?_
  have hi : idx_main_v48 (ix3 b c c') f = ix4 b c c' f :=
    funext fun a => Fin.ext (by match a with | ⟨0, _⟩ => rfl | ⟨1, _⟩ => rfl | ⟨2, _⟩ => rfl | ⟨3, _⟩ => rfl)
  have h1 : idx_main_v41 (idx_main_v42 (idx_main_v44 (ix4 b c c' f))) = ix3 b f c :=
    funext fun a => Fin.ext (by match a with | ⟨0, _⟩ => rfl | ⟨1, _⟩ => rfl | ⟨2, _⟩ => rfl)
  have h2 : idx_main_v41 (idx_main_v43 (idx_main_v45 (ix4 b c c' f))) = ix3 b f c' :=
    funext fun a => Fin.ext (by match a with | ⟨0, _⟩ => rfl | ⟨1, _⟩ => rfl | ⟨2, _⟩ => rfl)
  rw [hi, val_main_v47_apply, val_main_v46_apply, val_main_v44_apply, val_main_v42_apply, val_main_v41_apply, h1,
    val_main_v45_apply, val_main_v43_apply, val_main_v41_apply, h2]
  rfl

/-- Stage %68 at (sample, c, c'): the clipped and squared shortfall of the centroids' distance from their margin. -/
theorem clip_read (b : Fin 4) (c c' : Fin 8) :
    val_main_v68 (F := Ideal) x0 x1 (ix3 b c c') = clipsq (margin c c' - safeNorm (pdsq (mu x0 x1) b c c')) := by
  have hm : idx_main_v64 (idx_main_v65 (ix3 b c c')) = ix2 c c' :=
    funext fun a => Fin.ext (by match a with | ⟨0, _⟩ => rfl | ⟨1, _⟩ => rfl)
  have hM : val_main_v65 (F := Ideal) (ix3 b c c') = margin c c' := by
    rw [val_main_v65_apply, val_main_v64_apply, hm, margin_read]
  simp only [val_main_v68_apply, val_main_v67_apply, val_main_call5_v4_apply, val_main_call5_v3_apply,
    val_main_cst_17_apply, val_main_call5_v2_apply, val_main_call5_v1_apply, val_main_call5_v0_apply,
    val_main_cst_16_apply, val_main_v66_apply, hM, val_main_v53_apply, val_main_call4_v2_apply,
    val_main_call4_v1_apply, val_main_call4_v0_apply, val_main_cst_13_apply, val_main_v52_apply,
    val_main_v51_apply, val_main_call3_v2_apply, val_main_call3_v1_apply, val_main_call3_v0_apply,
    val_main_cst_12_apply, val_main_v50_apply, val_main_v49_apply, val_main_cst_11_apply, pdsq_read,
    Ideal.ofBits_def, Ideal.ofBits_zero_f32, Ideal.cmpf_def, Ideal.mulf_def, Ideal.subf_def,
    Ideal.minimumf_def, Ideal.maximumf_def, Ideal.hostUnary_sqrt_def, select_cmp_ogt]
  rfl

/-- Stage %71 (= %69 / 56) at sample b. -/
theorem ldist_eq (b : Fin 4) : val_main_v71 (F := Ideal) x0 x1 (ix1 b) = ldistR (mu x0 x1) b := by
  rw [val_main_v71_apply, val_main_v70_apply, val_main_cst_19_apply, Ideal.hostDivf_def, Ideal.ofBits_def]
  unfold val_main_v69
  simp only [Host.reduceAdd, Ideal.hostReduceAdd_def]
  rw [Cert.LibReduceTwo.hostReduceAdd_4_8_8, val_main_cst_18_apply, Ideal.ofBits_def, Ideal.ofBits_zero_f32, zero_add]
  unfold ldistR
  refine congrArg (fun s => Ideal.div s fiftysix) ?_
  refine Finset.sum_congr rfl fun c _ => Finset.sum_congr rfl fun c' _ => ?_
  exact clip_read x0 x1 b c c'

end Cert.ReferenceIdeal.TailDist

end
-- ==== Proof.RefTail.lean ====
/-
  The reference's last stages, read at an index: from its count array (stage %10), its summed distances (stage %34) and
  its centroids (stage %14) the result is the loss in arrangement R.  The variance term (stages %35 .. %40) and the
  regulariser (stages %72 .. %81) are read here; the centroid-separation term (stage %71) is read in its own module.
-/
import proofs.«424189_j66632122630437_4_alg».proof.Proof.RefRun
import proofs.«424189_j66632122630437_4_alg».proof.Proof.Spec
import proofs.«424189_j66632122630437_4_alg».proof.Proof.SpecLaws
import proofs.«424189_j66632122630437_4_alg».proof.Proof.RefTailDist
import Idealize.ShloMosaic.Lib.ValueIdx
import Idealize.ShloMosaic.Lib.Pipeline.Value
import Idealize.ShloMosaic.PureOps.Ideal.Laws

set_option maxRecDepth 16384

noncomputable section

namespace Cert.ReferenceIdeal.Tail

open Cert.ReferenceIdeal Cert.ReferenceIdeal.Gen Cert.ReferenceIdeal.Read Cert.Disc
open Idealize.ShloMosaic Idealize.ShloMosaic.TcCoe Idealize.ShloMosaic.ValueIdx Idealize.SL.Sem

variable (x0 : (⟨S4x8x512x512, .f32⟩ : BufTy).Contents (Elt Ideal)) (x1 : (⟨S4x512x512, .i32⟩ : BufTy).Contents (Elt Ideal))

abbrev nR : Fin 4 → Fin 8 → EReal := fun b k => val_main_v10 (F := Ideal) x1 (ix2 b k)
abbrev dR' : Fin 4 → EReal := fun b => val_main_v34 (F := Ideal) x0 x1 (ix1 b)
abbrev muR : Fin 4 → Fin 8 → Fin 8 → EReal := fun b f k => val_main_v14 (F := Ideal) x0 x1 (ix3 b f k)

/-! ## Two readings: a guarded choice, and a sum over a 4-vector's one axis -/

/-- A choice on the test "s is above zero" is an if-then-else on the order of the extended reals. -/
theorem select_ogt {α : Type} (s : EReal) (a b : α) : Scalar.select (Ideal.cmp .ogt s 0) a b = if 0 < s then a else b := by
  unfold Scalar.select Ideal.cmp
  by_cases h : 0 < s <;> simp [h]

/-- A sum over the one axis of a 4-vector is the sum over its four entries. -/
theorem sum_idx1 (g : S4.Idx → EReal) : ∑ j : S4.Idx, g j = ∑ b : Fin 4, g (ix1 b) :=
  (Fintype.sum_equiv ⟨fun b => ix1 b, fun j => j 0, fun b => rfl, fun j => (eq_ix1 j).symm⟩ (fun b => g (ix1 b)) g
    (fun _ => rfl)).symm

/-! ## The variance term (stages %35 .. %40) -/

/-- Stage %40 at a sample: the summed distance divided by each count, added over the labels, divided by 8. -/
theorem lvar_eq (b : Fin 4) : val_main_v40 (F := Ideal) x0 x1 (ix1 b) = lvarR (nR x1) (dR' x0 x1) b := by
  have e38 : ∀ k : Fin 8, idx_main_v38 (ix1 b) k = ix2 b k := fun k =>
    funext fun a => Fin.ext (by match a with | ⟨0, _⟩ => rfl | ⟨1, _⟩ => rfl)
  have e35 : ∀ k : Fin 8, idx_main_v35 (idx_main_v36 (ix2 b k)) = ix1 b := fun k =>
    funext fun a => Fin.ext (by match a with | ⟨0, _⟩ => rfl)
  rw [val_main_v40_apply, val_main_v38_apply, val_main_v39_apply, val_main_cst_9_apply, val_main_cst_8_apply]
  simp only [val_main_v37_apply, val_main_v36_apply, val_main_v35_apply, e38, e35, Ideal.hostDivf_def, Ideal.ofBits_def,
    Ideal.ofBits_zero_f32, zero_add]
  rfl

/-! ## The regulariser (stages %72 .. %81) -/

/-- Stage %73 at (b, c): the squared norm of the centroid of label c. -/
theorem regsq_read (b : Fin 4) (c : Fin 8) : val_main_v73 (F := Ideal) x0 x1 (ix2 b c) = regsq (muR x0 x1) b c := by
  have e73 : ∀ k : Fin 8, idx_main_v73 (ix2 b c) k = ix3 b k c := fun k =>
    funext fun a => Fin.ext (by match a with | ⟨0, _⟩ => rfl | ⟨1, _⟩ => rfl | ⟨2, _⟩ => rfl)
  rw [val_main_v73_apply, val_main_cst_20_apply]
  simp only [val_main_v72_apply, e73, Ideal.mulf_def, Ideal.ofBits_def, Ideal.ofBits_zero_f32, zero_add]
  rfl

/-- Stage %78 at (b, c): the guarded root of that squared norm. -/
theorem regnorm_read (b : Fin 4) (c : Fin 8) :
    val_main_v78 (F := Ideal) x0 x1 (ix2 b c) = safeNorm (regsq (muR x0 x1) b c) := by
  simp only [val_main_v78_apply, val_main_v77_apply, val_main_v76_apply, val_main_v75_apply, val_main_v74_apply,
    val_main_cst_21_apply, val_main_call7_v2_apply, val_main_call7_v1_apply, val_main_call7_v0_apply,
    val_main_cst_23_apply, val_main_call6_v2_apply, val_main_call6_v1_apply, val_main_call6_v0_apply,
    val_main_cst_22_apply, regsq_read, Ideal.cmpf_def, Ideal.hostUnary_sqrt_def, Ideal.ofBits_def,
    Ideal.ofBits_zero_f32, select_ogt]
  rfl

/-- Stage %81 at a sample: the regulariser, each centroid norm divided by 8 before the sum. -/
theorem lreg_eq (b : Fin 4) : val_main_v81 (F := Ideal) x0 x1 (ix1 b) = lregR (muR x0 x1) b := by
  have e81 : ∀ k : Fin 8, idx_main_v81 (ix1 b) k = ix2 b k := fun k =>
    funext fun a => Fin.ext (by match a with | ⟨0, _⟩ => rfl | ⟨1, _⟩ => rfl)
  rw [val_main_v81_apply, val_main_cst_25_apply]
  simp only [val_main_v80_apply, val_main_v79_apply, val_main_cst_24_apply, e81, regnorm_read, Ideal.hostDivf_def,
    Ideal.ofBits_def, Ideal.ofBits_zero_f32, zero_add]
  rfl

/-! ## The loss (stages %82 .. %91) -/

/-- Stage %91, the result. -/
theorem result_eq : val_main_v91 (F := Ideal) x0 x1 = fun _ => lossR (nR x1) (dR' x0 x1) (muR x0 x1) := by
  funext i
  rw [val_main_v91_apply, val_main_v90_apply, val_main_cst_30_apply, val_main_cst_29_apply, sum_idx1]
  simp only [val_main_v89_apply, val_main_v88_apply, val_main_v87_apply, val_main_cst_28_apply, val_main_v86_apply,
    val_main_v85_apply, val_main_v84_apply, val_main_cst_27_apply, val_main_v83_apply, val_main_v82_apply,
    val_main_cst_26_apply, lvar_eq, Cert.ReferenceIdeal.TailDist.ldist_eq, lreg_eq, Ideal.hostDivf_def, Ideal.addf_def, Ideal.mulf_def,
    Ideal.ofBits_def, Ideal.ofBits_zero_f32, zero_add]
  rfl

end Cert.ReferenceIdeal.Tail

end
-- ==== Proof.RefWhole.lean ====
/-
  The reference program's result as one function of its launched arguments: the loss in arrangement R of the labels'
  counts, the features' centroids, and the summed distances (arrangement R) to those centroids.
-/
import proofs.«424189_j66632122630437_4_alg».proof.Proof.RefRun
import proofs.«424189_j66632122630437_4_alg».proof.Proof.Spec
import proofs.«424189_j66632122630437_4_alg».proof.Proof.SpecLaws
import proofs.«424189_j66632122630437_4_alg».proof.Proof.RefFront
import proofs.«424189_j66632122630437_4_alg».proof.Proof.RefTail
import Idealize.ShloMosaic.Lib.ValueIdx
import Idealize.ShloMosaic.Lib.Pipeline.Value
import Idealize.ShloMosaic.PureOps.Ideal.Laws

set_option maxRecDepth 16384

noncomputable section

namespace Cert.ReferenceIdeal.Whole

open Cert.ReferenceIdeal Cert.ReferenceIdeal.Gen Cert.ReferenceIdeal.Read Cert.Disc
open Idealize.ShloMosaic Idealize.ShloMosaic.TcCoe Idealize.ShloMosaic.ValueIdx Idealize.SL.Sem

variable (m : (ℓ : Loc nD τ sig) → Buf (Elt Ideal) ℓ)

/-- The features as launched on core c. -/
abbrev feat (c : Dev nD) : SP.Idx → EReal := m ((c.tc : Thread nD τ).loc main_arg0)
/-- The labels as launched on core c. -/
abbrev labs (c : Dev nD) : ST.Idx → BitVec 32 := m ((c.tc : Thread nD τ).loc main_arg1)

/-- The result the generated run names, over the launched arguments. -/
theorem result_eq (c : Dev nD) :
    (Cert.ReferenceIdeal.Value.res_main_v91 (F := Ideal) m c : S_.Idx → EReal)
      = fun _ => lossR (cnt (labs m c)) (distR (feat m c) (labs m c) (mean (feat m c) (labs m c))) (mean (feat m c) (labs m c)) := by
  rw [val_main_v91_eq m c, Tail.result_eq]
  have hn : Tail.nR (m ((c.tc : Thread nD τ).loc main_arg1)) = cnt (labs m c) :=
    funext fun b => funext fun k => Front.counts_eq _ b k
  have hm : Tail.muR (m ((c.tc : Thread nD τ).loc main_arg0)) (m ((c.tc : Thread nD τ).loc main_arg1)) = mean (feat m c) (labs m c) :=
    funext fun b => funext fun f => funext fun k => Front.means_eq _ _ b f k
  have hd : Tail.dR' (m ((c.tc : Thread nD τ).loc main_arg0)) (m ((c.tc : Thread nD τ).loc main_arg1))
      = distR (feat m c) (labs m c) (mean (feat m c) (labs m c)) := funext fun b => Front.dist_eq _ _ b
  rw [hn, hm, hd]
  rfl

end Cert.ReferenceIdeal.Whole

end
-- ==== Proof.lean ====
/-
  The certificate of a clustering ("discriminative") loss: a kernel program of two pallas_calls against a plain
  reference, equal over the extended reals whenever the features are finite and every label 0..7 occurs among the
  pixels of every sample.

  Both programs compute, per sample, the per-label pixel counts and feature sums, the centroids (their quotient), the
  summed clipped squared distance of every pixel to its own label's centroid, and from those a variance term, a term
  pushing centroids apart, and a regulariser.  They differ in arrangement only.  The kernel counts and sums tile by
  tile (two tiles of 256 rows, blocks carried across the two grid points of a sample), the reference over the
  flattened 262144 pixels: a finite sum over the extended reals can be re-associated freely.  The kernel masks the
  squared distance after summing over features and takes a plain root; the reference masks each feature's difference
  (with the opposite sign) first and guards the root by a positivity test: for an indicator in {0, 1}, finite
  features and a non-negative sum of squares these agree.  The kernel multiplies the summed distance by the sum of
  reciprocal counts, the reference divides it by each count and adds: equal because each count is a positive real
  (this is where the presence of every label is used: an absent label would make its count 0 and the two
  arrangements of 0/0 and x/0 differ), so each quotient is a product with a non-negative real and the product
  distributes.  The regulariser divides by 8 before or after adding non-negative roots.

  The kernel's run (its result buffer named at the last boundary) is a call of the launch theorem over the generated
  segments; what each region leaves, the host stretches, and the reference's stages are read in the modules imported
  below; the laws joining the two arrangements are in SpecLaws, the reading of the precondition in PreRead.
-/
import proofs.«424189_j66632122630437_4_alg».proof.Defs
import proofs.«424189_j66632122630437_4_alg».proof.Proof.Gen.Kernel
import proofs.«424189_j66632122630437_4_alg».proof.Proof.Gen.Kernel.Frame
import proofs.«424189_j66632122630437_4_alg».proof.Proof.Gen.KernelIdeal
import proofs.«424189_j66632122630437_4_alg».proof.Proof.Gen.KernelIdeal.Frame
import proofs.«424189_j66632122630437_4_alg».proof.Proof.Gen.ReferenceIdeal
import proofs.«424189_j66632122630437_4_alg».proof.Proof.Gen.Pre_finite_inputs
import proofs.«424189_j66632122630437_4_alg».proof.Proof.RefRun
import proofs.«424189_j66632122630437_4_alg».proof.Proof.Spec
import proofs.«424189_j66632122630437_4_alg».proof.Proof.SpecLaws
import proofs.«424189_j66632122630437_4_alg».proof.Proof.PreRead
import proofs.«424189_j66632122630437_4_alg».proof.Proof.KernelRun
import proofs.«424189_j66632122630437_4_alg».proof.Proof.KernelWhole
import proofs.«424189_j66632122630437_4_alg».proof.Proof.RefWhole
import Idealize.ShloMosaic.Adequacy
import Idealize.ShloMosaic.Init

noncomputable section

namespace Cert.Proof

open Idealize.ShloMosaic Idealize.ShloMosaic.TcCoe Idealize.SL.Sem Cert.Disc

/-! ## The three frames and the idealization -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-! ## The two arrangements agree under the precondition -/

/-- With finite features and every label present, the loss in arrangement R (the reference's) of the counts, centroids
    and R-distances is the loss in arrangement K (the kernel's) of the counts, centroids and K-distances. -/
theorem arrangements_agree (p : SP.Idx → EReal) (t : ST.Idx → BitVec 32)
    (hp : ∀ i, ∃ r : ℝ, p i = (r : EReal)) (hl : ∀ (b : Fin 4) (c : Fin 8), ∃ (hh ww : Fin 512), lab t b hh ww c) :
    lossR (cnt t) (distR p t (mean p t)) (mean p t) = lossK (cnt t) (distK p t (mean p t)) (mean p t) := by
  have hd : distR p t (mean p t) = distK p t (mean p t) := funext fun b => distR_eq_distK p t (mean p t) hp b
  rw [hd]
  exact lossR_eq_lossK (cnt t) (distK p t (mean p t)) (mean p t) fun b c => cnt_pos_real t b c (hl b c)

/-! ## The value claim -/

theorem algebraic : Cert.algebraic_KernelIdeal_ReferenceIdeal := by
  intro m ρ m' ρ' hpre hagree
  refine ⟨fun c => Cert.KernelIdeal.Gen.W6 (F := Ideal) m ρ c (Proc.devRef .tc Cert.KernelIdeal.main_v58),
    Cert.KernelIdeal.ValueRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  -- the reference's result over ITS arguments, which are the kernel's
  obtain ⟨hp, hl⟩ := Cert.PreRead.of_pre _ _ (hpre c)
  have hR := Cert.ReferenceIdeal.Whole.result_eq m' c
  have hK := Cert.KernelIdeal.Whole.result_eq m ρ c
  have e0 : Cert.ReferenceIdeal.Whole.feat m' c = Cert.KernelIdeal.Mid.feat m c := (hagree c).1
  have e1 : Cert.ReferenceIdeal.Whole.labs m' c = Cert.KernelIdeal.Mid.labs m c := (hagree c).2
  rw [e0, e1] at hR
  exact hR.trans ((congrArg (fun x : EReal => fun _ : Cert.KernelIdeal.S_.Idx => x)
    (arrangements_agree _ _ hp hl)).trans hK.symm)

/-! ## The certificate -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
